-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg8 : FVec F S128 .f32) (main_arg14 : FVec F S128 .f32) (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_cst_28 : FVec F S_ .f32 := constant S_ .f32 0x00000000#32
  let main_v74 : FVec F S128 .f32 := broadcastInDim S128 ![] bcast_S_S128 main_cst_28
  let main_v75 : IVec S128 1 := cmpf .oge main_arg8 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  let main_cst_30 : FVec F S_ .f32 := constant S_ .f32 0x00000000#32
  let main_v78 : FVec F S128 .f32 := broadcastInDim S128 ![] bcast_S_S128 main_cst_30
  let main_v79 : IVec S128 1 := cmpf .oge main_arg14 main_v78
  let main_c_31 : IVec S_ 1 := constantI S_ 1 1#1
  let main_v80 : IVec S_ 1 := (fun x v => Host.reduce IntOp.andi x v reducesTo_S128_S_d0 h_S_) main_v79 main_c_31
  let main_v81 : IVec S_ 1 := andi main_v77 main_v80
  main_v81

def fn_part3 {F : FTy → Type} [FloatOps F] (main_arg8 : FVec F S128 .f32) (main_arg13 : FVec F S128 .f32) (main_arg14 : FVec F S128 .f32) (main_arg15 : FVec F S128x2 .f32) (main_arg16 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg15
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg8 main_arg14 main_arg16 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x2 .f32) (main_arg16 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x2 .f32) (main_arg16 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x512 .f32) (main_arg1 : IVec S2x800000 32) (main_arg2 : IVec S50000 32) (main_arg3 : FVec F S512x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x2 .f32) (main_arg16 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x512 : Shape := ⟨2, ![50000, 512]⟩
abbrev S2x800000 : Shape := ⟨2, ![2, 800000]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x512 : Shape := ⟨2, ![5000, 512]⟩
abbrev S5000x128 : Shape := ⟨2, ![5000, 128]⟩
abbrev S850000x128 : Shape := ⟨2, ![850000, 128]⟩
abbrev S1x128 : Shape := ⟨2, ![1, 128]⟩
abbrev S64 : Shape := ⟨1, ![64]⟩
abbrev S1x64 : Shape := ⟨2, ![1, 64]⟩
abbrev S50000x1 : Shape := ⟨2, ![50000, 1]⟩
abbrev S50000x64 : Shape := ⟨2, ![50000, 64]⟩
abbrev S64x128 : Shape := ⟨2, ![64, 128]⟩
abbrev S5000x64 : Shape := ⟨2, ![5000, 64]⟩
abbrev S64x5000 : Shape := ⟨2, ![64, 5000]⟩
abbrev S64x1 : Shape := ⟨2, ![64, 1]⟩
abbrev S64x2 : Shape := ⟨2, ![64, 2]⟩
abbrev S1x2 : Shape := ⟨2, ![1, 2]⟩

abbrev nBuf : Space → Nat
  | .hbm => 129
  | .vmem => 30
  | .smem => 0
  | _ => 0

abbrev hbmTy0_0 (i : Nat) : BufTy := match i % 128 with
  | 0 => ⟨S50000x512, .f32⟩
  | 1 => ⟨S2x800000, .i32⟩
  | 2 => ⟨S50000, .i32⟩
  | 3 => ⟨S512x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x2, .f32⟩
  | 16 => ⟨S2, .f32⟩
  | 17 => ⟨S1x800000, .i32⟩
  | 18 => ⟨S800000, .i32⟩
  | 19 => ⟨S1x800000, .i32⟩
  | 20 => ⟨S800000, .i32⟩
  | 21 => ⟨S50000, .i32⟩
  | 22 => ⟨S850000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S850000x1, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S_, .f32⟩
  | 68 => ⟨S128, .f32⟩
  | 69 => ⟨S128, .f32⟩
  | 70 => ⟨S128, .f32⟩
  | 71 => ⟨S128, .f32⟩
  | 72 => ⟨S128, .f32⟩
  | 73 => ⟨S128, .f32⟩
  | 74 => ⟨S1x128, .f32⟩
  | 75 => ⟨S1x128, .f32⟩
  | 76 => ⟨S1x128, .f32⟩
  | 77 => ⟨S50000x128, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S_, .f32⟩
  | 95 => ⟨S128, .f32⟩
  | 96 => ⟨S128, .f32⟩
  | 97 => ⟨S128, .f32⟩
  | 98 => ⟨S128, .f32⟩
  | 99 => ⟨S128, .f32⟩
  | 100 => ⟨S128, .f32⟩
  | 101 => ⟨S1x128, .f32⟩
  | 102 => ⟨S1x128, .f32⟩
  | 103 => ⟨S1x128, .f32⟩
  | 104 => ⟨S50000x128, .f32⟩
  | 105 => ⟨S64, .i32⟩
  | 106 => ⟨S1x64, .i32⟩
  | 107 => ⟨S50000x1, .i32⟩
  | 108 => ⟨S50000x64, .i32⟩
  | 109 => ⟨S50000x64, .i32⟩
  | 110 => ⟨S50000x64, .i1⟩
  | 111 => ⟨S50000x64, .bf16⟩
  | 112 => ⟨S64x128, .f32⟩
  | 113 => ⟨S_, .f32⟩
  | 114 => ⟨S50000, .f32⟩
  | 115 => ⟨S_, .f32⟩
  | 116 => ⟨S64, .f32⟩
  | 117 => ⟨S50000x1, .i32⟩
  | 118 => ⟨S64, .f32⟩
  | 119 => ⟨S_, .f32⟩
  | 120 => ⟨S64, .f32⟩
  | 121 => ⟨S64, .f32⟩
  | 122 => ⟨S64x1, .f32⟩
  | 123 => ⟨S64x128, .f32⟩
  | 124 => ⟨S64x128, .f32⟩
  | 125 => ⟨S64x2, .f32⟩
  | 126 => ⟨S1x2, .f32⟩
  | 127 => ⟨S64x2, .f32⟩
  | _ => ⟨S50000x512, .f32⟩

abbrev hbmTy0_1 (i : Nat) : BufTy := match i % 128 with
  | 0 => ⟨S64x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x64, .bf16⟩
  | .local _ .vmem, ⟨25, _⟩ => ⟨S5000x64, .bf16⟩
  | .local _ .vmem, ⟨26, _⟩ => ⟨S5000x128, .f32⟩
  | .local _ .vmem, ⟨27, _⟩ => ⟨S5000x128, .f32⟩
  | .local _ .vmem, ⟨28, _⟩ => ⟨S64x128, .f32⟩
  | .local _ .vmem, ⟨29, _⟩ => ⟨S64x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_8 : Ref sig .tc := ⟨.hbm, 79, rfl⟩
abbrev main_v52 : Ref sig .tc := ⟨.hbm, 80, rfl⟩
abbrev main_v53 : Ref sig .tc := ⟨.hbm, 81, rfl⟩
abbrev main_c_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_12 : Ref sig .tc := ⟨.hbm, 113, rfl⟩
abbrev main_v82 : Ref sig .tc := ⟨.hbm, 114, rfl⟩
abbrev main_cst_13 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S64_S1x64_1 : S64.BroadcastsInDim S1x64 (![1] : Fin 1 → Fin S1x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  transposes_S5000x64_p1_0_S64x5000 : S5000x64.Transposes [1, 0] S64x5000
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x128_S5000x128_1_0_0_1_n_n_wf : DotDims.WF S5000x512 S512x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S64x5000_S5000x128_S64x128_1_0_0_1_n_n_wf : DotDims.WF S64x5000 S5000x128 S64x128 [1] [0] [0] [1] [] []
  scatter_S64_S50000x1_S50000_n_0_0_1_wf : ScatterDims.WF S64 S50000x1 S50000 [] [0] [0] 1
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .bf16 = 32 ∨ (Rect.block (s := S50000x64) S5000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v80) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S50000x512 : Shape := ⟨2, ![50000, 512]⟩
abbrev S2x800000 : Shape := ⟨2, ![2, 800000]⟩
abbrev S50000 : Shape := ⟨1, ![50000]⟩
abbrev S512x128 : Shape := ⟨2, ![512, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S50000x128 : Shape := ⟨2, ![50000, 128]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x2 : Shape := ⟨2, ![64, 2]⟩
abbrev S1x2 : Shape := ⟨2, ![1, 2]⟩

abbrev nBuf : Space → Nat
  | .hbm => 177
  | .vmem => 0
  | .smem => 0
  | _ => 0

abbrev hbmTy0_0 (i : Nat) : BufTy := match i % 128 with
  | 0 => ⟨S50000x512, .f32⟩
  | 1 => ⟨S2x800000, .i32⟩
  | 2 => ⟨S50000, .i32⟩
  | 3 => ⟨S512x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x2, .f32⟩
  | 16 => ⟨S2, .f32⟩
  | 17 => ⟨S1x800000, .i32⟩
  | 18 => ⟨S800000, .i32⟩
  | 19 => ⟨S1x800000, .i32⟩
  | 20 => ⟨S800000, .i32⟩
  | 21 => ⟨S50000x128, .f32⟩
  | 22 => ⟨S50000, .i32⟩
  | 23 => ⟨S850000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S50000, .i32⟩
  | 91 => ⟨S850000, .i32⟩
  | 92 => ⟨S850000, .i32⟩
  | 93 => ⟨S_, .f32⟩
  | 94 => ⟨S850000, .f32⟩
  | 95 => ⟨S_, .f32⟩
  | 96 => ⟨S50000, .f32⟩
  | 97 => ⟨S850000x1, .i32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x512, .f32⟩

abbrev hbmTy0_1 (i : Nat) : BufTy := match i % 128 with
  | 0 => ⟨S850000x1, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S128, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .f32⟩
  | 30 => ⟨S64x128, .f32⟩
  | 31 => ⟨S50000x1, .i32⟩
  | 32 => ⟨S64x128, .f32⟩
  | 33 => ⟨S_, .f32⟩
  | 34 => ⟨S50000, .f32⟩
  | 35 => ⟨S_, .f32⟩
  | 36 => ⟨S64, .f32⟩
  | 37 => ⟨S50000x1, .i32⟩
  | 38 => ⟨S64, .f32⟩
  | 39 => ⟨S_, .f32⟩
  | 40 => ⟨S64, .f32⟩
  | 41 => ⟨S64, .f32⟩
  | 42 => ⟨S64x1, .f32⟩
  | 43 => ⟨S64x128, .f32⟩
  | 44 => ⟨S64x128, .f32⟩
  | 45 => ⟨S64x2, .f32⟩
  | 46 => ⟨S1x2, .f32⟩
  | 47 => ⟨S64x2, .f32⟩
  | 48 => ⟨S64x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call0_cst : Ref sig .tc := ⟨.hbm, 86, rfl⟩
abbrev main_call0_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_8 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_10 : Ref sig .tc := ⟨.hbm, 100, rfl⟩
abbrev main_v69 : Ref sig .tc := ⟨.hbm, 101, rfl⟩
abbrev main_v70 : Ref sig .tc := ⟨.hbm, 102, rfl⟩
abbrev main_c_11 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_12 : Ref sig .tc := ⟨.hbm, 109, rfl⟩
abbrev main_v76 : Ref sig .tc := ⟨.hbm, 110, rfl⟩
abbrev main_v77 : Ref sig .tc := ⟨.hbm, 111, rfl⟩
abbrev main_c_13 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_14 : Ref sig .tc := ⟨.hbm, 119, rfl⟩
abbrev main_v84 : Ref sig .tc := ⟨.hbm, 120, rfl⟩
abbrev main_v85 : Ref sig .tc := ⟨.hbm, 121, rfl⟩
abbrev main_c_15 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_16 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_17 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call1_cst : Ref sig .tc := ⟨.hbm, 154, rfl⟩
abbrev main_call1_v0 : Ref sig .tc := ⟨.hbm, 155, rfl⟩
abbrev main_v115 : Ref sig .tc := ⟨.hbm, 156, rfl⟩
abbrev main_cst_18 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_19 : Ref sig .tc := ⟨.hbm, 161, rfl⟩
abbrev main_v119 : Ref sig .tc := ⟨.hbm, 162, rfl⟩
abbrev main_cst_20 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_21 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x512_S512x128_S50000x128_1_0_0_1_n_n_wf : DotDims.WF S50000x512 S512x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x2_S64x2_1_0_0_1_n_n_wf : DotDims.WF S64x128 S128x2 S64x2 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.KbR0.lean ====
/- The frame half of pallas_call 0 of @main: the matrix product `cc0__matmul_kernel` run over a grid of 10 points.
   At point t the body is handed three staging buffers: rows [5000 t, 5000 t + 5000) of the left factor
   (a [5000, 512] block, brought in afresh at every point), the whole right factor [512, 128] (brought in at the
   first point only and then left where it is), and the [5000, 128] block of the product, which is written back at
   every point. The body reads all three buffers whole (what it reads from the product's buffer it never uses)
   and overwrites the product's buffer whole, once, with the product of the two blocks it read. So after the body
   the two factors' buffers are as found, and the product's buffer is a function `out0_2` of the two blocks alone.
   Everything is stated at a parameter `V`: the contents of the core's buffers when the call is entered. -/
import proofs.«411740_j10170482556987_1_alg».proof.Proof.Gen.Kernel.Launch
import proofs.«411740_j10170482556987_1_alg».proof.Proof.Gen.Kernel.Skeleton
import proofs.«411740_j10170482556987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of 5000 rows fills its buffer walks the long axis coordinate by coordinate
set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The blocks the windows show -/

/-- The block of window `w` at grid point `t`: the window's view at `t` read off its array's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's buffer holds the block of point `t` when the body starts there, for any proof data over the
    entry contents whose body leaves that buffer alone: the window is an input, has no idle point and is not cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's buffer likewise. It is filled at the first point only; at a later point nothing was
    brought in, but the window's block index is the same at every point, so what the point before left there
    (the block, by `hafter`) is this point's block too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer, whole -/

abbrev rL0 : Rect S5000x512 := Rect.unit (s := S5000x512) ![0, 0] S5000x512.size inb_S5000x512_S5000x512_0_0
abbrev rR0 : Rect S512x128 := Rect.unit (s := S512x128) ![0, 0] S512x128.size inb_S512x128_S512x128_0_0
abbrev rO0 : Rect S5000x128 := Rect.unit (s := S5000x128) ![0, 0] S5000x128.size inb_S5000x128_S5000x128_0_0

/-! ## The product's buffer after the body -/

/-- What the body leaves in the product's buffer, from the two factors' blocks `x0` (left) and `x1` (right): its
    one store, of the payload `k0_pay1` at the two blocks read whole, laid over the whole buffer. -/
def out0_2 (x0 : Vec F S5000x512 .f32) (x1 : Vec F S512x128 .f32) : Vec F S5000x128 .f32 :=
  View.canon [⟨rO0, k0_pay1 (View.ld x0 rL0) (View.ld x1 rR0)⟩]

/-- The one stored rectangle is the whole buffer, so every index of the buffer lies in it. -/
theorem cover0_2 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

/-! ## The body's triple -/

set_option maxHeartbeats 1000000 in
/-- The body on three whole staging buffers, the factors' holding `x0` and `x1` and the product's holding anything:
    it ends with the factors' buffers unchanged and the product's at `out0_2 x0 x1`. The three loads return what
    the buffers hold (the third value is dropped), and the single store replaces the whole of the third buffer. -/
theorem sound_kernel0 (c : Dev nD) (E : Set ℕ) (i : grid0.Coords)
    (arg1 : Memref sig .tc .vmem S5000x512 .f32) (harg1 : arg1.IsWhole)
    (arg2 : Memref sig .tc .vmem S512x128 .f32) (harg2 : arg2.IsWhole)
    (arg3 : Memref sig .tc .vmem S5000x128 .f32) (harg3 : arg3.IsWhole)
    (x0 : Vec F S5000x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data on core `c`: each window's array at its entry contents; after the body at point `t` the two
    factors' buffers at their blocks and the product's at `out0_2` of those blocks; the invariant is the rest of the
    core's state, which the body never touches; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each factor's buffer at point `t`: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the pipeline hands the body at point `t`: the invariant, the core's debts, and the three current staging
    buffers at what the schedule has put in them. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it must hand back: the same with the buffers at `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point `t`: the factors' buffers hold their blocks, so the triple above applies with `x0`, `x1` the
    blocks; the invariant and the debts do not depend on the point and are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation on the body, at every point of the grid. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbR1.lean ====
/- The frame half of region 1 of @main (the elementwise bias + batch-norm + ReLU kernel
   `cc1__bias_bn_relu_kernel`), at a PARAMETER `V`: the TensorCore's buffer contents when the region is entered.

   The region has five windows on a grid of 10 points. Window 0 is the input row block [5000,128], a new block at
   every point. Windows 1, 2, 3 are the rows [1,128] of the bias, the scale and the shift: their block index is
   constant, so the pipeline fetches them at the first point only and they stay resident. Window 4 is the output
   row block [5000,128], written back at every point.

   The body loads all five staging buffers whole (the output's too; that value is not used) and stores once, over
   the whole output buffer, the payload `k1_pay1` of the four input loads. So after the body the output buffer is a
   closed function `out1_4` of the four input blocks at the point, and every input buffer is as it was. An input
   buffer holds its window's block at every point, fetched there or not: unfetched, the block index has not moved. -/
import proofs.«411740_j10170482556987_1_alg».proof.Proof.Gen.Kernel.Launch
import proofs.«411740_j10170482556987_1_alg».proof.Proof.Gen.Kernel.Skeleton
import proofs.«411740_j10170482556987_1_alg».proof.Proof.Gen.Kernel.Points
import Idealize.ShloMosaic.Lib.Pipeline.FrameBody
import Idealize.ShloMosaic.Lib.Tactic

-- membership in a rectangle of 5000 rows: the structural check recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, for any proof data whose
    array is `V`'s and whose body leaves the block in place. Fetched at the point, the buffer holds what was
    fetched; not fetched, the block index is the previous point's, and so is the block. This one statement serves
    the row block that moves at every point and the three resident rows alike. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

/-- The whole of a [5000,128] buffer. -/
abbrev rectBlk1 : Rect S5000x128 := Rect.unit (s := S5000x128) ![0, 0] S5000x128.size inb_S5000x128_S5000x128_0_0
/-- The whole of a [1,128] buffer. -/
abbrev rectRow1 : Rect S1x128 := Rect.unit (s := S1x128) ![0, 0] S1x128.size inb_S1x128_S1x128_0_0

/-! ## What the body leaves in the output window's buffer -/

/-- Window 4's staging buffer after the body, from the four input blocks: the one store, whole, of the payload of
    the four loads. -/
def out1_4 (x0 : Vec F S5000x128 .f32) (x1 x2 x3 : Vec F S1x128 .f32) : Vec F S5000x128 .f32 :=
  View.canon [⟨rectBlk1, k1_pay1 (View.ld x0 rectBlk1) (View.ld x1 rectRow1) (View.ld x2 rectRow1) (View.ld x3 rectRow1)⟩]

/-- The one store is over the whole buffer, so it covers it. -/
theorem cover1_4 (p0 : Vec F S5000x128 .f32) (y : S5000x128.Idx) :
    ∃ pc ∈ ([⟨rectBlk1, p0⟩] : List (View.Piece (Elt F) S5000x128 .f32)), y ∈ pc.1.set :=
  View.cover_of_tiled [⟨rectBlk1, p0⟩] S5000x128.size (by rfl) y

/-! ## The body's triple -/

set_option maxHeartbeats 1000000 in
/-- The body on whole staging memrefs, the four inputs' reading `x0 … x3` and the output's anything, runs to a
    continuation that holds the inputs' as they were and the output's at `out1_4 x0 x1 x2 x3`. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_bn_relu_kernel i arg1 harg1 arg2 harg2 arg3 harg3 arg4 harg4 arg5 harg5) K := by
  simp only [cc1__bias_bn_relu_kernel_eq_skeleton]; unfold cc1__bias_bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the region's pipeline on core `c`: the arrays as the region finds them; after the body at point
    `t` each input's buffer at its block and the output's at `out1_4` of the four input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four inputs' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbR2.lean ====
/- The frame half of pallas_call 2 of @main: the matrix product `cc2__matmul_kernel` run over a grid of 10 points.
   At point t the body is handed three staging buffers: rows [5000 t, 5000 t + 5000) of the left factor
   (a [5000, 128] block, brought in afresh at every point), the whole right factor [128, 128] (brought in at the
   first point only and then left where it is), and the [5000, 128] block of the product, which is written back at
   every point. The body reads all three buffers whole (what it reads from the product's buffer it never uses)
   and overwrites the product's buffer whole, once, with the product of the two blocks it read. So after the body
   the two factors' buffers are as found, and the product's buffer is a function `out2_2` of the two blocks alone.
   Everything is stated at a parameter `V`: the contents of the core's buffers when the call is entered. -/
import proofs.«411740_j10170482556987_1_alg».proof.Proof.Gen.Kernel.Launch
import proofs.«411740_j10170482556987_1_alg».proof.Proof.Gen.Kernel.Skeleton
import proofs.«411740_j10170482556987_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of 5000 rows fills its buffer walks the long axis coordinate by coordinate
set_option maxRecDepth 65536

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The blocks the windows show -/

/-- The block of window `w` at grid point `t`: the window's view at `t` read off its array's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's buffer holds the block of point `t` when the body starts there, for any proof data over the
    entry contents whose body leaves that buffer alone: the window is an input, has no idle point and is not cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's buffer likewise. It is filled at the first point only; at a later point nothing was
    brought in, but the window's block index is the same at every point, so what the point before left there
    (the block, by `hafter`) is this point's block too. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer, whole -/

abbrev rL2 : Rect S5000x128 := Rect.unit (s := S5000x128) ![0, 0] S5000x128.size inb_S5000x128_S5000x128_0_0
abbrev rR2 : Rect S128x128 := Rect.unit (s := S128x128) ![0, 0] S128x128.size inb_S128x128_S128x128_0_0
abbrev rO2 : Rect S5000x128 := Rect.unit (s := S5000x128) ![0, 0] S5000x128.size inb_S5000x128_S5000x128_0_0

/-! ## The product's buffer after the body -/

/-- What the body leaves in the product's buffer, from the two factors' blocks `x0` (left) and `x1` (right): its
    one store, of the payload `k2_pay1` at the two blocks read whole, laid over the whole buffer. -/
def out2_2 (x0 : Vec F S5000x128 .f32) (x1 : Vec F S128x128 .f32) : Vec F S5000x128 .f32 :=
  View.canon [⟨rO2, k2_pay1 (View.ld x0 rL2) (View.ld x1 rR2)⟩]

/-- The one stored rectangle is the whole buffer, so every index of the buffer lies in it. -/
theorem cover2_2 (p0 : Vec F S5000x128 .f32) (y : S5000x128.Idx) :
    ∃ pc ∈ ([⟨rO2, p0⟩] : List (View.Piece (Elt F) S5000x128 .f32)), y ∈ pc.1.set :=
  View.cover_of_tiled [⟨rO2, p0⟩] S5000x128.size (by rfl) y

/-! ## The body's triple -/

set_option maxHeartbeats 1000000 in
/-- The body on three whole staging buffers, the factors' holding `x0` and `x1` and the product's holding anything:
    it ends with the factors' buffers unchanged and the product's at `out2_2 x0 x1`. The three loads return what
    the buffers hold (the third value is dropped), and the single store replaces the whole of the third buffer. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- The proof data on core `c`: each window's array at its entry contents; after the body at point `t` the two
    factors' buffers at their blocks and the product's at `out2_2` of those blocks; the invariant is the rest of the
    core's state, which the body never touches; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- What the body finds in each factor's buffer at point `t`: its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the pipeline hands the body at point `t`: the invariant, the core's debts, and the three current staging
    buffers at what the schedule has put in them. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it must hand back: the same with the buffers at `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at point `t`: the factors' buffers hold their blocks, so the triple above applies with `x0`, `x1` the
    blocks; the invariant and the debts do not depend on the point and are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation on the body, at every point of the grid. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbR3.lean ====
/- The frame half of region 3 of @main (the elementwise bias + batch-norm + ReLU kernel
   `cc3__bias_bn_relu_kernel`), at a PARAMETER `V`: the TensorCore's buffer contents when the region is entered.

   The region has five windows on a grid of 10 points. Window 0 is the input row block [5000,128], a new block at
   every point. Windows 1, 2, 3 are the rows [1,128] of the bias, the scale and the shift: their block index is
   constant, so the pipeline fetches them at the first point only and they stay resident. Window 4 is the output
   row block [5000,128], written back at every point.

   The body loads all five staging buffers whole (the output's too; that value is not used) and stores once, over
   the whole output buffer, the payload `k3_pay1` of the four input loads. So after the body the output buffer is a
   closed function `out3_4` of the four input blocks at the point, and every input buffer is as it was. An input
   buffer holds its window's block at every point, fetched there or not: unfetched, the block index has not moved. -/
import proofs.«411740_j10170482556987_1_alg».proof.Proof.Gen.Kernel.Launch
import proofs.«411740_j10170482556987_1_alg».proof.Proof.Gen.Kernel.Skeleton
import proofs.«411740_j10170482556987_1_alg».proof.Proof.Gen.Kernel.Points
import Idealize.ShloMosaic.Lib.Pipeline.FrameBody
import Idealize.ShloMosaic.Lib.Tactic

-- membership in a rectangle of 5000 rows: the structural check recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, for any proof data whose
    array is `V`'s and whose body leaves the block in place. Fetched at the point, the buffer holds what was
    fetched; not fetched, the block index is the previous point's, and so is the block. This one statement serves
    the row block that moves at every point and the three resident rows alike. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

/-- The whole of a [5000,128] buffer. -/
abbrev rectBlk3 : Rect S5000x128 := Rect.unit (s := S5000x128) ![0, 0] S5000x128.size inb_S5000x128_S5000x128_0_0
/-- The whole of a [1,128] buffer. -/
abbrev rectRow3 : Rect S1x128 := Rect.unit (s := S1x128) ![0, 0] S1x128.size inb_S1x128_S1x128_0_0

/-! ## What the body leaves in the output window's buffer -/

/-- Window 4's staging buffer after the body, from the four input blocks: the one store, whole, of the payload of
    the four loads. -/
def out3_4 (x0 : Vec F S5000x128 .f32) (x1 x2 x3 : Vec F S1x128 .f32) : Vec F S5000x128 .f32 :=
  View.canon [⟨rectBlk3, k3_pay1 (View.ld x0 rectBlk3) (View.ld x1 rectRow3) (View.ld x2 rectRow3) (View.ld x3 rectRow3)⟩]

/-- The one store is over the whole buffer, so it covers it. -/
theorem cover3_4 (p0 : Vec F S5000x128 .f32) (y : S5000x128.Idx) :
    ∃ pc ∈ ([⟨rectBlk3, p0⟩] : List (View.Piece (Elt F) S5000x128 .f32)), y ∈ pc.1.set :=
  View.cover_of_tiled [⟨rectBlk3, p0⟩] S5000x128.size (by rfl) y

/-! ## The body's triple -/

set_option maxHeartbeats 1000000 in
/-- The body on whole staging memrefs, the four inputs' reading `x0 … x3` and the output's anything, runs to a
    continuation that holds the inputs' as they were and the output's at `out3_4 x0 x1 x2 x3`. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__bias_bn_relu_kernel i arg1 harg1 arg2 harg2 arg3 harg3 arg4 harg4 arg5 harg5) K := by
  simp only [cc3__bias_bn_relu_kernel_eq_skeleton]; unfold cc3__bias_bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the region's pipeline on core `c`: the arrays as the region finds them; after the body at point
    `t` each input's buffer at its block and the output's at `out3_4` of the four input blocks; the invariant is
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the four inputs' memrefs hold their blocks, so the body's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KbR4.lean ====
/- REGION 4 (the pooling call), frame half. The kernel keeps a [64,128] accumulator in a scratch buffer of its
   own across the ten grid points: at the first point it fills it with zeros, at every point it adds the product
   of the transposed one-hot block with the feature block, and at the last point it copies it to the output
   window, which the pipeline writes back there and nowhere else. This module states what each point leaves in the
   accumulator and in the output window as functions of the two input blocks and of what the point before left, the
   invariant that carries the accumulator between points, and the body obligation by the three cases of the point
   (first, middle, last). -/
import proofs.«411740_j10170482556987_1_alg».proof.Proof.Gen.Kernel.Launch
import proofs.«411740_j10170482556987_1_alg».proof.Proof.Gen.Kernel.Skeleton
import proofs.«411740_j10170482556987_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window fetched at every point holds its block when the body runs, for any proof data whose array is
    the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_fetched 0 t (fetch4_0 t) d).trans (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_fetched 1 t (fetch4_1 t) d).trans (by unfold Dat.fetched Dat.blockOf iblk4; rw [hA]; try rfl)

/-! ## The body's accesses: every load and store is of a whole buffer -/

abbrev r4_0 : Rect S5000x64 := Rect.unit (s := S5000x64) ![0, 0] S5000x64.size inb_S5000x64_S5000x64_0_0
abbrev r4_1 : Rect S5000x128 := Rect.unit (s := S5000x128) ![0, 0] S5000x128.size inb_S5000x128_S5000x128_0_0
abbrev r4_s : Rect S64x128 := Rect.unit (s := S64x128) ![0, 0] S64x128.size inb_S64x128_S64x128_0_0

/-! ## What a point leaves in the accumulator and in the output window -/

/-- The accumulator after the zero fill of the first point. -/
def zero4 : Vec F S64x128 .f32 :=
  View.canon [⟨r4_s, k4_pay1 (F := F)⟩]

/-- The accumulator after a point's accumulation: the one-hot block `x0` and the feature block `x1` of the point,
    added (as the payload computes it) to what the accumulator held, `s`. -/
def step4 (x0 : Vec F S5000x64 .bf16) (x1 : Vec F S5000x128 .f32) (s : Vec F S64x128 .f32) : Vec F S64x128 .f32 :=
  View.canon [⟨r4_s, k4_pay2 (View.ld x0 r4_0) (View.ld x1 r4_1) (View.ld s r4_s)⟩]

/-- The output window after the last point's copy of the accumulator `s`. -/
def out4_2 (s : Vec F S64x128 .f32) : Vec F S64x128 .f32 :=
  View.canon [⟨r4_s, View.ld s r4_s⟩]

/-- The zero offsets, as the constant function. -/
theorem zeros4 : (![0, 0] : Fin 2 → ℕ) = fun _ => 0 := by
  funext a; fin_cases a <;> rfl

/-- Every index of the accumulator's shape lies in the whole-buffer rectangle. -/
theorem mem4_s (y : S64x128.Idx) : y ∈ r4_s.set :=
  View.mem_set_unit_zero (S := S64x128) zeros4 inb_S64x128_S64x128_0_0 y

/-- One whole-buffer store covers the buffer. -/
theorem cover4_s (p0 : Vec F S64x128 .f32) (y : S64x128.Idx) :
    ∃ pc ∈ ([⟨r4_s, p0⟩] : List (View.Piece (Elt F) S64x128 .f32)), y ∈ pc.1.set :=
  ⟨_, List.mem_singleton_self _, mem4_s y⟩

/-- Each is one store through the whole buffer, so each is its payload: the zero fill, -/
theorem zero4_eq : (zero4 : Vec F S64x128 .f32) = k4_pay1 (F := F) :=
  View.canon_unit_zero (S := S64x128) zeros4 inb_S64x128_S64x128_0_0 _

/-- the accumulation over the three whole blocks, -/
theorem step4_eq (x0 : Vec F S5000x64 .bf16) (x1 : Vec F S5000x128 .f32) (s : Vec F S64x128 .f32) :
    step4 x0 x1 s = k4_pay2 x0 x1 s := by
  unfold step4
  rw [View.canon_unit_zero (S := S64x128) zeros4 inb_S64x128_S64x128_0_0,
    View.ld_unit_zero (S := S5000x64) zeros4 inb_S5000x64_S5000x64_0_0,
    View.ld_unit_zero (S := S5000x128) zeros4 inb_S5000x128_S5000x128_0_0,
    View.ld_unit_zero (S := S64x128) zeros4 inb_S64x128_S64x128_0_0]

/-- and the copy. -/
theorem out4_2_eq (s : Vec F S64x128 .f32) : out4_2 s = s := by
  unfold out4_2
  rw [View.canon_unit_zero (S := S64x128) zeros4 inb_S64x128_S64x128_0_0,
    View.ld_unit_zero (S := S64x128) zeros4 inb_S64x128_S64x128_0_0]

/-- THE ACCUMULATION, by recursion on the point: the pair (output window, accumulator) after the body at point `n`.
    The accumulator starts from the zero fill at the first point and from what the point before left afterwards;
    the output window's component is the copy of the accumulator (consulted at the last point only: at the others the
    window is idle and not written back). -/
def outsAt4 (c : Dev nD) : (n : ℕ) → n < cfg4.N → Vec F S64x128 .f32 × Vec F S64x128 .f32
  | 0, hn =>
    (out4_2 (step4 (iblk4 V c 0 ⟨0, hn⟩) (iblk4 V c 1 ⟨0, hn⟩) zero4),
      step4 (iblk4 V c 0 ⟨0, hn⟩) (iblk4 V c 1 ⟨0, hn⟩) zero4)
  | n + 1, hn =>
    (out4_2 (step4 (iblk4 V c 0 ⟨n + 1, hn⟩) (iblk4 V c 1 ⟨n + 1, hn⟩) (outsAt4 c n (Nat.lt_of_succ_lt hn)).2),
      step4 (iblk4 V c 0 ⟨n + 1, hn⟩) (iblk4 V c 1 ⟨n + 1, hn⟩) (outsAt4 c n (Nat.lt_of_succ_lt hn)).2)

/-- At the first point. -/
theorem outsAt4_zero (c : Dev nD) (t : Fin cfg4.N) (h0 : t.val = 0) :
    outsAt4 V c t.val t.isLt = (out4_2 (step4 (iblk4 V c 0 t) (iblk4 V c 1 t) zero4), step4 (iblk4 V c 0 t) (iblk4 V c 1 t) zero4) := by
  obtain ⟨n, hn⟩ := t
  cases n with
  | zero => rfl
  | succ n => exact absurd h0 (Nat.succ_ne_zero n)

/-- At a later point: over what the point before left. -/
theorem outsAt4_pos (c : Dev nD) (t : Fin cfg4.N) (h0 : t.val ≠ 0) :
    outsAt4 V c t.val t.isLt
      = (out4_2 (step4 (iblk4 V c 0 t) (iblk4 V c 1 t) (outsAt4 V c (t.val - 1) (Nat.lt_of_le_of_lt (Nat.sub_le _ _) t.isLt)).2),
          step4 (iblk4 V c 0 t) (iblk4 V c 1 t) (outsAt4 V c (t.val - 1) (Nat.lt_of_le_of_lt (Nat.sub_le _ _) t.isLt)).2) := by
  obtain ⟨n, hn⟩ := t
  cases n with
  | zero => exact absurd rfl h0
  | succ n => rfl

/-- The output component is the copy of the accumulator component, at every point. -/
theorem outsAt4_fst (c : Dev nD) (n : ℕ) (hn : n < cfg4.N) : (outsAt4 V c n hn).1 = out4_2 (outsAt4 V c n hn).2 := by
  cases n with
  | zero => rfl
  | succ n => rfl

/-! ## The body's branch conditions, and where the output window is idle -/

/-- The condition of the zero fill, from the grid coordinates. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The condition of the copy to the output window. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := fun _ => rfl
theorem liveAt4_1 : ∀ t : Fin cfg4.N, cfg4.idle 1 (grid4.coords t) = false := fun _ => rfl
/-- Off the last point the output window is idle and is not written back. -/
theorem idleAt4_2 : ∀ t : Fin cfg4.N, t.val ≠ 9 → cfg4.idle 2 (grid4.coords t) = true :=
  (by decide +kernel : ∀ t : Fin grid4.N, t.val ≠ 9 → cfg4.idle 2 (grid4.coords t) = true)
theorem noFlush4_2 : ∀ t : Fin cfg4.N, t.val ≠ 9 → (cfg4.win 2).flush t = false :=
  (by decide +kernel : ∀ t : Fin grid4.N, t.val ≠ 9 → win4_2.flush t = false)
/-- At the last point it is live. -/
theorem liveAt4_2 : ∀ t : Fin cfg4.N, t.val = 9 → cfg4.idle 2 (grid4.coords t) = false :=
  (by decide +kernel : ∀ t : Fin grid4.N, t.val = 9 → cfg4.idle 2 (grid4.coords t) = false)

/-! ## The invariant that carries the accumulator -/

/-- The accumulator as a memref: a whole scoped buffer of the kernel's own, passed beside the windows. -/
abbrev scM4 : Memref sig .tc .vmem S64x128 .f32 := Memref.whole cc4_scratch0

/-- The class invariant with the accumulator split off the scoped rest, owned as a memref at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-- The region invariant before position `n`: before the first point the class's (the accumulator at anything);
    afterwards the accumulator at what the point before left, the rest of the scoped buffers at anything and the
    generator register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2)
        ∗ Pipeline.scopedRestBut (Ix := Unit) (Name := ℕ) (U := UR sig nD τ) (Lvl := ℕ) (Val := Elt F) spec4 c [cc4_scratch0])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2)
        ∗ Pipeline.scopedRestBut (Ix := Unit) (Name := ℕ) (U := UR sig nD τ) (Lvl := ℕ) (Val := Elt F) spec4 c [cc4_scratch0])
      ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2)
        ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-! ## The pipeline's proof data -/

/-- The proof data of the pooling pipeline on core `c`: the arrays as the region finds them; after the body at point
    `t` each input's buffer at its block and the output's at the accumulation's first component; the invariant the one
    that carries the accumulator; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The kernel body on any whole memrefs, case by case -/

set_option maxHeartbeats 1000000 in
/-- FIRST POINT: the zero fill is taken, the copy is not. The accumulator, handed at anything, ends at one
    accumulation over the zero fill; the inputs and the output window are handed back as they were. -/
theorem sound_kernel4_first (c : Dev nD) (E : Set ℕ) (i : grid4.Coords)
    (arg1 : Memref sig .tc .vmem S5000x64 .bf16) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : cond4_0 i) (hc1 : ¬cond4_1 i)
    (x0 : Vec F S5000x64 .bf16) (x1 : Vec F S5000x128 .f32) (xo : Vec F S64x128 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (step4 x0 x1 zero4)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (fun y => ⟨_, List.mem_cons.mpr (Or.inl rfl), mem4_s y⟩)).trans ?_
  refine (View.canon_cons_unit_zero (S := S64x128) zeros4 inb_S64x128_S64x128_0_0 _ _).trans ?_
  refine Eq.trans ?_ (View.canon_unit_zero (S := S64x128) zeros4 inb_S64x128_S64x128_0_0 _).symm
  unfold sound_kernel4_first.sl.v9 sound_kernel4_first.sl.H4_1
  rw [View.readCov_eq_canon_ld _ _ _ (cover4_s _)]
  rfl

set_option maxHeartbeats 1000000 in
/-- MIDDLE POINTS: neither conditional is taken. The accumulator, handed at `s`, ends at one accumulation over `s`. -/
theorem sound_kernel4_mid (c : Dev nD) (E : Set ℕ) (i : grid4.Coords)
    (arg1 : Memref sig .tc .vmem S5000x64 .bf16) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : ¬cond4_0 i) (hc1 : ¬cond4_1 i)
    (x0 : Vec F S5000x64 .bf16) (x1 : Vec F S5000x128 .f32) (xo : Vec F S64x128 .f32) (s : Vec F S64x128 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare s
        ∗ (iprop(owns (c : Thread nD τ) arg1 fullShare x0 ∗ owns (c : Thread nD τ) arg2 fullShare x1 ∗ owns (c : Thread nD τ) arg3 fullShare xo
            ∗ owns (c : Thread nD τ) arg4 fullShare (step4 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover4_s _)).trans ?_
  rfl

set_option maxHeartbeats 1000000 in
/-- LAST POINT: the copy is taken, the zero fill is not. The accumulator ends at one accumulation over `s` and the
    output window, handed at anything, at the copy of that. -/
theorem sound_kernel4_last (c : Dev nD) (E : Set ℕ) (i : grid4.Coords)
    (arg1 : Memref sig .tc .vmem S5000x64 .bf16) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : ¬cond4_0 i) (hc1 : cond4_1 i)
    (x0 : Vec F S5000x64 .bf16) (x1 : Vec F S5000x128 .f32) (s : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (out4_2 (step4 x0 x1 s))
            ∗ owns (c : Thread nD τ) arg4 fullShare (step4 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover4_s _)).trans ?_
    unfold sound_kernel4_last.sl.v18 sound_kernel4_last.sl.H4_1
    rw [View.readCov_eq_canon_ld _ _ _ (cover4_s _)]
    rfl
  iexists _; isplitr
  swap; · iexact H4
  ipureintro
  unfold sound_kernel4_last.sl.H4_1
  refine (View.read_writes_eq_canon _ _ _ (cover4_s _)).trans ?_
  rfl

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point, by the three cases of the point: the inputs' memrefs hold their blocks; the invariant hands
    the body the accumulator (at anything at the first point, at what the point before left afterwards) and takes it
    back at this point's contents; the rest of the scoped buffers, the generator register and what the core owes
    pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases h0 : t.val = 0
  · -- the first point: the invariant is the class's, the accumulator at anything
    have h9 : t.val ≠ 9 := by omega
    rw [Dat.leavesExact_idle (dat4 V c) 2 t (idleAt4_2 t h9) (noFlush4_2 t h9)]
    rw [outsAt4_zero V c t h0]
    rw [PhiS4_castSucc V c t, PhiS4_zero V c _ _ h0, PhiA4_eq]
    iintro ⟨⟨⟨HS, HR⟩, Hg⟩, Ho, ⟨%d0, H0⟩, ⟨%d1, H1⟩, ⟨%d2, H2⟩⟩
    iapply (sound_kernel4_first c Set.univ (grid4.coords t) _ _ _ _ _ _ _ _ ((hcond4_0 t).mpr h0) (fun h => h9 ((hcond4_1 t).mp h))
      (iblk4 V c 0 t) (iblk4 V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      · iexact Hg
    isplitl [Ho]; · iexact Ho
    isplitl [H0]; · iexact H0
    isplitl [H1]; · iexact H1
    iexists _; iexact H2
  · by_cases h9 : t.val = 9
    · -- the last point: the output window is live and takes the copy
      rw [show (dat4 V c).leavesExact 2 t = owns (c : Thread nD τ) (st4_2 t) fullShare ((dat4 V c).after 2 t) from by
        unfold Dat.leavesExact; rw [liveAt4_2 t h9], after4_2]
      rw [outsAt4_pos V c t h0]
      rw [PhiS4_castSucc V c t, PhiS4_pos V c _ _ h0]
      iintro ⟨⟨⟨HS, HR⟩, Hg⟩, Ho, ⟨%d0, H0⟩, ⟨%d1, H1⟩, ⟨%d2, H2⟩⟩
      iapply (sound_kernel4_last c Set.univ (grid4.coords t) _ _ _ _ _ _ _ _ (fun h => h0 ((hcond4_0 t).mp h)) ((hcond4_1 t).mpr h9)
        (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        · iexact Hg
      isplitl [Ho]; · iexact Ho
      isplitl [H0]; · iexact H0
      isplitl [H1]; · iexact H1
      iexact H2
    · -- a middle point: the output window is handed back as it was found
      rw [Dat.leavesExact_idle (dat4 V c) 2 t (idleAt4_2 t h9) (noFlush4_2 t h9)]
      rw [outsAt4_pos V c t h0]
      rw [PhiS4_castSucc V c t, PhiS4_pos V c _ _ h0]
      iintro ⟨⟨⟨HS, HR⟩, Hg⟩, Ho, ⟨%d0, H0⟩, ⟨%d1, H1⟩, ⟨%d2, H2⟩⟩
      iapply (sound_kernel4_mid c Set.univ (grid4.coords t) _ _ _ _ _ _ _ _ (fun h => h0 ((hcond4_0 t).mp h)) (fun h => h9 ((hcond4_1 t).mp h))
        (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        · iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]

/-- After the last point the invariant gives the class's back: the accumulator's contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨HS, HR⟩, Hg⟩
  isplitl [HS HR]
  · isplitl [HS]
    · iexists _; iexact HS
    · iexact HR
  · iexact Hg

end Cert.Kernel.Hand

end
-- ==== Proof.KbSegs.lean ====
/- The launch of the kernel program's five regions from the per-region proof data: the buffers' contents between the
   items as a chain from the launch memory (each region's output array at what its pipeline's write-backs leave), the
   generated conditional frame's unknowns chosen from that chain, the proof data family at each region's entry
   contents, the five region records over the thread state "every unscoped buffer at the item's contents, the generator
   register, nothing owed", and the frame claim at any `F`. -/
import proofs.«411740_j10170482556987_1_alg».proof.Proof.Gen.Kernel.Regions
import proofs.«411740_j10170482556987_1_alg».proof.Proof.KbR0
import proofs.«411740_j10170482556987_1_alg».proof.Proof.KbR1
import proofs.«411740_j10170482556987_1_alg».proof.Proof.KbR2
import proofs.«411740_j10170482556987_1_alg».proof.Proof.KbR3
import proofs.«411740_j10170482556987_1_alg».proof.Proof.KbR4
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items, with no unknown left

Each region's output array after the region is what its pipeline's write-backs leave (`Dat.arrAt … N` of the proof
data taken at the region's ENTRY contents), so the contents after item `j` are a function of the contents before it:
a chain from the launch memory, each link defined from the links before it only. -/

/-- A valuation read at the TensorCore's references: the form the regions' proof data take. -/
abbrev atTc (W : Dev nD → Valuation τ sig (Elt F)) : (c : Dev nD) → (b : Ref sig .tc) → Buf (Elt F) ((c : Thread nD τ).loc b) :=
  fun c b => W c b

/-- The contents region 0 is entered from: the launch memory after the first host stretch. -/
abbrev U1 (c : Dev nD) : Valuation τ sig (Elt F) := Gen.V1 m c
/-- What region 0 leaves in `main_v28`: its output window's write-backs, all ten folded. -/
def o2 (c : Dev nD) : Buf (Elt F) ((c : Thread nD τ).loc main_v28) := (dat0 (atTc (U1 m)) c).arrAt 2 cfg0.N
/-- After region 0. -/
def U2 (c : Dev nD) : Valuation τ sig (Elt F) := Function.update (U1 m c) main_v28 (o2 m c)
/-- After the second host stretch: what region 1 is entered from. -/
def U3 (c : Dev nD) : Valuation τ sig (Elt F) := StableHlo.after hostOps1 (U2 m c)
/-- What region 1 leaves in `main_v50`. -/
def o4 (c : Dev nD) : Buf (Elt F) ((c : Thread nD τ).loc main_v50) := (dat1 (atTc (U3 m)) c).arrAt 4 cfg1.N
/-- After region 1: what region 2 is entered from. -/
def U4 (c : Dev nD) : Valuation τ sig (Elt F) := Function.update (U3 m c) main_v50 (o4 m c)
/-- What region 2 leaves in `main_v51`. -/
def o5 (c : Dev nD) : Buf (Elt F) ((c : Thread nD τ).loc main_v51) := (dat2 (atTc (U4 m)) c).arrAt 2 cfg2.N
/-- After region 2. -/
def U5 (c : Dev nD) : Valuation τ sig (Elt F) := Function.update (U4 m c) main_v51 (o5 m c)
/-- After the third host stretch: what region 3 is entered from. -/
def U6 (c : Dev nD) : Valuation τ sig (Elt F) := StableHlo.after hostOps3 (U5 m c)
/-- What region 3 leaves in `main_v73`. -/
def o7 (c : Dev nD) : Buf (Elt F) ((c : Thread nD τ).loc main_v73) := (dat3 (atTc (U6 m)) c).arrAt 4 cfg3.N
/-- After region 3. -/
def U7 (c : Dev nD) : Valuation τ sig (Elt F) := Function.update (U6 m c) main_v73 (o7 m c)
/-- After the fourth host stretch: what region 4 is entered from. -/
def U8 (c : Dev nD) : Valuation τ sig (Elt F) := StableHlo.after hostOps4 (U7 m c)
/-- What region 4 leaves in `main_v81`. -/
def o9 (c : Dev nD) : Buf (Elt F) ((c : Thread nD τ).loc main_v81) := (dat4 (atTc (U8 m)) c).arrAt 2 cfg4.N
/-- After region 4. -/
def U9 (c : Dev nD) : Valuation τ sig (Elt F) := Function.update (U8 m c) main_v81 (o9 m c)
/-- After the last host stretch: the contents at the return. -/
def U10 (c : Dev nD) : Valuation τ sig (Elt F) := StableHlo.after hostOps5 (U9 m c)

/-- The generated frame's unknowns, chosen: after item `j - 1` a region's output array holds the chain's value; every
    other (item, reference) pair is never read and is set to the launch contents. -/
def outs : Gen.Outs (F := F) := fun j r c =>
  match j with
  | 2 => if h : r = main_v28 then h ▸ o2 m c else atTc (Gen.V0 m) c r
  | 4 => if h : r = main_v50 then h ▸ o4 m c else atTc (Gen.V0 m) c r
  | 5 => if h : r = main_v51 then h ▸ o5 m c else atTc (Gen.V0 m) c r
  | 7 => if h : r = main_v73 then h ▸ o7 m c else atTc (Gen.V0 m) c r
  | 9 => if h : r = main_v81 then h ▸ o9 m c else atTc (Gen.V0 m) c r
  | _ => atTc (Gen.V0 m) c r

theorem outs_2 (c : Dev nD) : outs m 2 main_v28 c = o2 m c := by simp only [outs, dif_pos]
theorem outs_4 (c : Dev nD) : outs m 4 main_v50 c = o4 m c := by simp only [outs, dif_pos]
theorem outs_5 (c : Dev nD) : outs m 5 main_v51 c = o5 m c := by simp only [outs, dif_pos]
theorem outs_7 (c : Dev nD) : outs m 7 main_v73 c = o7 m c := by simp only [outs, dif_pos]
theorem outs_9 (c : Dev nD) : outs m 9 main_v81 c = o9 m c := by simp only [outs, dif_pos]

/-- At these unknowns the generated valuations are the chain's. -/
theorem V2_eq (c : Dev nD) : Gen.V2 m (outs m) c = U2 m c := by unfold U2; rw [← outs_2]
theorem V3_eq (c : Dev nD) : Gen.V3 m (outs m) c = U3 m c := by unfold U3; rw [← V2_eq]
theorem V4_eq (c : Dev nD) : Gen.V4 m (outs m) c = U4 m c := by unfold U4; rw [← outs_4, ← V3_eq]
theorem V5_eq (c : Dev nD) : Gen.V5 m (outs m) c = U5 m c := by unfold U5; rw [← outs_5, ← V4_eq]
theorem V6_eq (c : Dev nD) : Gen.V6 m (outs m) c = U6 m c := by unfold U6; rw [← V5_eq]
theorem V7_eq (c : Dev nD) : Gen.V7 m (outs m) c = U7 m c := by unfold U7; rw [← outs_7, ← V6_eq]
theorem V8_eq (c : Dev nD) : Gen.V8 m (outs m) c = U8 m c := by unfold U8; rw [← V7_eq]
theorem V9_eq (c : Dev nD) : Gen.V9 m (outs m) c = U9 m c := by unfold U9; rw [← outs_9, ← V8_eq]
theorem V10_eq (c : Dev nD) : Gen.V10 m (outs m) c = U10 m c := by unfold U10; rw [← V9_eq]

/-! ## The proof data family and what rides beside the buffers -/

/-- Every pipeline's proof data, each at its region's entry contents: a literal `match`. -/
def pdats : (p : Fin 5) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U4 m)) c
  | ⟨3, _⟩ => fun c => dat3 (atTc (U6 m)) c
  | ⟨4, _⟩ => fun c => dat4 (atTc (U8 m)) c

/-- No core owes another anything: no level is assigned. -/
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)

/-- A region's link of the chain, read at its output array and off it. -/
theorem U2_self (c : Dev nD) : U2 m c main_v28 = o2 m c := by
  unfold U2; exact Function.update_self _ _ _
theorem U2_of_ne (c : Dev nD) {b : Ref sig .tc} (h : b ≠ main_v28) : U2 m c b = U1 m c b := by
  unfold U2; exact Function.update_of_ne (StableHlo.devRef_ne_of_ne h) _ _
theorem U4_self (c : Dev nD) : U4 m c main_v50 = o4 m c := by
  unfold U4; exact Function.update_self _ _ _
theorem U4_of_ne (c : Dev nD) {b : Ref sig .tc} (h : b ≠ main_v50) : U4 m c b = U3 m c b := by
  unfold U4; exact Function.update_of_ne (StableHlo.devRef_ne_of_ne h) _ _
theorem U5_self (c : Dev nD) : U5 m c main_v51 = o5 m c := by
  unfold U5; exact Function.update_self _ _ _
theorem U5_of_ne (c : Dev nD) {b : Ref sig .tc} (h : b ≠ main_v51) : U5 m c b = U4 m c b := by
  unfold U5; exact Function.update_of_ne (StableHlo.devRef_ne_of_ne h) _ _
theorem U7_self (c : Dev nD) : U7 m c main_v73 = o7 m c := by
  unfold U7; exact Function.update_self _ _ _
theorem U7_of_ne (c : Dev nD) {b : Ref sig .tc} (h : b ≠ main_v73) : U7 m c b = U6 m c b := by
  unfold U7; exact Function.update_of_ne (StableHlo.devRef_ne_of_ne h) _ _
theorem U9_self (c : Dev nD) : U9 m c main_v81 = o9 m c := by
  unfold U9; exact Function.update_self _ _ _
theorem U9_of_ne (c : Dev nD) {b : Ref sig .tc} (h : b ≠ main_v81) : U9 m c b = U8 m c b := by
  unfold U9; exact Function.update_of_ne (StableHlo.devRef_ne_of_ne h) _ _

/-! ## The regions as segments -/

/-! ### Region 0: entered from `U1`, left at `U2` -/

/-- At region 0's exit each of its arrays holds what the pipeline leaves: an input window's array is never written
    and is no `main_v28`, so the chain's link reads it as entered; the output window's array is the link's new point. -/
theorem hF0 (c : Dev nD) : ∀ w : Fin cfg0.W, (dat0 (atTc (U1 m)) c).arrAt w cfg0.N = atTc (U2 m) c (Pipeline.arrRef spec0 w)
  | ⟨0, _⟩ => ((dat0 (atTc (U1 m)) c).arrAt_in 0 rfl _).trans ((A_eq0 (atTc (U1 m)) c 0).trans
      (U2_of_ne m c (b := Pipeline.arrRef spec0 0) (by decide)).symm)
  | ⟨1, _⟩ => ((dat0 (atTc (U1 m)) c).arrAt_in 1 rfl _).trans ((A_eq0 (atTc (U1 m)) c 1).trans
      (U2_of_ne m c (b := Pipeline.arrRef spec0 1) (by decide)).symm)
  | ⟨2, _⟩ => (U2_self m c).symm
/-- Off the region's arrays nothing changed: the link's only new point is the output window's array. -/
theorem hrest0 (c : Dev nD) : ∀ b, b ∉ Finset.univ.image (Pipeline.arrRef spec0) → atTc (U2 m) c b = atTc (U1 m) c b :=
  fun b hb => U2_of_ne m c fun e => hb (Finset.mem_image.mpr ⟨2, Finset.mem_univ _, e.symm⟩)

set_option backward.isDefEq.respectTransparency.types false in
/-- REGION 0 over the thread state "every unscoped buffer at the item's contents, the generator register at some
    state, nothing owed": its arrays split out of the unscoped buffers at `U1` and put back at `U2`;
    the generator register into the class invariant and out; no semaphore of the kernel's own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (U1 m) c) fun w => A_eq0 (atTc (U1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: entered from `U3`, left at `U4` -/

set_option maxHeartbeats 1000000 in
/-- At region 1's exit each of its arrays holds what the pipeline leaves: an input window's array is never written
    and is no `main_v50`, so the chain's link reads it as entered; the output window's array is the link's new point. -/
theorem hF1 (c : Dev nD) : ∀ w : Fin cfg1.W, (dat1 (atTc (U3 m)) c).arrAt w cfg1.N = atTc (U4 m) c (Pipeline.arrRef spec1 w)
  | ⟨0, _⟩ => ((dat1 (atTc (U3 m)) c).arrAt_in 0 rfl _).trans ((A_eq1 (atTc (U3 m)) c 0).trans
      (U4_of_ne m c (b := Pipeline.arrRef spec1 0) (by decide)).symm)
  | ⟨1, _⟩ => ((dat1 (atTc (U3 m)) c).arrAt_in 1 rfl _).trans ((A_eq1 (atTc (U3 m)) c 1).trans
      (U4_of_ne m c (b := Pipeline.arrRef spec1 1) (by decide)).symm)
  | ⟨2, _⟩ => ((dat1 (atTc (U3 m)) c).arrAt_in 2 rfl _).trans ((A_eq1 (atTc (U3 m)) c 2).trans
      (U4_of_ne m c (b := Pipeline.arrRef spec1 2) (by decide)).symm)
  | ⟨3, _⟩ => ((dat1 (atTc (U3 m)) c).arrAt_in 3 rfl _).trans ((A_eq1 (atTc (U3 m)) c 3).trans
      (U4_of_ne m c (b := Pipeline.arrRef spec1 3) (by decide)).symm)
  | ⟨4, _⟩ => (U4_self m c).symm
/-- Off the region's arrays nothing changed: the link's only new point is the output window's array. -/
theorem hrest1 (c : Dev nD) : ∀ b, b ∉ Finset.univ.image (Pipeline.arrRef spec1) → atTc (U4 m) c b = atTc (U3 m) c b :=
  fun b hb => U4_of_ne m c fun e => hb (Finset.mem_image.mpr ⟨4, Finset.mem_univ _, e.symm⟩)

set_option backward.isDefEq.respectTransparency.types false in
/-- REGION 1 over the thread state "every unscoped buffer at the item's contents, the generator register at some
    state, nothing owed": its arrays split out of the unscoped buffers at `U3` and put back at `U4`;
    the generator register into the class invariant and out; no semaphore of the kernel's own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (U3 m) c) fun w => A_eq1 (atTc (U3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2: entered from `U4`, left at `U5` -/

/-- At region 2's exit each of its arrays holds what the pipeline leaves: an input window's array is never written
    and is no `main_v51`, so the chain's link reads it as entered; the output window's array is the link's new point. -/
theorem hF2 (c : Dev nD) : ∀ w : Fin cfg2.W, (dat2 (atTc (U4 m)) c).arrAt w cfg2.N = atTc (U5 m) c (Pipeline.arrRef spec2 w)
  | ⟨0, _⟩ => ((dat2 (atTc (U4 m)) c).arrAt_in 0 rfl _).trans ((A_eq2 (atTc (U4 m)) c 0).trans
      (U5_of_ne m c (b := Pipeline.arrRef spec2 0) (by decide)).symm)
  | ⟨1, _⟩ => ((dat2 (atTc (U4 m)) c).arrAt_in 1 rfl _).trans ((A_eq2 (atTc (U4 m)) c 1).trans
      (U5_of_ne m c (b := Pipeline.arrRef spec2 1) (by decide)).symm)
  | ⟨2, _⟩ => (U5_self m c).symm
/-- Off the region's arrays nothing changed: the link's only new point is the output window's array. -/
theorem hrest2 (c : Dev nD) : ∀ b, b ∉ Finset.univ.image (Pipeline.arrRef spec2) → atTc (U5 m) c b = atTc (U4 m) c b :=
  fun b hb => U5_of_ne m c fun e => hb (Finset.mem_image.mpr ⟨2, Finset.mem_univ _, e.symm⟩)

set_option backward.isDefEq.respectTransparency.types false in
/-- REGION 2 over the thread state "every unscoped buffer at the item's contents, the generator register at some
    state, nothing owed": its arrays split out of the unscoped buffers at `U4` and put back at `U5`;
    the generator register into the class invariant and out; no semaphore of the kernel's own. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (atTc (U4 m)) c).loose
  hwaits := Pipeline.hwaits_of_owed_zero _ _ _ _ L lv 2 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (atTc (U4 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (U4 m) c) fun w => A_eq2 (atTc (U4 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (U4 m) c) (atTc (U5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3: entered from `U6`, left at `U7` -/

set_option maxHeartbeats 1000000 in
/-- At region 3's exit each of its arrays holds what the pipeline leaves: an input window's array is never written
    and is no `main_v73`, so the chain's link reads it as entered; the output window's array is the link's new point. -/
theorem hF3 (c : Dev nD) : ∀ w : Fin cfg3.W, (dat3 (atTc (U6 m)) c).arrAt w cfg3.N = atTc (U7 m) c (Pipeline.arrRef spec3 w)
  | ⟨0, _⟩ => ((dat3 (atTc (U6 m)) c).arrAt_in 0 rfl _).trans ((A_eq3 (atTc (U6 m)) c 0).trans
      (U7_of_ne m c (b := Pipeline.arrRef spec3 0) (by decide)).symm)
  | ⟨1, _⟩ => ((dat3 (atTc (U6 m)) c).arrAt_in 1 rfl _).trans ((A_eq3 (atTc (U6 m)) c 1).trans
      (U7_of_ne m c (b := Pipeline.arrRef spec3 1) (by decide)).symm)
  | ⟨2, _⟩ => ((dat3 (atTc (U6 m)) c).arrAt_in 2 rfl _).trans ((A_eq3 (atTc (U6 m)) c 2).trans
      (U7_of_ne m c (b := Pipeline.arrRef spec3 2) (by decide)).symm)
  | ⟨3, _⟩ => ((dat3 (atTc (U6 m)) c).arrAt_in 3 rfl _).trans ((A_eq3 (atTc (U6 m)) c 3).trans
      (U7_of_ne m c (b := Pipeline.arrRef spec3 3) (by decide)).symm)
  | ⟨4, _⟩ => (U7_self m c).symm
/-- Off the region's arrays nothing changed: the link's only new point is the output window's array. -/
theorem hrest3 (c : Dev nD) : ∀ b, b ∉ Finset.univ.image (Pipeline.arrRef spec3) → atTc (U7 m) c b = atTc (U6 m) c b :=
  fun b hb => U7_of_ne m c fun e => hb (Finset.mem_image.mpr ⟨4, Finset.mem_univ _, e.symm⟩)

set_option backward.isDefEq.respectTransparency.types false in
/-- REGION 3 over the thread state "every unscoped buffer at the item's contents, the generator register at some
    state, nothing owed": its arrays split out of the unscoped buffers at `U6` and put back at `U7`;
    the generator register into the class invariant and out; no semaphore of the kernel's own. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (atTc (U6 m)) c).loose
  hwaits := Pipeline.hwaits_of_owed_zero _ _ _ _ L lv 3 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec3 c (atTc (U6 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (U6 m) c) fun w => A_eq3 (atTc (U6 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (U6 m) c) (atTc (U7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4: entered from `U8`, left at `U9` -/

/-- At region 4's exit each of its arrays holds what the pipeline leaves: an input window's array is never written
    and is no `main_v81`, so the chain's link reads it as entered; the output window's array is the link's new point. -/
theorem hF4 (c : Dev nD) : ∀ w : Fin cfg4.W, (dat4 (atTc (U8 m)) c).arrAt w cfg4.N = atTc (U9 m) c (Pipeline.arrRef spec4 w)
  | ⟨0, _⟩ => ((dat4 (atTc (U8 m)) c).arrAt_in 0 rfl _).trans ((A_eq4 (atTc (U8 m)) c 0).trans
      (U9_of_ne m c (b := Pipeline.arrRef spec4 0) (by decide)).symm)
  | ⟨1, _⟩ => ((dat4 (atTc (U8 m)) c).arrAt_in 1 rfl _).trans ((A_eq4 (atTc (U8 m)) c 1).trans
      (U9_of_ne m c (b := Pipeline.arrRef spec4 1) (by decide)).symm)
  | ⟨2, _⟩ => (U9_self m c).symm
/-- Off the region's arrays nothing changed: the link's only new point is the output window's array. -/
theorem hrest4 (c : Dev nD) : ∀ b, b ∉ Finset.univ.image (Pipeline.arrRef spec4) → atTc (U9 m) c b = atTc (U8 m) c b :=
  fun b hb => U9_of_ne m c fun e => hb (Finset.mem_image.mpr ⟨2, Finset.mem_univ _, e.symm⟩)

set_option backward.isDefEq.respectTransparency.types false in
/-- REGION 4 over the thread state "every unscoped buffer at the item's contents, the generator register at some
    state, nothing owed": its arrays split out of the unscoped buffers at `U8` and put back at `U9`;
    the generator register and the scoped rest into the class invariant, which the region's own invariant is made from at
    the first point and gives back at the last; no semaphore of the kernel's own. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (atTc (U8 m)) c).loose
  hwaits := Pipeline.hwaits_of_owed_zero _ _ _ _ L lv 4 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec4 c (atTc (U8 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (U8 m) c) fun w => A_eq4 (atTc (U8 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (atTc (U8 m)) c)
    unfold Pipeline.ΦA
    iintro ⟨Hp, -, Hr⟩
    isplitl [Hr]; · iexact Hr
    iexact Hp
  hout c := by
    rw [Pipeline.ownSems0_none]
    refine BIBase.Entails.trans (hout4 (atTc (U8 m)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (U8 m) c) (atTc (U9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's at every pipeline's staging cells; no further ghost resource. -/
theorem hu₀KI : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes `R` on every core: the generator register at its launch state, the
    core owing nothing. -/
theorem hE0KI (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- `R` ends owing nothing. -/
theorem hE5KI (c : Dev nD) : R (F := F) c ⊢ (iprop(∃ W, owes (c : Thread nD τ) (0 : CellTallies nD τ sig Unit) W) : sProp 𝕄) := by
  iintro ⟨-, HO⟩; iexact HO

/-- Each region's record is entered from the generated frame's thread state before it and leaves the one after it: the
    generated valuations at `outs` are the chain's (`V2_eq` … `V9_eq`). -/
theorem hpre0 (c : Dev nD) : iprop(StableHlo.held (c : Thread nD τ) (Pipeline.ucRefs τ sig) (Gen.V1 m c) ∗ R c) ⊢ (reg0 m).pre c := .rfl
theorem hpost0 (c : Dev nD) : (reg0 m).post c ⊢ iprop(StableHlo.held (c : Thread nD τ) (Pipeline.ucRefs τ sig) (Gen.V2 m (outs m) c) ∗ R c) := by
  rw [V2_eq]; exact .rfl
theorem hpre1 (c : Dev nD) : iprop(StableHlo.held (c : Thread nD τ) (Pipeline.ucRefs τ sig) (Gen.V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ R c) := by
  rw [V4_eq]; exact .rfl
theorem hpre2 (c : Dev nD) : iprop(StableHlo.held (c : Thread nD τ) (Pipeline.ucRefs τ sig) (Gen.V4 m (outs m) c) ∗ R c) ⊢ (reg2 m).pre c := by
  rw [V4_eq]; exact .rfl
theorem hpost2 (c : Dev nD) : (reg2 m).post c ⊢ iprop(StableHlo.held (c : Thread nD τ) (Pipeline.ucRefs τ sig) (Gen.V5 m (outs m) c) ∗ R c) := by
  rw [V5_eq]; exact .rfl
theorem hpre3 (c : Dev nD) : iprop(StableHlo.held (c : Thread nD τ) (Pipeline.ucRefs τ sig) (Gen.V6 m (outs m) c) ∗ R c) ⊢ (reg3 m).pre c := by
  rw [V6_eq]; exact .rfl
theorem hpost3 (c : Dev nD) : (reg3 m).post c ⊢ iprop(StableHlo.held (c : Thread nD τ) (Pipeline.ucRefs τ sig) (Gen.V7 m (outs m) c) ∗ R c) := by
  rw [V7_eq]; exact .rfl
theorem hpre4 (c : Dev nD) : iprop(StableHlo.held (c : Thread nD τ) (Pipeline.ucRefs τ sig) (Gen.V8 m (outs m) c) ∗ R c) ⊢ (reg4 m).pre c := by
  rw [V8_eq]; exact .rfl
theorem hpost4 (c : Dev nD) : (reg4 m).post c ⊢ iprop(StableHlo.held (c : Thread nD τ) (Pipeline.ucRefs τ sig) (Gen.V9 m (outs m) c) ∗ R c) := by
  rw [V9_eq]; exact .rfl

set_option backward.isDefEq.respectTransparency.types false in
/-- THE FRAME of the kernel program at any `F`: from any memory with zero counters every weakly fair execution of @main
    terminates and every final memory holds each argument as launched — the generated conditional frame at the chain's
    unknowns, the five records, and `R` riding beside the buffers. -/
theorem frameKI (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := hu₀KI) (E := fun _ c => R c) (hE0 := hE0KI ρ) (hE5 := hE5KI)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)

end Cert.Kernel.Hand

end
-- ==== Proof.KiR0.lean ====
/- The frame half of pallas_call 0 of @main: the matrix product `cc0__matmul_kernel` run over a grid of 10 points.
   At point t the body is handed three staging buffers: rows [5000 t, 5000 t + 5000) of the left factor
   (a [5000, 512] block, brought in afresh at every point), the whole right factor [512, 128] (brought in at the
   first point only and then left where it is), and the [5000, 128] block of the product, which is written back at
   every point. The body reads all three buffers whole (what it reads from the product's buffer it never uses)
   and overwrites the product's buffer whole, once, with the product of the two blocks it read. So after the body
   the two factors' buffers are as found, and the product's buffer is a function `out0_2` of the two blocks alone.
   Everything is stated at a parameter `V`: the contents of the core's buffers when the call is entered. -/
import proofs.«411740_j10170482556987_1_alg».proof.Proof.Gen.KernelIdeal.Launch
import proofs.«411740_j10170482556987_1_alg».proof.Proof.Gen.KernelIdeal.Skeleton
import proofs.«411740_j10170482556987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of 5000 rows fills its buffer walks the long axis coordinate by coordinate
set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The blocks the windows show -/

/-- The block of window `w` at grid point `t`: the window's view at `t` read off its array's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's buffer holds the block of point `t` when the body starts there, for any proof data over the
    entry contents whose body leaves that buffer alone: the window is an input, has no idle point and is not cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's buffer likewise. It is filled at the first point only; at a later point nothing was
    brought in, but the window's block index is the same at every point, so what the point before left there
    (the block, by `hafter`) is this point's block too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each buffer, whole -/

abbrev rL0 : Rect S5000x512 := Rect.unit (s := S5000x512) ![0, 0] S5000x512.size inb_S5000x512_S5000x512_0_0
abbrev rR0 : Rect S512x128 := Rect.unit (s := S512x128) ![0, 0] S512x128.size inb_S512x128_S512x128_0_0
abbrev rO0 : Rect S5000x128 := Rect.unit (s := S5000x128) ![0, 0] S5000x128.size inb_S5000x128_S5000x128_0_0

/-! ## The product's buffer after the body -/

/-- What the body leaves in the product's buffer, from the two factors' blocks `x0` (left) and `x1` (right): its
    one store, of the payload `k0_pay1` at the two blocks read whole, laid over the whole buffer. -/
def out0_2 (x0 : Vec F S5000x512 .f32) (x1 : Vec F S512x128 .f32) : Vec F S5000x128 .f32 :=
  View.canon [⟨rO0, k0_pay1 (View.ld x0 rL0) (View.ld x1 rR0)⟩]

/-- The one stored rectangle is the whole buffer, so every index of the buffer lies in it. -/
theorem cover0_2 (p0 : Vec F S5000x128 .f32) (y : S5000x128.Idx) :
    ∃ pc ∈ ([⟨rO0, p0⟩] : List (View.Piece (Elt F) S5000x128 .f32)), y ∈ pc.1.set :=
  View.cover_of_tiled [⟨rO0, p0⟩] S5000x128.size (by rfl) y

/-! ## The body's triple -/

set_option maxHeartbeats 1000000 in
/-- The body on three whole staging buffers, the factors' holding `x0` and `x1` and the product's holding anything:
    it ends with the factors' buffers unchanged and the product's at `out0_2 x0 x1`. The three loads return what
    the buffers hold (the third value is dropped), and the single store replaces the whole of the third buffer. -/
theorem sound_kernel0 (c : Dev nD) (E : Set ℕ) (i : grid0.Coords)
    (arg1 : Memref sig .tc .vmem S5000x512 .f32) (harg1 : arg1.IsWhole)
    (arg2 : Memref sig .tc .vmem S512x128 .f32) (harg2 : arg2.IsWhole)
    (arg3 : Memref sig .tc .vmem S5000x128 .f32) (harg3 : arg3.IsWhole)
    (x0 : Vec F S5000x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data on core `c`: each window's array at its entry contents; after the body at point `t` the two
    factors' buffers at their blocks and the product's at `out0_2` of those blocks; the invariant is the rest of the
    core's state, which the body never touches; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each factor's buffer at point `t`: its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the pipeline hands the body at point `t`: the invariant, the core's debts, and the three current staging
    buffers at what the schedule has put in them. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it must hand back: the same with the buffers at `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at point `t`: the factors' buffers hold their blocks, so the triple above applies with `x0`, `x1` the
    blocks; the invariant and the debts do not depend on the point and are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation on the body, at every point of the grid. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
/- The frame half of region 1 of @main (the elementwise bias + batch-norm + ReLU kernel
   `cc1__bias_bn_relu_kernel`), at a PARAMETER `V`: the TensorCore's buffer contents when the region is entered.

   The region has five windows on a grid of 10 points. Window 0 is the input row block [5000,128], a new block at
   every point. Windows 1, 2, 3 are the rows [1,128] of the bias, the scale and the shift: their block index is
   constant, so the pipeline fetches them at the first point only and they stay resident. Window 4 is the output
   row block [5000,128], written back at every point.

   The body loads all five staging buffers whole (the output's too; that value is not used) and stores once, over
   the whole output buffer, the payload `k1_pay1` of the four input loads. So after the body the output buffer is a
   closed function `out1_4` of the four input blocks at the point, and every input buffer is as it was. An input
   buffer holds its window's block at every point, fetched there or not: unfetched, the block index has not moved. -/
import proofs.«411740_j10170482556987_1_alg».proof.Proof.Gen.KernelIdeal.Launch
import proofs.«411740_j10170482556987_1_alg».proof.Proof.Gen.KernelIdeal.Skeleton
import proofs.«411740_j10170482556987_1_alg».proof.Proof.Gen.KernelIdeal.Points
import Idealize.ShloMosaic.Lib.Pipeline.FrameBody
import Idealize.ShloMosaic.Lib.Tactic

-- membership in a rectangle of 5000 rows: the structural check recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, for any proof data whose
    array is `V`'s and whose body leaves the block in place. Fetched at the point, the buffer holds what was
    fetched; not fetched, the block index is the previous point's, and so is the block. This one statement serves
    the row block that moves at every point and the three resident rows alike. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

/-- The whole of a [5000,128] buffer. -/
abbrev rectBlk1 : Rect S5000x128 := Rect.unit (s := S5000x128) ![0, 0] S5000x128.size inb_S5000x128_S5000x128_0_0
/-- The whole of a [1,128] buffer. -/
abbrev rectRow1 : Rect S1x128 := Rect.unit (s := S1x128) ![0, 0] S1x128.size inb_S1x128_S1x128_0_0

/-! ## What the body leaves in the output window's buffer -/

/-- Window 4's staging buffer after the body, from the four input blocks: the one store, whole, of the payload of
    the four loads. -/
def out1_4 (x0 : Vec F S5000x128 .f32) (x1 x2 x3 : Vec F S1x128 .f32) : Vec F S5000x128 .f32 :=
  View.canon [⟨rectBlk1, k1_pay1 (View.ld x0 rectBlk1) (View.ld x1 rectRow1) (View.ld x2 rectRow1) (View.ld x3 rectRow1)⟩]

/-- The one store is over the whole buffer, so it covers it. -/
theorem cover1_4 (p0 : Vec F S5000x128 .f32) (y : S5000x128.Idx) :
    ∃ pc ∈ ([⟨rectBlk1, p0⟩] : List (View.Piece (Elt F) S5000x128 .f32)), y ∈ pc.1.set :=
  View.cover_of_tiled [⟨rectBlk1, p0⟩] S5000x128.size (by rfl) y

/-! ## The body's triple -/

set_option maxHeartbeats 1000000 in
/-- The body on whole staging memrefs, the four inputs' reading `x0 … x3` and the output's anything, runs to a
    continuation that holds the inputs' as they were and the output's at `out1_4 x0 x1 x2 x3`. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_bn_relu_kernel i arg1 harg1 arg2 harg2 arg3 harg3 arg4 harg4 arg5 harg5) K := by
  simp only [cc1__bias_bn_relu_kernel_eq_skeleton]; unfold cc1__bias_bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the region's pipeline on core `c`: the arrays as the region finds them; after the body at point
    `t` each input's buffer at its block and the output's at `out1_4` of the four input blocks; the invariant is
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the four inputs' memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiR2.lean ====
/- The frame half of pallas_call 2 of @main: the matrix product `cc2__matmul_kernel` run over a grid of 10 points.
   At point t the body is handed three staging buffers: rows [5000 t, 5000 t + 5000) of the left factor
   (a [5000, 128] block, brought in afresh at every point), the whole right factor [128, 128] (brought in at the
   first point only and then left where it is), and the [5000, 128] block of the product, which is written back at
   every point. The body reads all three buffers whole (what it reads from the product's buffer it never uses)
   and overwrites the product's buffer whole, once, with the product of the two blocks it read. So after the body
   the two factors' buffers are as found, and the product's buffer is a function `out2_2` of the two blocks alone.
   Everything is stated at a parameter `V`: the contents of the core's buffers when the call is entered. -/
import proofs.«411740_j10170482556987_1_alg».proof.Proof.Gen.KernelIdeal.Launch
import proofs.«411740_j10170482556987_1_alg».proof.Proof.Gen.KernelIdeal.Skeleton
import proofs.«411740_j10170482556987_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one rectangle of 5000 rows fills its buffer walks the long axis coordinate by coordinate
set_option maxRecDepth 65536

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the call is entered
variable (V : (c : Dev nD) → (b : Ref sig .tc) → Buf (Elt F) ((c : Thread nD τ).loc b))

/-! ## The blocks the windows show -/

/-- The block of window `w` at grid point `t`: the window's view at `t` read off its array's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's buffer holds the block of point `t` when the body starts there, for any proof data over the
    entry contents whose body leaves that buffer alone: the window is an input, has no idle point and is not cut. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's buffer likewise. It is filled at the first point only; at a later point nothing was
    brought in, but the window's block index is the same at every point, so what the point before left there
    (the block, by `hafter`) is this point's block too. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer, whole -/

abbrev rL2 : Rect S5000x128 := Rect.unit (s := S5000x128) ![0, 0] S5000x128.size inb_S5000x128_S5000x128_0_0
abbrev rR2 : Rect S128x128 := Rect.unit (s := S128x128) ![0, 0] S128x128.size inb_S128x128_S128x128_0_0
abbrev rO2 : Rect S5000x128 := Rect.unit (s := S5000x128) ![0, 0] S5000x128.size inb_S5000x128_S5000x128_0_0

/-! ## The product's buffer after the body -/

/-- What the body leaves in the product's buffer, from the two factors' blocks `x0` (left) and `x1` (right): its
    one store, of the payload `k2_pay1` at the two blocks read whole, laid over the whole buffer. -/
def out2_2 (x0 : Vec F S5000x128 .f32) (x1 : Vec F S128x128 .f32) : Vec F S5000x128 .f32 :=
  View.canon [⟨rO2, k2_pay1 (View.ld x0 rL2) (View.ld x1 rR2)⟩]

/-- The one stored rectangle is the whole buffer, so every index of the buffer lies in it. -/
theorem cover2_2 (p0 : Vec F S5000x128 .f32) (y : S5000x128.Idx) :
    ∃ pc ∈ ([⟨rO2, p0⟩] : List (View.Piece (Elt F) S5000x128 .f32)), y ∈ pc.1.set :=
  View.cover_of_tiled [⟨rO2, p0⟩] S5000x128.size (by rfl) y

/-! ## The body's triple -/

set_option maxHeartbeats 1000000 in
/-- The body on three whole staging buffers, the factors' holding `x0` and `x1` and the product's holding anything:
    it ends with the factors' buffers unchanged and the product's at `out2_2 x0 x1`. The three loads return what
    the buffers hold (the third value is dropped), and the single store replaces the whole of the third buffer. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- The proof data on core `c`: each window's array at its entry contents; after the body at point `t` the two
    factors' buffers at their blocks and the product's at `out2_2` of those blocks; the invariant is the rest of the
    core's state, which the body never touches; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- What the body finds in each factor's buffer at point `t`: its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the pipeline hands the body at point `t`: the invariant, the core's debts, and the three current staging
    buffers at what the schedule has put in them. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it must hand back: the same with the buffers at `after`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at point `t`: the factors' buffers hold their blocks, so the triple above applies with `x0`, `x1` the
    blocks; the invariant and the debts do not depend on the point and are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's obligation on the body, at every point of the grid. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiR3.lean ====
/- The frame half of region 3 of @main (the elementwise bias + batch-norm + ReLU kernel
   `cc3__bias_bn_relu_kernel`), at a PARAMETER `V`: the TensorCore's buffer contents when the region is entered.

   The region has five windows on a grid of 10 points. Window 0 is the input row block [5000,128], a new block at
   every point. Windows 1, 2, 3 are the rows [1,128] of the bias, the scale and the shift: their block index is
   constant, so the pipeline fetches them at the first point only and they stay resident. Window 4 is the output
   row block [5000,128], written back at every point.

   The body loads all five staging buffers whole (the output's too; that value is not used) and stores once, over
   the whole output buffer, the payload `k3_pay1` of the four input loads. So after the body the output buffer is a
   closed function `out3_4` of the four input blocks at the point, and every input buffer is as it was. An input
   buffer holds its window's block at every point, fetched there or not: unfetched, the block index has not moved. -/
import proofs.«411740_j10170482556987_1_alg».proof.Proof.Gen.KernelIdeal.Launch
import proofs.«411740_j10170482556987_1_alg».proof.Proof.Gen.KernelIdeal.Skeleton
import proofs.«411740_j10170482556987_1_alg».proof.Proof.Gen.KernelIdeal.Points
import Idealize.ShloMosaic.Lib.Pipeline.FrameBody
import Idealize.ShloMosaic.Lib.Tactic

-- membership in a rectangle of 5000 rows: the structural check recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, for any proof data whose
    array is `V`'s and whose body leaves the block in place. Fetched at the point, the buffer holds what was
    fetched; not fetched, the block index is the previous point's, and so is the block. This one statement serves
    the row block that moves at every point and the three resident rows alike. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

/-- The whole of a [5000,128] buffer. -/
abbrev rectBlk3 : Rect S5000x128 := Rect.unit (s := S5000x128) ![0, 0] S5000x128.size inb_S5000x128_S5000x128_0_0
/-- The whole of a [1,128] buffer. -/
abbrev rectRow3 : Rect S1x128 := Rect.unit (s := S1x128) ![0, 0] S1x128.size inb_S1x128_S1x128_0_0

/-! ## What the body leaves in the output window's buffer -/

/-- Window 4's staging buffer after the body, from the four input blocks: the one store, whole, of the payload of
    the four loads. -/
def out3_4 (x0 : Vec F S5000x128 .f32) (x1 x2 x3 : Vec F S1x128 .f32) : Vec F S5000x128 .f32 :=
  View.canon [⟨rectBlk3, k3_pay1 (View.ld x0 rectBlk3) (View.ld x1 rectRow3) (View.ld x2 rectRow3) (View.ld x3 rectRow3)⟩]

/-- The one store is over the whole buffer, so it covers it. -/
theorem cover3_4 (p0 : Vec F S5000x128 .f32) (y : S5000x128.Idx) :
    ∃ pc ∈ ([⟨rectBlk3, p0⟩] : List (View.Piece (Elt F) S5000x128 .f32)), y ∈ pc.1.set :=
  View.cover_of_tiled [⟨rectBlk3, p0⟩] S5000x128.size (by rfl) y

/-! ## The body's triple -/

set_option maxHeartbeats 1000000 in
/-- The body on whole staging memrefs, the four inputs' reading `x0 … x3` and the output's anything, runs to a
    continuation that holds the inputs' as they were and the output's at `out3_4 x0 x1 x2 x3`. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__bias_bn_relu_kernel i arg1 harg1 arg2 harg2 arg3 harg3 arg4 harg4 arg5 harg5) K := by
  simp only [cc3__bias_bn_relu_kernel_eq_skeleton]; unfold cc3__bias_bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the region's pipeline on core `c`: the arrays as the region finds them; after the body at point
    `t` each input's buffer at its block and the output's at `out3_4` of the four input blocks; the invariant is
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the four inputs' memrefs hold their blocks, so the body's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KiR4.lean ====
/- REGION 4 (the pooling call), frame half. The kernel keeps a [64,128] accumulator in a scratch buffer of its
   own across the ten grid points: at the first point it fills it with zeros, at every point it adds the product
   of the transposed one-hot block with the feature block, and at the last point it copies it to the output
   window, which the pipeline writes back there and nowhere else. This module states what each point leaves in the
   accumulator and in the output window as functions of the two input blocks and of what the point before left, the
   invariant that carries the accumulator between points, and the body obligation by the three cases of the point
   (first, middle, last). -/
import proofs.«411740_j10170482556987_1_alg».proof.Proof.Gen.KernelIdeal.Launch
import proofs.«411740_j10170482556987_1_alg».proof.Proof.Gen.KernelIdeal.Skeleton
import proofs.«411740_j10170482556987_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window fetched at every point holds its block when the body runs, for any proof data whose array is
    the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_fetched 0 t (fetch4_0 t) d).trans (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_fetched 1 t (fetch4_1 t) d).trans (by unfold Dat.fetched Dat.blockOf iblk4; rw [hA]; try rfl)

/-! ## The body's accesses: every load and store is of a whole buffer -/

abbrev r4_0 : Rect S5000x64 := Rect.unit (s := S5000x64) ![0, 0] S5000x64.size inb_S5000x64_S5000x64_0_0
abbrev r4_1 : Rect S5000x128 := Rect.unit (s := S5000x128) ![0, 0] S5000x128.size inb_S5000x128_S5000x128_0_0
abbrev r4_s : Rect S64x128 := Rect.unit (s := S64x128) ![0, 0] S64x128.size inb_S64x128_S64x128_0_0

/-! ## What a point leaves in the accumulator and in the output window -/

/-- The accumulator after the zero fill of the first point. -/
def zero4 : Vec F S64x128 .f32 :=
  View.canon [⟨r4_s, k4_pay1 (F := F)⟩]

/-- The accumulator after a point's accumulation: the one-hot block `x0` and the feature block `x1` of the point,
    added (as the payload computes it) to what the accumulator held, `s`. -/
def step4 (x0 : Vec F S5000x64 .bf16) (x1 : Vec F S5000x128 .f32) (s : Vec F S64x128 .f32) : Vec F S64x128 .f32 :=
  View.canon [⟨r4_s, k4_pay2 (View.ld x0 r4_0) (View.ld x1 r4_1) (View.ld s r4_s)⟩]

/-- The output window after the last point's copy of the accumulator `s`. -/
def out4_2 (s : Vec F S64x128 .f32) : Vec F S64x128 .f32 :=
  View.canon [⟨r4_s, View.ld s r4_s⟩]

/-- The zero offsets, as the constant function. -/
theorem zeros4 : (![0, 0] : Fin 2 → ℕ) = fun _ => 0 := by
  funext a; fin_cases a <;> rfl

/-- Every index of the accumulator's shape lies in the whole-buffer rectangle. -/
theorem mem4_s (y : S64x128.Idx) : y ∈ r4_s.set :=
  View.mem_set_unit_zero (S := S64x128) zeros4 inb_S64x128_S64x128_0_0 y

/-- One whole-buffer store covers the buffer. -/
theorem cover4_s (p0 : Vec F S64x128 .f32) (y : S64x128.Idx) :
    ∃ pc ∈ ([⟨r4_s, p0⟩] : List (View.Piece (Elt F) S64x128 .f32)), y ∈ pc.1.set :=
  ⟨_, List.mem_singleton_self _, mem4_s y⟩

/-- Each is one store through the whole buffer, so each is its payload: the zero fill, -/
theorem zero4_eq : (zero4 : Vec F S64x128 .f32) = k4_pay1 (F := F) :=
  View.canon_unit_zero (S := S64x128) zeros4 inb_S64x128_S64x128_0_0 _

/-- the accumulation over the three whole blocks, -/
theorem step4_eq (x0 : Vec F S5000x64 .bf16) (x1 : Vec F S5000x128 .f32) (s : Vec F S64x128 .f32) :
    step4 x0 x1 s = k4_pay2 x0 x1 s := by
  unfold step4
  rw [View.canon_unit_zero (S := S64x128) zeros4 inb_S64x128_S64x128_0_0,
    View.ld_unit_zero (S := S5000x64) zeros4 inb_S5000x64_S5000x64_0_0,
    View.ld_unit_zero (S := S5000x128) zeros4 inb_S5000x128_S5000x128_0_0,
    View.ld_unit_zero (S := S64x128) zeros4 inb_S64x128_S64x128_0_0]

/-- and the copy. -/
theorem out4_2_eq (s : Vec F S64x128 .f32) : out4_2 s = s := by
  unfold out4_2
  rw [View.canon_unit_zero (S := S64x128) zeros4 inb_S64x128_S64x128_0_0,
    View.ld_unit_zero (S := S64x128) zeros4 inb_S64x128_S64x128_0_0]

/-- THE ACCUMULATION, by recursion on the point: the pair (output window, accumulator) after the body at point `n`.
    The accumulator starts from the zero fill at the first point and from what the point before left afterwards;
    the output window's component is the copy of the accumulator (consulted at the last point only: at the others the
    window is idle and not written back). -/
def outsAt4 (c : Dev nD) : (n : ℕ) → n < cfg4.N → Vec F S64x128 .f32 × Vec F S64x128 .f32
  | 0, hn =>
    (out4_2 (step4 (iblk4 V c 0 ⟨0, hn⟩) (iblk4 V c 1 ⟨0, hn⟩) zero4),
      step4 (iblk4 V c 0 ⟨0, hn⟩) (iblk4 V c 1 ⟨0, hn⟩) zero4)
  | n + 1, hn =>
    (out4_2 (step4 (iblk4 V c 0 ⟨n + 1, hn⟩) (iblk4 V c 1 ⟨n + 1, hn⟩) (outsAt4 c n (Nat.lt_of_succ_lt hn)).2),
      step4 (iblk4 V c 0 ⟨n + 1, hn⟩) (iblk4 V c 1 ⟨n + 1, hn⟩) (outsAt4 c n (Nat.lt_of_succ_lt hn)).2)

/-- At the first point. -/
theorem outsAt4_zero (c : Dev nD) (t : Fin cfg4.N) (h0 : t.val = 0) :
    outsAt4 V c t.val t.isLt = (out4_2 (step4 (iblk4 V c 0 t) (iblk4 V c 1 t) zero4), step4 (iblk4 V c 0 t) (iblk4 V c 1 t) zero4) := by
  obtain ⟨n, hn⟩ := t
  cases n with
  | zero => rfl
  | succ n => exact absurd h0 (Nat.succ_ne_zero n)

/-- At a later point: over what the point before left. -/
theorem outsAt4_pos (c : Dev nD) (t : Fin cfg4.N) (h0 : t.val ≠ 0) :
    outsAt4 V c t.val t.isLt
      = (out4_2 (step4 (iblk4 V c 0 t) (iblk4 V c 1 t) (outsAt4 V c (t.val - 1) (Nat.lt_of_le_of_lt (Nat.sub_le _ _) t.isLt)).2),
          step4 (iblk4 V c 0 t) (iblk4 V c 1 t) (outsAt4 V c (t.val - 1) (Nat.lt_of_le_of_lt (Nat.sub_le _ _) t.isLt)).2) := by
  obtain ⟨n, hn⟩ := t
  cases n with
  | zero => exact absurd rfl h0
  | succ n => rfl

/-- The output component is the copy of the accumulator component, at every point. -/
theorem outsAt4_fst (c : Dev nD) (n : ℕ) (hn : n < cfg4.N) : (outsAt4 V c n hn).1 = out4_2 (outsAt4 V c n hn).2 := by
  cases n with
  | zero => rfl
  | succ n => rfl

/-! ## The body's branch conditions, and where the output window is idle -/

/-- The condition of the zero fill, from the grid coordinates. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The condition of the copy to the output window. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := fun _ => rfl
theorem liveAt4_1 : ∀ t : Fin cfg4.N, cfg4.idle 1 (grid4.coords t) = false := fun _ => rfl
/-- Off the last point the output window is idle and is not written back. -/
theorem idleAt4_2 : ∀ t : Fin cfg4.N, t.val ≠ 9 → cfg4.idle 2 (grid4.coords t) = true :=
  (by decide +kernel : ∀ t : Fin grid4.N, t.val ≠ 9 → cfg4.idle 2 (grid4.coords t) = true)
theorem noFlush4_2 : ∀ t : Fin cfg4.N, t.val ≠ 9 → (cfg4.win 2).flush t = false :=
  (by decide +kernel : ∀ t : Fin grid4.N, t.val ≠ 9 → win4_2.flush t = false)
/-- At the last point it is live. -/
theorem liveAt4_2 : ∀ t : Fin cfg4.N, t.val = 9 → cfg4.idle 2 (grid4.coords t) = false :=
  (by decide +kernel : ∀ t : Fin grid4.N, t.val = 9 → cfg4.idle 2 (grid4.coords t) = false)

/-! ## The invariant that carries the accumulator -/

/-- The accumulator as a memref: a whole scoped buffer of the kernel's own, passed beside the windows. -/
abbrev scM4 : Memref sig .tc .vmem S64x128 .f32 := Memref.whole cc4_scratch0

/-- The class invariant with the accumulator split off the scoped rest, owned as a memref at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-- The region invariant before position `n`: before the first point the class's (the accumulator at anything);
    afterwards the accumulator at what the point before left, the rest of the scoped buffers at anything and the
    generator register at some state. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2)
        ∗ Pipeline.scopedRestBut (Ix := Unit) (Name := ℕ) (U := UR sig nD τ) (Lvl := ℕ) (Val := Elt F) spec4 c [cc4_scratch0])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare ((outsAt4 V c n hn).2)
        ∗ Pipeline.scopedRestBut (Ix := Unit) (Name := ℕ) (U := UR sig nD τ) (Lvl := ℕ) (Val := Elt F) spec4 c [cc4_scratch0])
      ∗ (∃ r, prngReg c r)) := rfl

theorem PhiS4_pos (c : Dev nD) (n : ℕ) (h : n ≤ cfg4.N) (hz : n ≠ 0) :
    PhiS4 V c n h = iprop(iprop(owns (c : Thread nD τ) scM4 fullShare ((outsAt4 V c (n - 1) (by omega)).2)
        ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-! ## The pipeline's proof data -/

/-- The proof data of the pooling pipeline on core `c`: the arrays as the region finds them; after the body at point
    `t` each input's buffer at its block and the output's at the accumulation's first component; the invariant the one
    that carries the accumulator; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The kernel body on any whole memrefs, case by case -/

set_option maxHeartbeats 1000000 in
/-- FIRST POINT: the zero fill is taken, the copy is not. The accumulator, handed at anything, ends at one
    accumulation over the zero fill; the inputs and the output window are handed back as they were. -/
theorem sound_kernel4_first (c : Dev nD) (E : Set ℕ) (i : grid4.Coords)
    (arg1 : Memref sig .tc .vmem S5000x64 .bf16) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : cond4_0 i) (hc1 : ¬cond4_1 i)
    (x0 : Vec F S5000x64 .bf16) (x1 : Vec F S5000x128 .f32) (xo : Vec F S64x128 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (step4 x0 x1 zero4)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (fun y => ⟨_, List.mem_cons.mpr (Or.inl rfl), mem4_s y⟩)).trans ?_
  refine (View.canon_cons_unit_zero (S := S64x128) zeros4 inb_S64x128_S64x128_0_0 _ _).trans ?_
  refine Eq.trans ?_ (View.canon_unit_zero (S := S64x128) zeros4 inb_S64x128_S64x128_0_0 _).symm
  unfold sound_kernel4_first.sl.v9 sound_kernel4_first.sl.H4_1
  rw [View.readCov_eq_canon_ld _ _ _ (cover4_s _)]
  rfl

set_option maxHeartbeats 1000000 in
/-- MIDDLE POINTS: neither conditional is taken. The accumulator, handed at `s`, ends at one accumulation over `s`. -/
theorem sound_kernel4_mid (c : Dev nD) (E : Set ℕ) (i : grid4.Coords)
    (arg1 : Memref sig .tc .vmem S5000x64 .bf16) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : ¬cond4_0 i) (hc1 : ¬cond4_1 i)
    (x0 : Vec F S5000x64 .bf16) (x1 : Vec F S5000x128 .f32) (xo : Vec F S64x128 .f32) (s : Vec F S64x128 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare s
        ∗ (iprop(owns (c : Thread nD τ) arg1 fullShare x0 ∗ owns (c : Thread nD τ) arg2 fullShare x1 ∗ owns (c : Thread nD τ) arg3 fullShare xo
            ∗ owns (c : Thread nD τ) arg4 fullShare (step4 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover4_s _)).trans ?_
  rfl

set_option maxHeartbeats 1000000 in
/-- LAST POINT: the copy is taken, the zero fill is not. The accumulator ends at one accumulation over `s` and the
    output window, handed at anything, at the copy of that. -/
theorem sound_kernel4_last (c : Dev nD) (E : Set ℕ) (i : grid4.Coords)
    (arg1 : Memref sig .tc .vmem S5000x64 .bf16) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : ¬cond4_0 i) (hc1 : cond4_1 i)
    (x0 : Vec F S5000x64 .bf16) (x1 : Vec F S5000x128 .f32) (s : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (out4_2 (step4 x0 x1 s))
            ∗ owns (c : Thread nD τ) arg4 fullShare (step4 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover4_s _)).trans ?_
    unfold sound_kernel4_last.sl.v18 sound_kernel4_last.sl.H4_1
    rw [View.readCov_eq_canon_ld _ _ _ (cover4_s _)]
    rfl
  iexists _; isplitr
  swap; · iexact H4
  ipureintro
  unfold sound_kernel4_last.sl.H4_1
  refine (View.read_writes_eq_canon _ _ _ (cover4_s _)).trans ?_
  rfl

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point, by the three cases of the point: the inputs' memrefs hold their blocks; the invariant hands
    the body the accumulator (at anything at the first point, at what the point before left afterwards) and takes it
    back at this point's contents; the rest of the scoped buffers, the generator register and what the core owes
    pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases h0 : t.val = 0
  · -- the first point: the invariant is the class's, the accumulator at anything
    have h9 : t.val ≠ 9 := by omega
    rw [Dat.leavesExact_idle (dat4 V c) 2 t (idleAt4_2 t h9) (noFlush4_2 t h9)]
    rw [outsAt4_zero V c t h0]
    rw [PhiS4_castSucc V c t, PhiS4_zero V c _ _ h0, PhiA4_eq]
    iintro ⟨⟨⟨HS, HR⟩, Hg⟩, Ho, ⟨%d0, H0⟩, ⟨%d1, H1⟩, ⟨%d2, H2⟩⟩
    iapply (sound_kernel4_first c Set.univ (grid4.coords t) _ _ _ _ _ _ _ _ ((hcond4_0 t).mpr h0) (fun h => h9 ((hcond4_1 t).mp h))
      (iblk4 V c 0 t) (iblk4 V c 1 t) _ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      · iexact Hg
    isplitl [Ho]; · iexact Ho
    isplitl [H0]; · iexact H0
    isplitl [H1]; · iexact H1
    iexists _; iexact H2
  · by_cases h9 : t.val = 9
    · -- the last point: the output window is live and takes the copy
      rw [show (dat4 V c).leavesExact 2 t = owns (c : Thread nD τ) (st4_2 t) fullShare ((dat4 V c).after 2 t) from by
        unfold Dat.leavesExact; rw [liveAt4_2 t h9], after4_2]
      rw [outsAt4_pos V c t h0]
      rw [PhiS4_castSucc V c t, PhiS4_pos V c _ _ h0]
      iintro ⟨⟨⟨HS, HR⟩, Hg⟩, Ho, ⟨%d0, H0⟩, ⟨%d1, H1⟩, ⟨%d2, H2⟩⟩
      iapply (sound_kernel4_last c Set.univ (grid4.coords t) _ _ _ _ _ _ _ _ (fun h => h0 ((hcond4_0 t).mp h)) ((hcond4_1 t).mpr h9)
        (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        · iexact Hg
      isplitl [Ho]; · iexact Ho
      isplitl [H0]; · iexact H0
      isplitl [H1]; · iexact H1
      iexact H2
    · -- a middle point: the output window is handed back as it was found
      rw [Dat.leavesExact_idle (dat4 V c) 2 t (idleAt4_2 t h9) (noFlush4_2 t h9)]
      rw [outsAt4_pos V c t h0]
      rw [PhiS4_castSucc V c t, PhiS4_pos V c _ _ h0]
      iintro ⟨⟨⟨HS, HR⟩, Hg⟩, Ho, ⟨%d0, H0⟩, ⟨%d1, H1⟩, ⟨%d2, H2⟩⟩
      iapply (sound_kernel4_mid c Set.univ (grid4.coords t) _ _ _ _ _ _ _ _ (fun h => h0 ((hcond4_0 t).mp h)) (fun h => h9 ((hcond4_1 t).mp h))
        (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        · iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]

/-- After the last point the invariant gives the class's back: the accumulator's contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨HS, HR⟩, Hg⟩
  isplitl [HS HR]
  · isplitl [HS]
    · iexists _; iexact HS
    · iexact HR
  · iexact Hg

end Cert.KernelIdeal.Hand

end
-- ==== Proof.KiSegs.lean ====
/- The launch of the kernel program's five regions from the per-region proof data: the buffers' contents between the
   items as a chain from the launch memory (each region's output array at what its pipeline's write-backs leave), the
   generated conditional frame's unknowns chosen from that chain, the proof data family at each region's entry
   contents, the five region records over the thread state "every unscoped buffer at the item's contents, the generator
   register, nothing owed", and the frame claim at any `F`. -/
import proofs.«411740_j10170482556987_1_alg».proof.Proof.Gen.KernelIdeal.Regions
import proofs.«411740_j10170482556987_1_alg».proof.Proof.KiR0
import proofs.«411740_j10170482556987_1_alg».proof.Proof.KiR1
import proofs.«411740_j10170482556987_1_alg».proof.Proof.KiR2
import proofs.«411740_j10170482556987_1_alg».proof.Proof.KiR3
import proofs.«411740_j10170482556987_1_alg».proof.Proof.KiR4
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items, with no unknown left

Each region's output array after the region is what its pipeline's write-backs leave (`Dat.arrAt … N` of the proof
data taken at the region's ENTRY contents), so the contents after item `j` are a function of the contents before it:
a chain from the launch memory, each link defined from the links before it only. -/

/-- A valuation read at the TensorCore's references: the form the regions' proof data take. -/
abbrev atTc (W : Dev nD → Valuation τ sig (Elt F)) : (c : Dev nD) → (b : Ref sig .tc) → Buf (Elt F) ((c : Thread nD τ).loc b) :=
  fun c b => W c b

/-- The contents region 0 is entered from: the launch memory after the first host stretch. -/
abbrev U1 (c : Dev nD) : Valuation τ sig (Elt F) := Gen.V1 m c
/-- What region 0 leaves in `main_v28`: its output window's write-backs, all ten folded. -/
def o2 (c : Dev nD) : Buf (Elt F) ((c : Thread nD τ).loc main_v28) := (dat0 (atTc (U1 m)) c).arrAt 2 cfg0.N
/-- After region 0. -/
def U2 (c : Dev nD) : Valuation τ sig (Elt F) := Function.update (U1 m c) main_v28 (o2 m c)
/-- After the second host stretch: what region 1 is entered from. -/
def U3 (c : Dev nD) : Valuation τ sig (Elt F) := StableHlo.after hostOps1 (U2 m c)
/-- What region 1 leaves in `main_v50`. -/
def o4 (c : Dev nD) : Buf (Elt F) ((c : Thread nD τ).loc main_v50) := (dat1 (atTc (U3 m)) c).arrAt 4 cfg1.N
/-- After region 1: what region 2 is entered from. -/
def U4 (c : Dev nD) : Valuation τ sig (Elt F) := Function.update (U3 m c) main_v50 (o4 m c)
/-- What region 2 leaves in `main_v51`. -/
def o5 (c : Dev nD) : Buf (Elt F) ((c : Thread nD τ).loc main_v51) := (dat2 (atTc (U4 m)) c).arrAt 2 cfg2.N
/-- After region 2. -/
def U5 (c : Dev nD) : Valuation τ sig (Elt F) := Function.update (U4 m c) main_v51 (o5 m c)
/-- After the third host stretch: what region 3 is entered from. -/
def U6 (c : Dev nD) : Valuation τ sig (Elt F) := StableHlo.after hostOps3 (U5 m c)
/-- What region 3 leaves in `main_v73`. -/
def o7 (c : Dev nD) : Buf (Elt F) ((c : Thread nD τ).loc main_v73) := (dat3 (atTc (U6 m)) c).arrAt 4 cfg3.N
/-- After region 3. -/
def U7 (c : Dev nD) : Valuation τ sig (Elt F) := Function.update (U6 m c) main_v73 (o7 m c)
/-- After the fourth host stretch: what region 4 is entered from. -/
def U8 (c : Dev nD) : Valuation τ sig (Elt F) := StableHlo.after hostOps4 (U7 m c)
/-- What region 4 leaves in `main_v81`. -/
def o9 (c : Dev nD) : Buf (Elt F) ((c : Thread nD τ).loc main_v81) := (dat4 (atTc (U8 m)) c).arrAt 2 cfg4.N
/-- After region 4. -/
def U9 (c : Dev nD) : Valuation τ sig (Elt F) := Function.update (U8 m c) main_v81 (o9 m c)
/-- After the last host stretch: the contents at the return. -/
def U10 (c : Dev nD) : Valuation τ sig (Elt F) := StableHlo.after hostOps5 (U9 m c)

/-- The generated frame's unknowns, chosen: after item `j - 1` a region's output array holds the chain's value; every
    other (item, reference) pair is never read and is set to the launch contents. -/
def outs : Gen.Outs (F := F) := fun j r c =>
  match j with
  | 2 => if h : r = main_v28 then h ▸ o2 m c else atTc (Gen.V0 m) c r
  | 4 => if h : r = main_v50 then h ▸ o4 m c else atTc (Gen.V0 m) c r
  | 5 => if h : r = main_v51 then h ▸ o5 m c else atTc (Gen.V0 m) c r
  | 7 => if h : r = main_v73 then h ▸ o7 m c else atTc (Gen.V0 m) c r
  | 9 => if h : r = main_v81 then h ▸ o9 m c else atTc (Gen.V0 m) c r
  | _ => atTc (Gen.V0 m) c r

theorem outs_2 (c : Dev nD) : outs m 2 main_v28 c = o2 m c := by simp only [outs, dif_pos]
theorem outs_4 (c : Dev nD) : outs m 4 main_v50 c = o4 m c := by simp only [outs, dif_pos]
theorem outs_5 (c : Dev nD) : outs m 5 main_v51 c = o5 m c := by simp only [outs, dif_pos]
theorem outs_7 (c : Dev nD) : outs m 7 main_v73 c = o7 m c := by simp only [outs, dif_pos]
theorem outs_9 (c : Dev nD) : outs m 9 main_v81 c = o9 m c := by simp only [outs, dif_pos]

/-- At these unknowns the generated valuations are the chain's. -/
theorem V2_eq (c : Dev nD) : Gen.V2 m (outs m) c = U2 m c := by unfold U2; rw [← outs_2]
theorem V3_eq (c : Dev nD) : Gen.V3 m (outs m) c = U3 m c := by unfold U3; rw [← V2_eq]
theorem V4_eq (c : Dev nD) : Gen.V4 m (outs m) c = U4 m c := by unfold U4; rw [← outs_4, ← V3_eq]
theorem V5_eq (c : Dev nD) : Gen.V5 m (outs m) c = U5 m c := by unfold U5; rw [← outs_5, ← V4_eq]
theorem V6_eq (c : Dev nD) : Gen.V6 m (outs m) c = U6 m c := by unfold U6; rw [← V5_eq]
theorem V7_eq (c : Dev nD) : Gen.V7 m (outs m) c = U7 m c := by unfold U7; rw [← outs_7, ← V6_eq]
theorem V8_eq (c : Dev nD) : Gen.V8 m (outs m) c = U8 m c := by unfold U8; rw [← V7_eq]
theorem V9_eq (c : Dev nD) : Gen.V9 m (outs m) c = U9 m c := by unfold U9; rw [← outs_9, ← V8_eq]
theorem V10_eq (c : Dev nD) : Gen.V10 m (outs m) c = U10 m c := by unfold U10; rw [← V9_eq]

/-! ## The proof data family and what rides beside the buffers -/

/-- Every pipeline's proof data, each at its region's entry contents: a literal `match`. -/
def pdats : (p : Fin 5) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U4 m)) c
  | ⟨3, _⟩ => fun c => dat3 (atTc (U6 m)) c
  | ⟨4, _⟩ => fun c => dat4 (atTc (U8 m)) c

/-- No core owes another anything: no level is assigned. -/
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)

/-- A region's link of the chain, read at its output array and off it. -/
theorem U2_self (c : Dev nD) : U2 m c main_v28 = o2 m c := by
  unfold U2; exact Function.update_self _ _ _
theorem U2_of_ne (c : Dev nD) {b : Ref sig .tc} (h : b ≠ main_v28) : U2 m c b = U1 m c b := by
  unfold U2; exact Function.update_of_ne (StableHlo.devRef_ne_of_ne h) _ _
theorem U4_self (c : Dev nD) : U4 m c main_v50 = o4 m c := by
  unfold U4; exact Function.update_self _ _ _
theorem U4_of_ne (c : Dev nD) {b : Ref sig .tc} (h : b ≠ main_v50) : U4 m c b = U3 m c b := by
  unfold U4; exact Function.update_of_ne (StableHlo.devRef_ne_of_ne h) _ _
theorem U5_self (c : Dev nD) : U5 m c main_v51 = o5 m c := by
  unfold U5; exact Function.update_self _ _ _
theorem U5_of_ne (c : Dev nD) {b : Ref sig .tc} (h : b ≠ main_v51) : U5 m c b = U4 m c b := by
  unfold U5; exact Function.update_of_ne (StableHlo.devRef_ne_of_ne h) _ _
theorem U7_self (c : Dev nD) : U7 m c main_v73 = o7 m c := by
  unfold U7; exact Function.update_self _ _ _
theorem U7_of_ne (c : Dev nD) {b : Ref sig .tc} (h : b ≠ main_v73) : U7 m c b = U6 m c b := by
  unfold U7; exact Function.update_of_ne (StableHlo.devRef_ne_of_ne h) _ _
theorem U9_self (c : Dev nD) : U9 m c main_v81 = o9 m c := by
  unfold U9; exact Function.update_self _ _ _
theorem U9_of_ne (c : Dev nD) {b : Ref sig .tc} (h : b ≠ main_v81) : U9 m c b = U8 m c b := by
  unfold U9; exact Function.update_of_ne (StableHlo.devRef_ne_of_ne h) _ _

/-! ## The regions as segments -/

/-! ### Region 0: entered from `U1`, left at `U2` -/

/-- At region 0's exit each of its arrays holds what the pipeline leaves: an input window's array is never written
    and is no `main_v28`, so the chain's link reads it as entered; the output window's array is the link's new point. -/
theorem hF0 (c : Dev nD) : ∀ w : Fin cfg0.W, (dat0 (atTc (U1 m)) c).arrAt w cfg0.N = atTc (U2 m) c (Pipeline.arrRef spec0 w)
  | ⟨0, _⟩ => ((dat0 (atTc (U1 m)) c).arrAt_in 0 rfl _).trans ((A_eq0 (atTc (U1 m)) c 0).trans
      (U2_of_ne m c (b := Pipeline.arrRef spec0 0) (by decide)).symm)
  | ⟨1, _⟩ => ((dat0 (atTc (U1 m)) c).arrAt_in 1 rfl _).trans ((A_eq0 (atTc (U1 m)) c 1).trans
      (U2_of_ne m c (b := Pipeline.arrRef spec0 1) (by decide)).symm)
  | ⟨2, _⟩ => (U2_self m c).symm
/-- Off the region's arrays nothing changed: the link's only new point is the output window's array. -/
theorem hrest0 (c : Dev nD) : ∀ b, b ∉ Finset.univ.image (Pipeline.arrRef spec0) → atTc (U2 m) c b = atTc (U1 m) c b :=
  fun b hb => U2_of_ne m c fun e => hb (Finset.mem_image.mpr ⟨2, Finset.mem_univ _, e.symm⟩)

set_option backward.isDefEq.respectTransparency.types false in
/-- REGION 0 over the thread state "every unscoped buffer at the item's contents, the generator register at some
    state, nothing owed": its arrays split out of the unscoped buffers at `U1` and put back at `U2`;
    the generator register into the class invariant and out; no semaphore of the kernel's own. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atTc (U1 m) c) fun w => A_eq0 (atTc (U1 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: entered from `U3`, left at `U4` -/

set_option maxHeartbeats 1000000 in
/-- At region 1's exit each of its arrays holds what the pipeline leaves: an input window's array is never written
    and is no `main_v50`, so the chain's link reads it as entered; the output window's array is the link's new point. -/
theorem hF1 (c : Dev nD) : ∀ w : Fin cfg1.W, (dat1 (atTc (U3 m)) c).arrAt w cfg1.N = atTc (U4 m) c (Pipeline.arrRef spec1 w)
  | ⟨0, _⟩ => ((dat1 (atTc (U3 m)) c).arrAt_in 0 rfl _).trans ((A_eq1 (atTc (U3 m)) c 0).trans
      (U4_of_ne m c (b := Pipeline.arrRef spec1 0) (by decide)).symm)
  | ⟨1, _⟩ => ((dat1 (atTc (U3 m)) c).arrAt_in 1 rfl _).trans ((A_eq1 (atTc (U3 m)) c 1).trans
      (U4_of_ne m c (b := Pipeline.arrRef spec1 1) (by decide)).symm)
  | ⟨2, _⟩ => ((dat1 (atTc (U3 m)) c).arrAt_in 2 rfl _).trans ((A_eq1 (atTc (U3 m)) c 2).trans
      (U4_of_ne m c (b := Pipeline.arrRef spec1 2) (by decide)).symm)
  | ⟨3, _⟩ => ((dat1 (atTc (U3 m)) c).arrAt_in 3 rfl _).trans ((A_eq1 (atTc (U3 m)) c 3).trans
      (U4_of_ne m c (b := Pipeline.arrRef spec1 3) (by decide)).symm)
  | ⟨4, _⟩ => (U4_self m c).symm
/-- Off the region's arrays nothing changed: the link's only new point is the output window's array. -/
theorem hrest1 (c : Dev nD) : ∀ b, b ∉ Finset.univ.image (Pipeline.arrRef spec1) → atTc (U4 m) c b = atTc (U3 m) c b :=
  fun b hb => U4_of_ne m c fun e => hb (Finset.mem_image.mpr ⟨4, Finset.mem_univ _, e.symm⟩)

set_option backward.isDefEq.respectTransparency.types false in
/-- REGION 1 over the thread state "every unscoped buffer at the item's contents, the generator register at some
    state, nothing owed": its arrays split out of the unscoped buffers at `U3` and put back at `U4`;
    the generator register into the class invariant and out; no semaphore of the kernel's own. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (atTc (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atTc (U3 m) c) fun w => A_eq1 (atTc (U3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 2: entered from `U4`, left at `U5` -/

/-- At region 2's exit each of its arrays holds what the pipeline leaves: an input window's array is never written
    and is no `main_v51`, so the chain's link reads it as entered; the output window's array is the link's new point. -/
theorem hF2 (c : Dev nD) : ∀ w : Fin cfg2.W, (dat2 (atTc (U4 m)) c).arrAt w cfg2.N = atTc (U5 m) c (Pipeline.arrRef spec2 w)
  | ⟨0, _⟩ => ((dat2 (atTc (U4 m)) c).arrAt_in 0 rfl _).trans ((A_eq2 (atTc (U4 m)) c 0).trans
      (U5_of_ne m c (b := Pipeline.arrRef spec2 0) (by decide)).symm)
  | ⟨1, _⟩ => ((dat2 (atTc (U4 m)) c).arrAt_in 1 rfl _).trans ((A_eq2 (atTc (U4 m)) c 1).trans
      (U5_of_ne m c (b := Pipeline.arrRef spec2 1) (by decide)).symm)
  | ⟨2, _⟩ => (U5_self m c).symm
/-- Off the region's arrays nothing changed: the link's only new point is the output window's array. -/
theorem hrest2 (c : Dev nD) : ∀ b, b ∉ Finset.univ.image (Pipeline.arrRef spec2) → atTc (U5 m) c b = atTc (U4 m) c b :=
  fun b hb => U5_of_ne m c fun e => hb (Finset.mem_image.mpr ⟨2, Finset.mem_univ _, e.symm⟩)

set_option backward.isDefEq.respectTransparency.types false in
/-- REGION 2 over the thread state "every unscoped buffer at the item's contents, the generator register at some
    state, nothing owed": its arrays split out of the unscoped buffers at `U4` and put back at `U5`;
    the generator register into the class invariant and out; no semaphore of the kernel's own. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (atTc (U4 m)) c).loose
  hwaits := Pipeline.hwaits_of_owed_zero _ _ _ _ L lv 2 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (atTc (U4 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atTc (U4 m) c) fun w => A_eq2 (atTc (U4 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atTc (U4 m) c) (atTc (U5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 3: entered from `U6`, left at `U7` -/

set_option maxHeartbeats 1000000 in
/-- At region 3's exit each of its arrays holds what the pipeline leaves: an input window's array is never written
    and is no `main_v73`, so the chain's link reads it as entered; the output window's array is the link's new point. -/
theorem hF3 (c : Dev nD) : ∀ w : Fin cfg3.W, (dat3 (atTc (U6 m)) c).arrAt w cfg3.N = atTc (U7 m) c (Pipeline.arrRef spec3 w)
  | ⟨0, _⟩ => ((dat3 (atTc (U6 m)) c).arrAt_in 0 rfl _).trans ((A_eq3 (atTc (U6 m)) c 0).trans
      (U7_of_ne m c (b := Pipeline.arrRef spec3 0) (by decide)).symm)
  | ⟨1, _⟩ => ((dat3 (atTc (U6 m)) c).arrAt_in 1 rfl _).trans ((A_eq3 (atTc (U6 m)) c 1).trans
      (U7_of_ne m c (b := Pipeline.arrRef spec3 1) (by decide)).symm)
  | ⟨2, _⟩ => ((dat3 (atTc (U6 m)) c).arrAt_in 2 rfl _).trans ((A_eq3 (atTc (U6 m)) c 2).trans
      (U7_of_ne m c (b := Pipeline.arrRef spec3 2) (by decide)).symm)
  | ⟨3, _⟩ => ((dat3 (atTc (U6 m)) c).arrAt_in 3 rfl _).trans ((A_eq3 (atTc (U6 m)) c 3).trans
      (U7_of_ne m c (b := Pipeline.arrRef spec3 3) (by decide)).symm)
  | ⟨4, _⟩ => (U7_self m c).symm
/-- Off the region's arrays nothing changed: the link's only new point is the output window's array. -/
theorem hrest3 (c : Dev nD) : ∀ b, b ∉ Finset.univ.image (Pipeline.arrRef spec3) → atTc (U7 m) c b = atTc (U6 m) c b :=
  fun b hb => U7_of_ne m c fun e => hb (Finset.mem_image.mpr ⟨4, Finset.mem_univ _, e.symm⟩)

set_option backward.isDefEq.respectTransparency.types false in
/-- REGION 3 over the thread state "every unscoped buffer at the item's contents, the generator register at some
    state, nothing owed": its arrays split out of the unscoped buffers at `U6` and put back at `U7`;
    the generator register into the class invariant and out; no semaphore of the kernel's own. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (atTc (U6 m)) c).loose
  hwaits := Pipeline.hwaits_of_owed_zero _ _ _ _ L lv 3 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec3 c (atTc (U6 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atTc (U6 m) c) fun w => A_eq3 (atTc (U6 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atTc (U6 m) c) (atTc (U7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 4: entered from `U8`, left at `U9` -/

/-- At region 4's exit each of its arrays holds what the pipeline leaves: an input window's array is never written
    and is no `main_v81`, so the chain's link reads it as entered; the output window's array is the link's new point. -/
theorem hF4 (c : Dev nD) : ∀ w : Fin cfg4.W, (dat4 (atTc (U8 m)) c).arrAt w cfg4.N = atTc (U9 m) c (Pipeline.arrRef spec4 w)
  | ⟨0, _⟩ => ((dat4 (atTc (U8 m)) c).arrAt_in 0 rfl _).trans ((A_eq4 (atTc (U8 m)) c 0).trans
      (U9_of_ne m c (b := Pipeline.arrRef spec4 0) (by decide)).symm)
  | ⟨1, _⟩ => ((dat4 (atTc (U8 m)) c).arrAt_in 1 rfl _).trans ((A_eq4 (atTc (U8 m)) c 1).trans
      (U9_of_ne m c (b := Pipeline.arrRef spec4 1) (by decide)).symm)
  | ⟨2, _⟩ => (U9_self m c).symm
/-- Off the region's arrays nothing changed: the link's only new point is the output window's array. -/
theorem hrest4 (c : Dev nD) : ∀ b, b ∉ Finset.univ.image (Pipeline.arrRef spec4) → atTc (U9 m) c b = atTc (U8 m) c b :=
  fun b hb => U9_of_ne m c fun e => hb (Finset.mem_image.mpr ⟨2, Finset.mem_univ _, e.symm⟩)

set_option backward.isDefEq.respectTransparency.types false in
/-- REGION 4 over the thread state "every unscoped buffer at the item's contents, the generator register at some
    state, nothing owed": its arrays split out of the unscoped buffers at `U8` and put back at `U9`;
    the generator register and the scoped rest into the class invariant, which the region's own invariant is made from at
    the first point and gives back at the last; no semaphore of the kernel's own. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (atTc (U8 m)) c).loose
  hwaits := Pipeline.hwaits_of_owed_zero _ _ _ _ L lv 4 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec4 c (atTc (U8 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (atTc (U8 m) c) fun w => A_eq4 (atTc (U8 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (atTc (U8 m)) c)
    unfold Pipeline.ΦA
    iintro ⟨Hp, -, Hr⟩
    isplitl [Hr]; · iexact Hr
    iexact Hp
  hout c := by
    rw [Pipeline.ownSems0_none]
    refine BIBase.Entails.trans (hout4 (atTc (U8 m)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (atTc (U8 m) c) (atTc (U9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's at every pipeline's staging cells; no further ghost resource. -/
theorem hu₀KI : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals beside the buffers makes `R` on every core: the generator register at its launch state, the
    core owing nothing. -/
theorem hE0KI (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- `R` ends owing nothing. -/
theorem hE5KI (c : Dev nD) : R (F := F) c ⊢ (iprop(∃ W, owes (c : Thread nD τ) (0 : CellTallies nD τ sig Unit) W) : sProp 𝕄) := by
  iintro ⟨-, HO⟩; iexact HO

/-- Each region's record is entered from the generated frame's thread state before it and leaves the one after it: the
    generated valuations at `outs` are the chain's (`V2_eq` … `V9_eq`). -/
theorem hpre0 (c : Dev nD) : iprop(StableHlo.held (c : Thread nD τ) (Pipeline.ucRefs τ sig) (Gen.V1 m c) ∗ R c) ⊢ (reg0 m).pre c := .rfl
theorem hpost0 (c : Dev nD) : (reg0 m).post c ⊢ iprop(StableHlo.held (c : Thread nD τ) (Pipeline.ucRefs τ sig) (Gen.V2 m (outs m) c) ∗ R c) := by
  rw [V2_eq]; exact .rfl
theorem hpre1 (c : Dev nD) : iprop(StableHlo.held (c : Thread nD τ) (Pipeline.ucRefs τ sig) (Gen.V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ R c) := by
  rw [V4_eq]; exact .rfl
theorem hpre2 (c : Dev nD) : iprop(StableHlo.held (c : Thread nD τ) (Pipeline.ucRefs τ sig) (Gen.V4 m (outs m) c) ∗ R c) ⊢ (reg2 m).pre c := by
  rw [V4_eq]; exact .rfl
theorem hpost2 (c : Dev nD) : (reg2 m).post c ⊢ iprop(StableHlo.held (c : Thread nD τ) (Pipeline.ucRefs τ sig) (Gen.V5 m (outs m) c) ∗ R c) := by
  rw [V5_eq]; exact .rfl
theorem hpre3 (c : Dev nD) : iprop(StableHlo.held (c : Thread nD τ) (Pipeline.ucRefs τ sig) (Gen.V6 m (outs m) c) ∗ R c) ⊢ (reg3 m).pre c := by
  rw [V6_eq]; exact .rfl
theorem hpost3 (c : Dev nD) : (reg3 m).post c ⊢ iprop(StableHlo.held (c : Thread nD τ) (Pipeline.ucRefs τ sig) (Gen.V7 m (outs m) c) ∗ R c) := by
  rw [V7_eq]; exact .rfl
theorem hpre4 (c : Dev nD) : iprop(StableHlo.held (c : Thread nD τ) (Pipeline.ucRefs τ sig) (Gen.V8 m (outs m) c) ∗ R c) ⊢ (reg4 m).pre c := by
  rw [V8_eq]; exact .rfl
theorem hpost4 (c : Dev nD) : (reg4 m).post c ⊢ iprop(StableHlo.held (c : Thread nD τ) (Pipeline.ucRefs τ sig) (Gen.V9 m (outs m) c) ∗ R c) := by
  rw [V9_eq]; exact .rfl

set_option backward.isDefEq.respectTransparency.types false in
/-- THE FRAME of the kernel program at any `F`: from any memory with zero counters every weakly fair execution of @main
    terminates and every final memory holds each argument as launched — the generated conditional frame at the chain's
    unknowns, the five records, and `R` riding beside the buffers. -/
theorem frameKI (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Gen.frame_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := hu₀KI) (E := fun _ c => R c) (hE0 := hE0KI ρ) (hE5 := hE5KI)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)

end Cert.KernelIdeal.Hand

end
-- ==== Proof.PreFacts.lean ====
import proofs.«411740_j10170482556987_1_alg».proof.Pre_finite_inputs
import proofs.«411740_j10170482556987_1_alg».proof.Proof.Gen.Pre_finite_inputs
import Idealize.ShloMosaic.Lib.ReduceAll
import Idealize.ShloMosaic.Lib.ValueIdx
import Idealize.ShloMosaic.PureOps.Ideal.Laws

/-!
What the precondition gives, at the extended reals.

The precondition is a conjunction of seventeen `jnp.all`s: for each of the fifteen float inputs,
`|x| < +∞` at every entry, and for the two running variances, `x ≥ 0` at every entry. Over the extended
reals `|x| = max x (-x)`, which is `+∞` exactly at `x = ±∞`; so the first kind says that every entry is
a real number, and the second that every entry of a variance is nonnegative.
-/

namespace Cert.Hand.PreFacts

open Idealize.ShloMosaic Cert.Pre_finite_inputs

instance : Subsingleton S_.Idx := ⟨fun a b => funext fun d => d.elim0⟩

/-- The single-precision pattern of `+∞`. -/
theorem inf_f32 : Ideal.ofBits .f32 0x7F800000#32 = ⊤ := by simp [Ideal.ofBits, Ideal.ieee]

/-- `max x (-x) < ⊤` fails at both infinities (there the maximum is `⊤`), so it leaves the reals. -/
theorem real_of_abs_lt_inf (x : EReal)
    (h : Ideal.cmp .olt (max x (-x)) (Ideal.ofBits .f32 0x7F800000#32) = 1#1) : ∃ r : ℝ, x = (r : EReal) := by
  rw [inf_f32] at h
  induction x using EReal.rec with
  | bot => simp [Ideal.cmp] at h
  | top => simp [Ideal.cmp] at h
  | coe r => exact ⟨r, rfl⟩

/-- `x ≥ 0` read back. -/
theorem nonneg_of_ge_zero (x : EReal)
    (h : Ideal.cmp .oge x (Ideal.ofBits .f32 0x00000000#32) = 1#1) : 0 ≤ x := by
  rw [Ideal.ofBits_zero_f32] at h
  by_contra hx
  simp [Ideal.cmp, hx] at h

/-- `jnp.all(|a| < inf)` is one: every entry of `a` is a real. -/
theorem all_finite {s : Shape} {axes : List (Fin s.rank)} (a : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi
          (cmpf .olt (Host.absf a) (broadcastInDim s ![] hb (constant (F := Ideal) S_ .f32 0x7F800000#32)))
          init hr h0 j = 1#1)
    (i : s.Idx) : ∃ r : ℝ, a i = (r : EReal) :=
  real_of_abs_lt_inf (a i) (Host.reduce_andi_all _ init hr h0 j e i)

/-- `jnp.all(a ≥ 0)` is one: every entry of `a` is nonnegative. -/
theorem all_nonneg {s : Shape} {axes : List (Fin s.rank)} (a : FVec Ideal s .f32)
    (hb : S_.BroadcastsInDim s (![] : Fin 0 → Fin s.rank)) (hr : s.ReducesTo axes S_) (h0 : 0 < S_.numel)
    (init : IVec S_ 1) (j : S_.Idx)
    (e : Host.reduce IntOp.andi
          (cmpf .oge a (broadcastInDim s ![] hb (constant (F := Ideal) S_ .f32 0x00000000#32)))
          init hr h0 j = 1#1)
    (i : s.Idx) : 0 ≤ a i :=
  nonneg_of_ge_zero (a i) (Host.reduce_andi_all _ init hr h0 j e i)

/-- A conjunction of two scalar masks is one: both are. -/
theorem split_and {x y : IVec S_ 1} {j : S_.Idx} (h : andi x y j = 1#1) : x j = 1#1 ∧ y j = 1#1 :=
  IntOp.andi_eq_one.1 h

/-- What the precondition says of the seventeen arguments (the two integer arrays are unconstrained). -/
structure Holds (a0 : FVec Ideal S50000x512 .f32) (a3 : FVec Ideal S512x128 .f32)
    (a4 a5 a6 a7 a8 : FVec Ideal S128 .f32) (a9 : FVec Ideal S128x128 .f32)
    (a10 a11 a12 a13 a14 : FVec Ideal S128 .f32) (a15 : FVec Ideal S128x2 .f32) (a16 : FVec Ideal S2 .f32) : Prop where
  fin0 : ∀ i, ∃ r : ℝ, a0 i = (r : EReal)
  fin3 : ∀ i, ∃ r : ℝ, a3 i = (r : EReal)
  fin4 : ∀ i, ∃ r : ℝ, a4 i = (r : EReal)
  fin5 : ∀ i, ∃ r : ℝ, a5 i = (r : EReal)
  fin6 : ∀ i, ∃ r : ℝ, a6 i = (r : EReal)
  fin7 : ∀ i, ∃ r : ℝ, a7 i = (r : EReal)
  fin8 : ∀ i, ∃ r : ℝ, a8 i = (r : EReal)
  fin9 : ∀ i, ∃ r : ℝ, a9 i = (r : EReal)
  fin10 : ∀ i, ∃ r : ℝ, a10 i = (r : EReal)
  fin11 : ∀ i, ∃ r : ℝ, a11 i = (r : EReal)
  fin12 : ∀ i, ∃ r : ℝ, a12 i = (r : EReal)
  fin13 : ∀ i, ∃ r : ℝ, a13 i = (r : EReal)
  fin14 : ∀ i, ∃ r : ℝ, a14 i = (r : EReal)
  fin15 : ∀ i, ∃ r : ℝ, a15 i = (r : EReal)
  fin16 : ∀ i, ∃ r : ℝ, a16 i = (r : EReal)
  nonneg8 : ∀ i, 0 ≤ a8 i
  nonneg14 : ∀ i, 0 ≤ a14 i

/-- The precondition, all ones, unfolds to its seventeen conjuncts; each is read by `all_finite` or
`all_nonneg`. -/
theorem of_pre [Facts] (a0 : FVec Ideal S50000x512 .f32) (a1 : IVec S2x800000 32) (a2 : IVec S50000 32)
    (a3 : FVec Ideal S512x128 .f32) (a4 a5 a6 a7 a8 : FVec Ideal S128 .f32) (a9 : FVec Ideal S128x128 .f32)
    (a10 a11 a12 a13 a14 : FVec Ideal S128 .f32) (a15 : FVec Ideal S128x2 .f32) (a16 : FVec Ideal S2 .f32)
    (h : fn (F := Ideal) a0 a1 a2 a3 a4 a5 a6 a7 a8 a9 a10 a11 a12 a13 a14 a15 a16 = fun _ => 1#1) :
    Holds a0 a3 a4 a5 a6 a7 a8 a9 a10 a11 a12 a13 a14 a15 a16 := by
  have h81 := congrFun h ValueIdx.ix0
  dsimp only [fn, fn_part1, fn_part2, fn_part3, fn_part4] at h81
  obtain ⟨h77, h80⟩ := split_and h81
  obtain ⟨h73, h76⟩ := split_and h77
  obtain ⟨h68, h72⟩ := split_and h73
  obtain ⟨h63, h67⟩ := split_and h68
  obtain ⟨h58, h62⟩ := split_and h63
  obtain ⟨h53, h57⟩ := split_and h58
  obtain ⟨h48, h52⟩ := split_and h53
  obtain ⟨h43, h47⟩ := split_and h48
  obtain ⟨h38, h42⟩ := split_and h43
  obtain ⟨h33, h37⟩ := split_and h38
  obtain ⟨h28, h32⟩ := split_and h33
  obtain ⟨h23, h27⟩ := split_and h28
  obtain ⟨h18, h22⟩ := split_and h23
  obtain ⟨h13, h17⟩ := split_and h18
  obtain ⟨h8, h12⟩ := split_and h13
  obtain ⟨h3, h7⟩ := split_and h8
  exact
    { fin0 := all_finite a0 _ _ _ _ _ h3
      fin3 := all_finite a3 _ _ _ _ _ h7
      fin4 := all_finite a4 _ _ _ _ _ h12
      fin5 := all_finite a5 _ _ _ _ _ h17
      fin6 := all_finite a6 _ _ _ _ _ h22
      fin7 := all_finite a7 _ _ _ _ _ h27
      fin8 := all_finite a8 _ _ _ _ _ h32
      fin9 := all_finite a9 _ _ _ _ _ h37
      fin10 := all_finite a10 _ _ _ _ _ h42
      fin11 := all_finite a11 _ _ _ _ _ h47
      fin12 := all_finite a12 _ _ _ _ _ h52
      fin13 := all_finite a13 _ _ _ _ _ h57
      fin14 := all_finite a14 _ _ _ _ _ h62
      fin15 := all_finite a15 _ _ _ _ _ h67
      fin16 := all_finite a16 _ _ _ _ _ h72
      nonneg8 := all_nonneg a8 _ _ _ _ _ h76
      nonneg14 := all_nonneg a14 _ _ _ _ _ h80 }

/-- An array of reals is the coercion of a real-valued array. -/
theorem exists_real_fun {ι : Type} {a : ι → EReal} (h : ∀ i, ∃ r : ℝ, a i = (r : EReal)) :
    ∃ f : ι → ℝ, a = fun i => (f i : EReal) :=
  ⟨fun i => (h i).choose, funext fun i => (h i).choose_spec⟩

/-- The same for a nonnegative array: the real-valued array is nonnegative. -/
theorem exists_nonneg_real_fun {ι : Type} {a : ι → EReal} (h : ∀ i, ∃ r : ℝ, a i = (r : EReal))
    (hn : ∀ i, 0 ≤ a i) : ∃ f : ι → ℝ, (∀ i, 0 ≤ f i) ∧ a = fun i => (f i : EReal) := by
  obtain ⟨f, rfl⟩ := exists_real_fun h
  exact ⟨f, fun i => EReal.coe_nonneg.1 (hn i), rfl⟩

end Cert.Hand.PreFacts
-- ==== Proof.KvR0.lean ====
/- The value half of pallas_call 0 of @main: what the matrix-product kernel leaves in its output array.
   The call runs over 10 grid points; at point t it multiplies rows [5000 t, 5000 t + 5000) of the left factor
   (a [50000, 512] array) by the whole right factor (a [512, 128] array) and writes the [5000, 128] product to the
   same rows of the output. On the extended reals the narrowing of the operands to a shorter format is the identity
   and the accumulator the product is added to is the zero array, so entry (i, j) of the output ends as the plain sum
   over the 512 inner indices k of left (i, k) * right (k, j): one function of the two factor arrays as the call
   finds them. First the body's payload is read at an entry of a block; then each point's written-back block is
   shown to be the corresponding block of that function; the ten row blocks tile the output, so the whole output
   array is that function. -/
import proofs.«411740_j10170482556987_1_alg».proof.Proof.KiR0
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The product of two blocks, entry by entry -/

/-- Row coordinate of the left factor's entry met at output index `i`: the output's row. -/
theorem lhs_k0_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
/-- Its column coordinate: the summation index. -/
theorem lhs_k0_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
/-- Row coordinate of the right factor's entry: the summation index. -/
theorem rhs_k0_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
/-- Its column coordinate: the output's column. -/
theorem rhs_k0_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The body's payload on a [5000, 512] block `x0` and the [512, 128] factor `x1`, read at row `p` and column `q`:
    the narrowing of both operands is the identity on extended reals and the accumulator is the zero array, so the
    entry is the plain sum over the 512 inner indices of the products of the two operands' entries. -/
theorem k0_pay1_apply (x0 : Vec Ideal S5000x512 .f32) (x1 : Vec Ideal S512x128 .f32) (p : Fin 5000) (q : Fin 128) :
    k0_pay1 (F := Ideal) x0 x1 (ix2 p q) = ∑ k : Fin 512, x0 (ix2 p k) * x1 (ix2 k q) := by
  unfold k0_pay1
  show FloatOps.matmul dot_S5000x512_S512x128_S5000x128_1_0_0_1_n_n none _ _ (constant (F := Ideal) S5000x128 .f32 0x00000000#32) (ix2 p q) = _
  rw [Ideal.matmul_constant_zero_apply, ← Equiv.sum_comp (contrEquiv1 dot_S5000x512_S512x128_S5000x128_1_0_0_1_n_n 512 rfl rfl).symm]
  refine Finset.sum_congr rfl fun k _ => ?_
  have hk := contrEquiv1_symm_val dot_S5000x512_S512x128_S5000x128_1_0_0_1_n_n 512 rfl rfl k
  have el : dot_S5000x512_S512x128_S5000x128_1_0_0_1_n_n.lhsIdx (ix2 p q) ((contrEquiv1 dot_S5000x512_S512x128_S5000x128_1_0_0_1_n_n 512 rfl rfl).symm k) = ix2 p k := funext fun a => Fin.ext (by
    match a with
    | ⟨0, _⟩ => exact lhs_k0_0 _ _
    | ⟨1, _⟩ => exact (lhs_k0_1 _ _).trans hk)
  have er : dot_S5000x512_S512x128_S5000x128_1_0_0_1_n_n.rhsIdx (ix2 p q) ((contrEquiv1 dot_S5000x512_S512x128_S5000x128_1_0_0_1_n_n 512 rfl rfl).symm k) = ix2 k q := funext fun a => Fin.ext (by
    match a with
    | ⟨0, _⟩ => exact (rhs_k0_0 _ _).trans hk
    | ⟨1, _⟩ => exact rhs_k0_1 _ _)
  rw [el, er]
  rfl

/-! ## The whole output as one function of the two factors -/

/-- The product of a [50000, 512] array and a [512, 128] array, entry by entry. -/
def matProd0 (A : S50000x512.Idx → Elt Ideal .f32) (B : S512x128.Idx → Elt Ideal .f32) : S50000x128.Idx → Elt Ideal .f32 :=
  fun i => ∑ k : Fin 512, A (ix2 (i 0 : Fin 50000) k) * B (ix2 k (i 1 : Fin 128))

/-- The payload on blocks `x0`, `x1` at the block's index `j` is the product's entry at the array's index `i`, as soon
    as row `j 0` of `x0` is row `i 0` of `A` and column `j 1` of `x1` is column `i 1` of `B`. -/
theorem k0_pay1_eq_matProd0 (x0 : Vec Ideal S5000x512 .f32) (x1 : Vec Ideal S512x128 .f32)
    (A : S50000x512.Idx → Elt Ideal .f32) (B : S512x128.Idx → Elt Ideal .f32) (j : S5000x128.Idx) (i : S50000x128.Idx)
    (h0 : ∀ k : Fin 512, x0 (ix2 (j 0 : Fin 5000) k) = A (ix2 (i 0 : Fin 50000) k))
    (h1 : ∀ k : Fin 512, x1 (ix2 k (j 1 : Fin 128)) = B (ix2 k (i 1 : Fin 128))) :
    k0_pay1 (F := Ideal) x0 x1 j = matProd0 A B i := by
  obtain ⟨p, q, rfl⟩ : ∃ (p : Fin 5000) (q : Fin 128), j = ix2 p q := ⟨j 0, j 1, eq_ix2 j⟩
  rw [k0_pay1_apply]
  unfold matProd0
  exact Finset.sum_congr rfl fun k _ => by rw [← h0 k, ← h1 k]

variable (V : (c : Dev nD) → (b : Ref sig .tc) → Buf (Elt Ideal) ((c : Thread nD τ).loc b))

/-- The offsets of the rectangles the body touches are all zero. -/
theorem zeroOffsets0 : (![0, 0] : Fin 2 → Nat) = fun _ => 0 := funext fun a => by fin_cases a <;> rfl

/-- The windows' block indices over the grid: the left factor's and the output's blocks are row block `t`, the right
    factor's block is always the whole array. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two factor arrays as the call finds them. -/
theorem written0_eq (c : Dev nD) (t : Fin cfg0.N) :
    (dat0 (F := Ideal) V c).flushed 2 t = ((cfg0.win 2).blk t).view.read (Elt Ideal) (matProd0 (V c main_arg0) (V c main_arg3)) := by
  show (cfg0.win 2).cut (grid0.coords t) ((dat0 V c).after 2 t) = _
  rw [after0_2]
  unfold out0_2
  rw [View.canon_unit_zero zeroOffsets0]
  simp only [View.ld_unit_zero (S := S5000x512) zeroOffsets0, View.ld_unit_zero (S := S512x128) zeroOffsets0]
  obtain ⟨e0, e1, e2, e3, e4, e5⟩ := blockIndex0 t
  funext j
  show k0_pay1 (F := Ideal) (iblk0 V c 0 t) (iblk0 V c 1 t) j = matProd0 (V c main_arg0) (V c main_arg3) (((cfg0.win 2).blk t).view.emb j)
  refine k0_pay1_eq_matProd0 _ _ _ _ j _ (fun k => ?_) (fun k => ?_)
  · show V c main_arg0 (((cfg0.win 0).blk t).view.emb (ix2 (j 0 : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  · show V c main_arg3 (((cfg0.win 1).blk t).view.emb (ix2 k (j 1 : Fin 128))) = _
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_rowBlock0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- The ten row blocks tile the output: row `r` lies in the block of point `r / 5000`. -/
theorem rowBlocks_cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN := N_0
  let t : Fin cfg0.N := ⟨(i 0).val / 5000, by show _ < grid0.N; omega⟩
  obtain ⟨e0, e1, e2, e3, e4, e5⟩ := blockIndex0 t
  have ht : t.val = (i 0).val / 5000 := rfl
  refine ⟨t, flush0_2 t, ?_⟩
  rw [mem_rowBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the call: the product of the two factor arrays as the call finds them. -/
theorem arrAt0_eq (c : Dev nD) : (dat0 (F := Ideal) V c).arrAt 2 cfg0.N = matProd0 (V c main_arg0) (V c main_arg3) :=
  (dat0 (F := Ideal) V c).arrAt_eq_of_cover 2 (matProd0 (V c main_arg0) (V c main_arg3)) (fun t _ => written0_eq V c t) rowBlocks_cover0

/-- The product read at row `i` and column `j`. -/
theorem matProd0_apply (A : S50000x512.Idx → Elt Ideal .f32) (B : S512x128.Idx → Elt Ideal .f32) (i : Fin 50000) (j : Fin 128) :
    matProd0 A B (ix2 i j) = ∑ k : Fin 512, A (ix2 i k) * B (ix2 k j) := rfl

/-- Entry (i, j) of the output array after the call. -/
theorem arrAt0_apply (c : Dev nD) (i : Fin 50000) (j : Fin 128) :
    (dat0 (F := Ideal) V c).arrAt 2 cfg0.N (ix2 i j)
      = Finset.sum (M := EReal) Finset.univ fun k : Fin 512 => HMul.hMul (α := EReal) (β := EReal) (γ := EReal) (V c main_arg0 (ix2 i k)) (V c main_arg3 (ix2 k j)) := by
  rw [arrAt0_eq]
  rfl

end Cert.KernelIdeal.HandV
-- ==== Proof.KvR2.lean ====
/- The value half of pallas_call 2 of @main: what the second matrix-product kernel leaves in its output array.
   The call runs over 10 grid points; at point t it multiplies rows [5000 t, 5000 t + 5000) of the left factor
   (a [50000, 128] array) by the whole right factor (a [128, 128] array) and writes the [5000, 128] product to the
   same rows of the output. The body first recasts the left block to its own shape, which changes nothing; on the
   extended reals the narrowing of the operands to a shorter format is the identity and the accumulator the product
   is added to is the zero array, so entry (i, j) of the output ends as the plain sum over the 128 inner indices k
   of left (i, k) * right (k, j): one function of the two factor arrays as the call finds them. First the body's
   payload is read at an entry of a block; then each point's written-back block is shown to be the corresponding
   block of that function; the ten row blocks tile the output, so the whole output array is that function. -/
import proofs.«411740_j10170482556987_1_alg».proof.Proof.KiR2
import Idealize.ShloMosaic.Lib.Pipeline.Value
import Idealize.ShloMosaic.Lib.ValueIdx
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The product of two blocks, entry by entry -/

/-- Row coordinate of the left factor's entry met at output index `i`: the output's row. -/
theorem lhs_k2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate: the summation index. -/
theorem lhs_k2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Row coordinate of the right factor's entry: the summation index. -/
theorem rhs_k2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column coordinate: the output's column. -/
theorem rhs_k2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload on a [5000, 128] block `x0` and the [128, 128] factor `x1`, read at row `p` and column `q`:
    the recast of the block to its own shape and the narrowing of both operands are the identity on extended reals
    and the accumulator is the zero array, so the entry is the plain sum over the 128 inner indices of the products
    of the two operands' entries. -/
theorem k2_pay1_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  show FloatOps.matmul dot_S5000x128_S128x128_S5000x128_1_0_0_1_n_n none _ _ (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_k2_0 _ _
    | ⟨1, _⟩ => exact (lhs_k2_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_k2_0 _ _).trans hk
    | ⟨1, _⟩ => exact rhs_k2_1 _ _)
  rw [el, er]
  show shapeCast S5000x128 x0 _ (ix2 p k) * x1 (ix2 k q) = _
  rw [shapeCast_self]

/-! ## The whole output as one function of the two factors -/

/-- The product of a [50000, 128] array and a [128, 128] array, entry by entry. -/
def matProd2 (A : S50000x128.Idx → Elt Ideal .f32) (B : S128x128.Idx → Elt Ideal .f32) : S50000x128.Idx → Elt Ideal .f32 :=
  fun i => ∑ k : Fin 128, A (ix2 (i 0 : Fin 50000) k) * B (ix2 k (i 1 : Fin 128))

/-- The payload on blocks `x0`, `x1` at the block's index `j` is the product's entry at the array's index `i`, as soon
    as row `j 0` of `x0` is row `i 0` of `A` and column `j 1` of `x1` is column `i 1` of `B`. -/
theorem k2_pay1_eq_matProd2 (x0 : Vec Ideal S5000x128 .f32) (x1 : Vec Ideal S128x128 .f32)
    (A : S50000x128.Idx → Elt Ideal .f32) (B : S128x128.Idx → Elt Ideal .f32) (j : S5000x128.Idx) (i : S50000x128.Idx)
    (h0 : ∀ k : Fin 128, x0 (ix2 (j 0 : Fin 5000) k) = A (ix2 (i 0 : Fin 50000) k))
    (h1 : ∀ k : Fin 128, x1 (ix2 k (j 1 : Fin 128)) = B (ix2 k (i 1 : Fin 128))) :
    k2_pay1 (F := Ideal) x0 x1 j = matProd2 A B i := by
  obtain ⟨p, q, rfl⟩ : ∃ (p : Fin 5000) (q : Fin 128), j = ix2 p q := ⟨j 0, j 1, eq_ix2 j⟩
  rw [k2_pay1_apply]
  unfold matProd2
  exact Finset.sum_congr rfl fun k _ => by rw [← h0 k, ← h1 k]

variable (V : (c : Dev nD) → (b : Ref sig .tc) → Buf (Elt Ideal) ((c : Thread nD τ).loc b))

/-- The offsets of the rectangles the body touches are all zero. -/
theorem zeroOffsets2 : (![0, 0] : Fin 2 → Nat) = fun _ => 0 := funext fun a => by fin_cases a <;> rfl

/-- The windows' block indices over the grid: the left factor's and the output's blocks are row block `t`, the right
    factor's block is always the whole array. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two factor arrays as the call finds them. -/
theorem written2_eq (c : Dev nD) (t : Fin cfg2.N) :
    (dat2 (F := Ideal) V c).flushed 2 t = ((cfg2.win 2).blk t).view.read (Elt Ideal) (matProd2 (V c main_v50) (V c main_arg9)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x128) zeroOffsets2]
  obtain ⟨e0, e1, e2, e3, e4, e5⟩ := blockIndex2 t
  funext j
  show k2_pay1 (F := Ideal) (iblk2 V c 0 t) (iblk2 V c 1 t) j = matProd2 (V c main_v50) (V c main_arg9) (((cfg2.win 2).blk t).view.emb j)
  refine k2_pay1_eq_matProd2 _ _ _ _ j _ (fun k => ?_) (fun k => ?_)
  · show V c main_v50 (((cfg2.win 0).blk t).view.emb (ix2 (j 0 : Fin 5000) k)) = _
    refine congrArg (V c main_v50) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg9 (((cfg2.win 1).blk t).view.emb (ix2 k (j 1 : Fin 128))) = _
    refine congrArg (V c main_arg9) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point `t`'s block iff each coordinate is in the block's range on its axis. -/
theorem mem_rowBlock2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- The ten row blocks tile the output: row `r` lies in the block of point `r / 5000`. -/
theorem rowBlocks_cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN := N_2
  let t : Fin cfg2.N := ⟨(i 0).val / 5000, by show _ < grid2.N; omega⟩
  obtain ⟨e0, e1, e2, e3, e4, e5⟩ := blockIndex2 t
  have ht : t.val = (i 0).val / 5000 := rfl
  refine ⟨t, flush2_2 t, ?_⟩
  rw [mem_rowBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the call: the product of the two factor arrays as the call finds them. -/
theorem arrAt2_eq (c : Dev nD) : (dat2 (F := Ideal) V c).arrAt 2 cfg2.N = matProd2 (V c main_v50) (V c main_arg9) :=
  (dat2 (F := Ideal) V c).arrAt_eq_of_cover 2 (matProd2 (V c main_v50) (V c main_arg9)) (fun t _ => written2_eq V c t) rowBlocks_cover2

/-- The product read at row `i` and column `j`. -/
theorem matProd2_apply (A : S50000x128.Idx → Elt Ideal .f32) (B : S128x128.Idx → Elt Ideal .f32) (i : Fin 50000) (j : Fin 128) :
    matProd2 A B (ix2 i j) = ∑ k : Fin 128, A (ix2 i k) * B (ix2 k j) := rfl

/-- Entry (i, j) of the output array after the call. -/
theorem arrAt2_apply (c : Dev nD) (i : Fin 50000) (j : Fin 128) :
    (dat2 (F := Ideal) V c).arrAt 2 cfg2.N (ix2 i j)
      = Finset.sum (M := EReal) Finset.univ fun k : Fin 128 => HMul.hMul (α := EReal) (β := EReal) (γ := EReal) (V c main_v50 (ix2 i k)) (V c main_arg9 (ix2 k j)) := by
  rw [arrAt2_eq]
  rfl

end Cert.KernelIdeal.HandV
-- ==== Proof.RefRead.lean ====
import proofs.«411740_j10170482556987_1_alg».proof.Proof.Gen.ReferenceIdeal.Read
import Idealize.ShloMosaic.Lib.ValueIdx
import Idealize.ShloMosaic.PureOps.Ideal.Laws

/-!
# The reference network, stage by stage, at one index

The reference is a two-layer graph convolution: a dense product, a neighbourhood sum (scatter-add of gathered,
degree-normalised rows), then bias, batch normalisation with stored statistics and a rectifier; the same again with a
second weight matrix; then a mean over each graph's nodes and a last affine map. Here each dense or pointwise stage
is read at a single index as an expression in the extended reals: the products are finite sums over the contracted
axis, the normalisation is `((h + b - μ) * rsqrt (σ² + ε)) * γ + β` with the row vectors read at the column, the
rectifier is `max · 0`, and the readout divides each pooled entry by `max count 1` before the last product. The
neighbourhood sums and the per-graph sums (whose read positions depend on the integer inputs) stay opaque: they are
named by their stage functions and nothing is said about them here.
-/

noncomputable section

namespace Cert.ReferenceIdeal.RefRead

open Cert.ReferenceIdeal Cert.ReferenceIdeal.Read Idealize.ShloMosaic Idealize.ShloMosaic.ValueIdx
open scoped BigOperators

/-! ## Where each stage reads its operands -/

/-- Row `i`, column `k` of the left factor of the first product. -/
theorem lidx_v4_ix2 (i : Fin 50000) (j : Fin 128) (k : Fin 512) : lidx_main_v4 (ix2 i j) k = ix2 i k :=
  funext fun a => match a with | ⟨0, _⟩ => rfl | ⟨1, _⟩ => rfl
/-- Row `k`, column `j` of the right factor of the first product. -/
theorem ridx_v4_ix2 (i : Fin 50000) (j : Fin 128) (k : Fin 512) : ridx_main_v4 (ix2 i j) k = ix2 k j :=
  funext fun a => match a with | ⟨0, _⟩ => rfl | ⟨1, _⟩ => rfl
/-- Row `i`, column `k` of the left factor of the second product. -/
theorem lidx_v60_ix2 (i : Fin 50000) (j : Fin 128) (k : Fin 128) : lidx_main_v60 (ix2 i j) k = ix2 i k :=
  funext fun a => match a with | ⟨0, _⟩ => rfl | ⟨1, _⟩ => rfl
/-- Row `k`, column `j` of the right factor of the second product. -/
theorem ridx_v60_ix2 (i : Fin 50000) (j : Fin 128) (k : Fin 128) : ridx_main_v60 (ix2 i j) k = ix2 k j :=
  funext fun a => match a with | ⟨0, _⟩ => rfl | ⟨1, _⟩ => rfl
/-- Row `g`, column `k` of the left factor of the readout product. -/
theorem lidx_v128_ix2 (g : Fin 64) (o : Fin 2) (k : Fin 128) : lidx_main_v128 (ix2 g o) k = ix2 g k :=
  funext fun a => match a with | ⟨0, _⟩ => rfl | ⟨1, _⟩ => rfl
/-- Row `k`, column `o` of the right factor of the readout product. -/
theorem ridx_v128_ix2 (g : Fin 64) (o : Fin 2) (k : Fin 128) : ridx_main_v128 (ix2 g o) k = ix2 k o :=
  funext fun a => match a with | ⟨0, _⟩ => rfl | ⟨1, _⟩ => rfl

/-- A row vector spread over the rows (first layer, the vector `x4`) is read at the column. -/
theorem idx_v41_v42_ix2 (i : Fin 50000) (j : Fin 128) : idx_main_v41 (idx_main_v42 (ix2 i j)) = ix1 j :=
  funext fun a => match a with | ⟨0, _⟩ => rfl
/-- A row vector spread over the rows (first layer, the vector `x7`) is read at the column. -/
theorem idx_v44_v45_ix2 (i : Fin 50000) (j : Fin 128) : idx_main_v44 (idx_main_v45 (ix2 i j)) = ix1 j :=
  funext fun a => match a with | ⟨0, _⟩ => rfl
/-- A row vector spread over the rows (first layer, the vector `x8`) is read at the column. -/
theorem idx_v50_v51_ix2 (i : Fin 50000) (j : Fin 128) : idx_main_v50 (idx_main_v51 (ix2 i j)) = ix1 j :=
  funext fun a => match a with | ⟨0, _⟩ => rfl
/-- A row vector spread over the rows (first layer, the vector `x5`) is read at the column. -/
theorem idx_v53_v54_ix2 (i : Fin 50000) (j : Fin 128) : idx_main_v53 (idx_main_v54 (ix2 i j)) = ix1 j :=
  funext fun a => match a with | ⟨0, _⟩ => rfl
/-- A row vector spread over the rows (first layer, the vector `x6`) is read at the column. -/
theorem idx_v56_v57_ix2 (i : Fin 50000) (j : Fin 128) : idx_main_v56 (idx_main_v57 (ix2 i j)) = ix1 j :=
  funext fun a => match a with | ⟨0, _⟩ => rfl
/-- A row vector spread over the rows (second layer, the vector `x10`) is read at the column. -/
theorem idx_v97_v98_ix2 (i : Fin 50000) (j : Fin 128) : idx_main_v97 (idx_main_v98 (ix2 i j)) = ix1 j :=
  funext fun a => match a with | ⟨0, _⟩ => rfl
/-- A row vector spread over the rows (second layer, the vector `x13`) is read at the column. -/
theorem idx_v100_v101_ix2 (i : Fin 50000) (j : Fin 128) : idx_main_v100 (idx_main_v101 (ix2 i j)) = ix1 j :=
  funext fun a => match a with | ⟨0, _⟩ => rfl
/-- A row vector spread over the rows (second layer, the vector `x14`) is read at the column. -/
theorem idx_v106_v107_ix2 (i : Fin 50000) (j : Fin 128) : idx_main_v106 (idx_main_v107 (ix2 i j)) = ix1 j :=
  funext fun a => match a with | ⟨0, _⟩ => rfl
/-- A row vector spread over the rows (second layer, the vector `x11`) is read at the column. -/
theorem idx_v109_v110_ix2 (i : Fin 50000) (j : Fin 128) : idx_main_v109 (idx_main_v110 (ix2 i j)) = ix1 j :=
  funext fun a => match a with | ⟨0, _⟩ => rfl
/-- A row vector spread over the rows (second layer, the vector `x12`) is read at the column. -/
theorem idx_v112_v113_ix2 (i : Fin 50000) (j : Fin 128) : idx_main_v112 (idx_main_v113 (ix2 i j)) = ix1 j :=
  funext fun a => match a with | ⟨0, _⟩ => rfl
/-- The per-graph count spread over the columns is read at the graph. -/
theorem idx_v125_v126_ix2 (g : Fin 64) (k : Fin 128) : idx_main_v125 (idx_main_v126 (ix2 g k)) = ix1 g :=
  funext fun a => match a with | ⟨0, _⟩ => rfl
/-- The last bias spread over the graphs is read at the output column. -/
theorem idx_v129_v130_ix2 (g : Fin 64) (o : Fin 2) : idx_main_v129 (idx_main_v130 (ix2 g o)) = ix1 o :=
  funext fun a => match a with | ⟨0, _⟩ => rfl

/-- The single-precision word `0x3F800000` is the number one. -/
theorem ofBits_one_f32 : Ideal.ofBits .f32 0x3F800000#32 = 1 := by
  simp [Ideal.ofBits, Ideal.ieee, -EReal.coe_mul]; norm_num

/-! ## The stages -/

/-- The first dense product: entry `(i, j)` is the sum over the 512 input features. -/
theorem v4_at (x0 : (⟨S50000x512, .f32⟩ : BufTy).Contents (Elt Ideal)) (x3 : (⟨S512x128, .f32⟩ : BufTy).Contents (Elt Ideal)) (i : Fin 50000) (j : Fin 128) :
    val_main_v4 (F := Ideal) x0 x3 (ix2 i j) = ∑ k : Fin 512, x0 (ix2 i k) * x3 (ix2 k j) := by
  rw [val_main_v4_apply]
  refine Finset.sum_congr rfl fun k _ => ?_
  rw [lidx_v4_ix2, ridx_v4_ix2]

/-- First layer after the neighbourhood sum: bias, normalisation by the stored mean and variance, scale, shift, rectifier. -/
theorem v59_at (x0 : (⟨S50000x512, .f32⟩ : BufTy).Contents (Elt Ideal)) (x1 : (⟨S2x800000, .i32⟩ : BufTy).Contents (Elt Ideal)) (x3 : (⟨S512x128, .f32⟩ : BufTy).Contents (Elt Ideal)) (x4 x5 x6 x7 x8 : (⟨S128, .f32⟩ : BufTy).Contents (Elt Ideal)) (i : Fin 50000) (j : Fin 128) :
    val_main_v59 (F := Ideal) x0 x1 x3 x4 x5 x6 x7 x8 (ix2 i j)
      = max ((((val_main_v40 (F := Ideal) x0 x1 x3 (ix2 i j) + x4 (ix1 j)) - x7 (ix1 j))
              * Ideal.rsqrt (x8 (ix1 j) + Ideal.ofBits .f32 0x3727C5AC#32)) * x5 (ix1 j) + x6 (ix1 j)) 0 := by
  rw [val_main_v59_apply, val_main_v58_apply, val_main_v55_apply, val_main_v52_apply, val_main_v46_apply,
    val_main_v43_apply, val_main_v42_apply, val_main_v41_apply, val_main_v45_apply, val_main_v44_apply,
    val_main_v51_apply, val_main_v50_apply, val_main_v49_apply, val_main_v48_apply, val_main_v47_apply,
    val_main_cst_7_apply, val_main_v54_apply, val_main_v53_apply, val_main_v57_apply, val_main_v56_apply,
    val_main_call0_v0_apply, val_main_call0_cst_apply,
    idx_v41_v42_ix2, idx_v44_v45_ix2, idx_v50_v51_ix2, idx_v53_v54_ix2, idx_v56_v57_ix2]
  simp only [Ideal.maximumf_def, Ideal.addf_def, Ideal.subf_def, Ideal.mulf_def, Ideal.hostUnary_rsqrt_def,
    Ideal.ofBits_def, Ideal.ofBits_zero_f32]

/-- The second dense product: entry `(i, j)` is the sum over the 128 hidden features of the first layer's output. -/
theorem v60_at (x0 : (⟨S50000x512, .f32⟩ : BufTy).Contents (Elt Ideal)) (x1 : (⟨S2x800000, .i32⟩ : BufTy).Contents (Elt Ideal)) (x3 : (⟨S512x128, .f32⟩ : BufTy).Contents (Elt Ideal)) (x4 x5 x6 x7 x8 : (⟨S128, .f32⟩ : BufTy).Contents (Elt Ideal)) (x9 : (⟨S128x128, .f32⟩ : BufTy).Contents (Elt Ideal)) (i : Fin 50000) (j : Fin 128) :
    val_main_v60 (F := Ideal) x0 x1 x3 x4 x5 x6 x7 x8 x9 (ix2 i j)
      = ∑ k : Fin 128, val_main_v59 (F := Ideal) x0 x1 x3 x4 x5 x6 x7 x8 (ix2 i k) * x9 (ix2 k j) := by
  rw [val_main_v60_apply]
  refine Finset.sum_congr rfl fun k _ => ?_
  rw [lidx_v60_ix2, ridx_v60_ix2]

/-- Second layer after the neighbourhood sum: bias, normalisation by the stored mean and variance, scale, shift, rectifier. -/
theorem v115_at (x0 : (⟨S50000x512, .f32⟩ : BufTy).Contents (Elt Ideal)) (x1 : (⟨S2x800000, .i32⟩ : BufTy).Contents (Elt Ideal)) (x3 : (⟨S512x128, .f32⟩ : BufTy).Contents (Elt Ideal)) (x4 x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (i : Fin 50000) (j : Fin 128) :
    val_main_v115 (F := Ideal) x0 x1 x3 x4 x5 x6 x7 x8 x9 x10 x11 x12 x13 x14 (ix2 i j)
      = max ((((val_main_v96 (F := Ideal) x0 x1 x3 x4 x5 x6 x7 x8 x9 (ix2 i j) + x10 (ix1 j)) - x13 (ix1 j))
              * Ideal.rsqrt (x14 (ix1 j) + Ideal.ofBits .f32 0x3727C5AC#32)) * x11 (ix1 j) + x12 (ix1 j)) 0 := by
  rw [val_main_v115_apply, val_main_v114_apply, val_main_v111_apply, val_main_v108_apply, val_main_v102_apply,
    val_main_v99_apply, val_main_v98_apply, val_main_v97_apply, val_main_v101_apply, val_main_v100_apply,
    val_main_v107_apply, val_main_v106_apply, val_main_v105_apply, val_main_v104_apply, val_main_v103_apply,
    val_main_cst_17_apply, val_main_v110_apply, val_main_v109_apply, val_main_v113_apply, val_main_v112_apply,
    val_main_call1_v0_apply, val_main_call1_cst_apply,
    idx_v97_v98_ix2, idx_v100_v101_ix2, idx_v106_v107_ix2, idx_v109_v110_ix2, idx_v112_v113_ix2]
  simp only [Ideal.maximumf_def, Ideal.addf_def, Ideal.subf_def, Ideal.mulf_def, Ideal.hostUnary_rsqrt_def,
    Ideal.ofBits_def, Ideal.ofBits_zero_f32]

/-- The readout: each graph's pooled row divided by its node count (at least one), times the last weights, plus the last bias. -/
theorem v131_at (x0 : (⟨S50000x512, .f32⟩ : BufTy).Contents (Elt Ideal)) (x1 : (⟨S2x800000, .i32⟩ : BufTy).Contents (Elt Ideal)) (x2 : (⟨S50000, .i32⟩ : BufTy).Contents (Elt Ideal)) (x3 : (⟨S512x128, .f32⟩ : BufTy).Contents (Elt Ideal)) (x4 x5 x6 x7 x8 : (⟨S128, .f32⟩ : BufTy).Contents (Elt Ideal)) (x9 : (⟨S128x128, .f32⟩ : BufTy).Contents (Elt Ideal)) (x10 x11 x12 x13 x14 : (⟨S128, .f32⟩ : BufTy).Contents (Elt Ideal)) (x15 : (⟨S128x2, .f32⟩ : BufTy).Contents (Elt Ideal)) (x16 : (⟨S2, .f32⟩ : BufTy).Contents (Elt Ideal)) (g : Fin 64) (o : Fin 2) :
    val_main_v131 (F := Ideal) x0 x1 x2 x3 x4 x5 x6 x7 x8 x9 x10 x11 x12 x13 x14 x15 x16 (ix2 g o)
      = (∑ k : Fin 128, Ideal.div (val_main_v118 (F := Ideal) x0 x1 x2 x3 x4 x5 x6 x7 x8 x9 x10 x11 x12 x13 x14 (ix2 g k))
            (max (val_main_v122 (F := Ideal) x2 (ix1 g)) 1) * x15 (ix2 k o)) + x16 (ix1 o) := by
  rw [val_main_v131_apply, val_main_v128_apply, val_main_v130_apply, val_main_v129_apply, idx_v129_v130_ix2,
    Ideal.addf_def]
  refine congrArg (· + x16 (ix1 o)) (Finset.sum_congr rfl fun k _ => ?_)
  rw [lidx_v128_ix2, ridx_v128_ix2, val_main_v127_apply, val_main_v126_apply, val_main_v125_apply,
    val_main_v124_apply, val_main_v123_apply, val_main_cst_21_apply, idx_v125_v126_ix2]
  simp only [Ideal.hostDivf_def, Ideal.maximumf_def, Ideal.ofBits_def, ofBits_one_f32]

end Cert.ReferenceIdeal.RefRead

end
-- ==== Proof.BridgeMM.lean ====
/- The two matrix-product steps of the comparison between the kernel program and the reference.
   Each pipelined product call leaves in its output array the entrywise product sum of its two operand arrays as it
   finds them (the sum over the inner index k of left (i, k) * right (k, j)); the reference's dense stages read at an
   entry are the same sums. So, array for array: what the first call leaves is the reference's first dense stage of
   the launch arguments 0 and 3; and, once the array the second call finds as its left operand is known to be the
   reference's stage before its second dense stage, what the second call leaves is the reference's second dense
   stage, its right operand being launch argument 9 untouched. -/
import proofs.«411740_j10170482556987_1_alg».proof.Proof.KiSegs
import proofs.«411740_j10170482556987_1_alg».proof.Proof.KvR0
import proofs.«411740_j10170482556987_1_alg».proof.Proof.KvR2
import proofs.«411740_j10170482556987_1_alg».proof.Proof.RefRead

noncomputable section

namespace Cert.Proof.Bridge

open Cert.KernelIdeal
open Idealize.ShloMosaic Idealize.ShloMosaic.TcCoe Idealize.ShloMosaic.ValueIdx Idealize.SL.Sem

/-! ## The product sums are the reference's dense stages -/

/-- The [50000, 512] by [512, 128] product sum of two arrays is the reference's first dense stage of them: at every
    entry both are the sum over the 512 inner indices of the products of the entries. -/
theorem matProd0_eq_ref (x0 : (⟨Cert.ReferenceIdeal.S50000x512, .f32⟩ : BufTy).Contents (Elt Ideal)) (x3 : (⟨Cert.ReferenceIdeal.S512x128, .f32⟩ : BufTy).Contents (Elt Ideal)) :
    Cert.KernelIdeal.HandV.matProd0 x0 x3 = Cert.ReferenceIdeal.Read.val_main_v4 (F := Ideal) x0 x3 := by
  funext i
  obtain ⟨p, q, rfl⟩ : ∃ (p : Fin 50000) (q : Fin 128), i = ix2 p q := ⟨i 0, i 1, eq_ix2 i⟩
  rw [Cert.KernelIdeal.HandV.matProd0_apply, Cert.ReferenceIdeal.RefRead.v4_at]

/-- The [50000, 128] by [128, 128] product sum of the reference's stage before its second dense stage and an array
    `x9` is the reference's second dense stage: at every entry both are the sum over the 128 inner indices of the
    products of the entries. -/
theorem matProd2_eq_ref (x0 : (⟨Cert.ReferenceIdeal.S50000x512, .f32⟩ : BufTy).Contents (Elt Ideal)) (x1 : (⟨Cert.ReferenceIdeal.S2x800000, .i32⟩ : BufTy).Contents (Elt Ideal))
    (x3 : (⟨Cert.ReferenceIdeal.S512x128, .f32⟩ : BufTy).Contents (Elt Ideal)) (x4 x5 x6 x7 x8 : (⟨Cert.ReferenceIdeal.S128, .f32⟩ : BufTy).Contents (Elt Ideal)) (x9 : (⟨Cert.ReferenceIdeal.S128x128, .f32⟩ : BufTy).Contents (Elt Ideal)) :
    Cert.KernelIdeal.HandV.matProd2 (Cert.ReferenceIdeal.Read.val_main_v59 (F := Ideal) x0 x1 x3 x4 x5 x6 x7 x8) x9
      = Cert.ReferenceIdeal.Read.val_main_v60 (F := Ideal) x0 x1 x3 x4 x5 x6 x7 x8 x9 := by
  funext i
  obtain ⟨p, q, rfl⟩ : ∃ (p : Fin 50000) (q : Fin 128), i = ix2 p q := ⟨i 0, i 1, eq_ix2 i⟩
  rw [Cert.KernelIdeal.HandV.matProd2_apply, Cert.ReferenceIdeal.RefRead.v60_at]

/-! ## The two calls' output arrays -/

variable (m : (ℓ : Loc nD τ sig) → Buf (Elt Ideal) ℓ) (c : Dev nD)

/-- Launch argument 0 is written by nothing before the first call: the call finds it as launched. -/
theorem arg0_at_first_call : Gen.V1 m c main_arg0 = m ((c : Thread nD τ).loc main_arg0) :=
  (Gen.V1_of m c main_arg0 (by decide)).trans rfl
/-- Launch argument 3 likewise. -/
theorem arg3_at_first_call : Gen.V1 m c main_arg3 = m ((c : Thread nD τ).loc main_arg3) :=
  (Gen.V1_of m c main_arg3 (by decide)).trans rfl
/-- Launch argument 9 is written by nothing before the second product call, whatever the calls before it leave in
    their own output arrays: the call finds it as launched. -/
theorem arg9_at_second_product (outs : Gen.Outs (F := Ideal)) : Gen.V4 m outs c main_arg9 = m ((c : Thread nD τ).loc main_arg9) :=
  (Gen.V4_of m outs c main_arg9 (by decide)).trans ((Gen.V3_of m outs c main_arg9 (by decide)).trans
    ((Gen.V2_of m outs c main_arg9 (by decide)).trans ((Gen.V1_of m c main_arg9 (by decide)).trans rfl)))

/-- What the first product call leaves in its output array is the reference's first dense stage of launch arguments
    0 and 3: the call finds both operands as launched, and leaves their product sum. -/
theorem b1 : Cert.KernelIdeal.Hand.o2 m c = Cert.ReferenceIdeal.Read.val_main_v4 (F := Ideal) (m ((c : Thread nD τ).loc main_arg0)) (m ((c : Thread nD τ).loc main_arg3)) := by
  unfold Cert.KernelIdeal.Hand.o2
  rw [Cert.KernelIdeal.HandV.arrAt0_eq]
  show Cert.KernelIdeal.HandV.matProd0 (Gen.V1 m c main_arg0) (Gen.V1 m c main_arg3) = _
  rw [arg0_at_first_call, arg3_at_first_call]
  exact matProd0_eq_ref _ _

/-- What the second product call leaves in its output array is the reference's second dense stage, as soon as the
    array the call before it left (the second call's left operand) is the reference's stage before that one: the
    right operand is launch argument 9, which nothing has written, and the call leaves the product sum of the two. -/
theorem b4 (h3 : Cert.KernelIdeal.Hand.o4 m c = Cert.ReferenceIdeal.Read.val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    Cert.KernelIdeal.Hand.o5 m c = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Cert.KernelIdeal.Hand.o5
  rw [Cert.KernelIdeal.HandV.arrAt2_eq]
  show Cert.KernelIdeal.HandV.matProd2 (Cert.KernelIdeal.Hand.U4 m c main_v50) (Cert.KernelIdeal.Hand.U4 m c main_arg9) = _
  rw [Cert.KernelIdeal.Hand.U4_self, h3, ← Cert.KernelIdeal.Hand.V4_eq, arg9_at_second_product]
  exact matProd2_eq_ref _ _ _ _ _ _ _ _ _

end Cert.Proof.Bridge
-- ==== Proof.KvR1.lean ====
/- The value half of region 1 of @main (the elementwise bias + batch-norm + ReLU kernel), at the ideal values.

   The region's output array after its ten grid points is ONE function of the four arrays the region reads: at row
   `i` and lane `j` it is  max ((h[i,j] + bias[0,j]) * scale[0,j] + shift[0,j], 0).

   First the body's payload is read at an index of a block. Then every grid point is shown to write back its own
   row block of that whole-array function: the input row block and the output row block sit at the same rows of
   their arrays (block index = the point), and the three resident rows are the whole of their one-row arrays.
   Last, the ten row blocks of 5000 rows tile the 50000 rows, so the array ends holding the function everywhere. -/
import proofs.«411740_j10170482556987_1_alg».proof.Proof.KiR1
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- The bias + batch-norm + ReLU payload read at a row `p` and a lane `q` of the block: the block's entry plus the
    bias lane, times the scale lane, plus the shift lane, clipped below at zero. The two same-shape casts are the
    identity, each row broadcast reads its one row, and the splat of the zero word is the extended real zero. -/
theorem k1_pay1_apply (x0 : Vec Ideal S5000x128 .f32) (x1 x2 x3 : Vec Ideal S1x128 .f32) (p : Fin 5000) (q : Fin 128) :
    k1_pay1 (F := Ideal) x0 x1 x2 x3 (ix2 p q)
      = max ((x0 (ix2 p q) + x1 (ix2 (0 : Fin 1) q)) * x2 (ix2 (0 : Fin 1) q) + x3 (ix2 (0 : Fin 1) q)) 0 := by
  unfold k1_pay1
  rw [maximumf_apply, addf_apply, mulf_apply, addf_apply, broadcast_apply]
  rw [shapeCast_self, shapeCast_self, shapeCast_self, shapeCast_self]
  rw [broadcastTo_1b_ab_apply, broadcastTo_1b_ab_apply, broadcastTo_1b_ab_apply]
  show max _ (Ideal.ofBits .f32 0x00000000#32) = _
  rw [Ideal.ofBits_zero_f32]

/-! ## The whole-array function -/

/-- What the region's output array ends holding, from the activations `a0` [50000,128] and the bias, scale and shift
    rows `a1 a2 a3` [1,128]: index by index, the activation plus the bias lane, times the scale lane, plus the shift
    lane, clipped below at zero. -/
abbrev bnRelu1 (a0 : S50000x128.Idx → EReal) (a1 a2 a3 : S1x128.Idx → EReal) : S50000x128.Idx → EReal := fun i =>
  max ((a0 i + a1 (ix2 (0 : Fin 1) (⟨(i 1).val, idx2_lt1 i⟩ : Fin 128))) * a2 (ix2 (0 : Fin 1) (⟨(i 1).val, idx2_lt1 i⟩ : Fin 128))
    + a3 (ix2 (0 : Fin 1) (⟨(i 1).val, idx2_lt1 i⟩ : Fin 128))) 0

/-- `bnRelu1` read at row `i` and lane `j`. -/
theorem bnRelu1_ix2 (a0 : S50000x128.Idx → EReal) (a1 a2 a3 : S1x128.Idx → EReal) (i : Fin 50000) (j : Fin 128) :
    bnRelu1 a0 a1 a2 a3 (ix2 i j)
      = max ((a0 (ix2 i j) + a1 (ix2 (0 : Fin 1) j)) * a2 (ix2 (0 : Fin 1) j) + a3 (ix2 (0 : Fin 1) j)) 0 := rfl

/-- `bnRelu1` at an index from its four reads there. -/
theorem bnRelu1_at (a0 : S50000x128.Idx → EReal) (a1 a2 a3 : S1x128.Idx → EReal) (i : S50000x128.Idx) (x0 x1 x2 x3 : EReal)
    (h0 : x0 = a0 i) (h1 : x1 = a1 (ix2 (0 : Fin 1) (⟨(i 1).val, idx2_lt1 i⟩ : Fin 128)))
    (h2 : x2 = a2 (ix2 (0 : Fin 1) (⟨(i 1).val, idx2_lt1 i⟩ : Fin 128)))
    (h3 : x3 = a3 (ix2 (0 : Fin 1) (⟨(i 1).val, idx2_lt1 i⟩ : Fin 128))) :
    max ((x0 + x1) * x2 + x3) 0 = bnRelu1 a0 a1 a2 a3 i := by
  subst h0 h1 h2 h3; rfl

-- the TensorCore's buffer contents when the region is entered
variable (V : (c : Dev nD) → (b : Ref sig .tc) → Buf (Elt Ideal) ((c : Thread nD τ).loc b))

/-! ## Every point writes back its row block of the function -/

theorem zero_off1 : (![0, 0] : Fin 2 → Nat) = fun _ => 0 := funext fun a => by fin_cases a <;> rfl

/-- The printed index maps over the ten grid points: the input and the output row block are at block row `t`, lane
    block 0; the three resident rows are at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is row block `t` of `bnRelu1` of the arrays as the region finds them. -/
theorem flushed1_eq (c : Dev nD) (t : Fin cfg1.N) :
    (dat1 (F := Ideal) V c).flushed 4 t
      = ((cfg1.win 4).blk t).view.read (Elt Ideal) (bnRelu1 (V c main_v40) (V c main_v47) (V c main_v48) (V c main_v49)) := by
  show (cfg1.win 4).cut (grid1.coords t) ((dat1 V c).after 4 t) = _
  rw [after1_4]
  unfold out1_4
  rw [View.canon_unit_zero zero_off1]
  simp only [View.ld_unit_zero (S := S5000x128) zero_off1, View.ld_unit_zero (S := S1x128) zero_off1]
  obtain ⟨e00, e01, e10, e11, e20, e21, e30, e31, e40, e41⟩ := idx_facts1 t
  funext y
  obtain ⟨p, q, rfl⟩ : ∃ (p : Fin 5000) (q : Fin 128), y = ix2 p q := ⟨y 0, y 1, eq_ix2 y⟩
  show k1_pay1 (F := Ideal) (iblk1 V c 0 t) (iblk1 V c 1 t) (iblk1 V c 2 t) (iblk1 V c 3 t) (ix2 p q)
    = bnRelu1 (V c main_v40) (V c main_v47) (V c main_v48) (V c main_v49) (((cfg1.win 4).blk t).view.emb (ix2 p q))
  refine (k1_pay1_apply _ _ _ _ p q).trans ?_
  refine bnRelu1_at _ _ _ _ _ _ _ _ _ ?_ ?_ ?_ ?_
  · show V c main_v40 (((cfg1.win 0).blk t).view.emb (ix2 p q)) = _
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  · show V c main_v47 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_4.index t (1 : Fin 2) * 128 + 1 * q.val; omega
  · show V c main_v48 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_4.index t (1 : Fin 2) * 128 + 1 * q.val; omega
  · show V c main_v49 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-! ## The ten row blocks tile the array -/

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v50).slice (win1_4.rect t)).set ↔ _
  rw [View.set_slice_whole, Rect.mem_set_unit]
  exact Iff.rfl

/-- Row `r` of the output array is in the block of the point `r / 5000`, and every point writes its block back. -/
theorem cover1 (i : S50000x128.Idx) : ∃ t : Fin cfg1.N, (cfg1.win 4).flush t = true ∧ i ∈ ((cfg1.win 4).blk t).view.set := by
  have hi0 : (i 0).val < 50000 := idx2_lt0 i
  have hi1 : (i 1).val < 128 := idx2_lt1 i
  have hN : cfg1.N = 10 := N_1
  have hN' : grid1.N = 10 := N_1
  refine ⟨⟨(i 0).val / 5000, by omega⟩, flush1_4 _, ?_⟩
  rw [mem_blk1]
  obtain ⟨-, -, -, -, -, -, -, -, e40, e41⟩ := idx_facts1 ⟨(i 0).val / 5000, by omega⟩
  have e40' : win1_4.index ⟨(i 0).val / 5000, by omega⟩ (0 : Fin 2) = (i 0).val / 5000 := e40
  intro a
  match a with
  | ⟨0, _⟩ =>
    show win1_4.index ⟨(i 0).val / 5000, _⟩ (0 : Fin 2) * 5000 ≤ (i 0).val ∧ (i 0).val < win1_4.index ⟨(i 0).val / 5000, _⟩ (0 : Fin 2) * 5000 + 5000
    omega
  | ⟨1, _⟩ =>
    show win1_4.index ⟨(i 0).val / 5000, _⟩ (1 : Fin 2) * 128 ≤ (i 1).val ∧ (i 1).val < win1_4.index ⟨(i 0).val / 5000, _⟩ (1 : Fin 2) * 128 + 128
    omega

/-! ## The output array after the region -/

/-- The region's output array after its last point is `bnRelu1` of the arrays the region reads. -/
theorem final1 (c : Dev nD) :
    (dat1 (F := Ideal) V c).arrAt 4 cfg1.N = bnRelu1 (V c main_v40) (V c main_v47) (V c main_v48) (V c main_v49) :=
  (dat1 (F := Ideal) V c).arrAt_eq_of_cover 4 _ (fun t _ => flushed1_eq V c t) cover1

/-- Read at row `i` and lane `j`: the activation plus the bias lane, times the scale lane, plus the shift lane,
    clipped below at zero. -/
theorem arrAt1_apply (c : Dev nD) (i : Fin 50000) (j : Fin 128) :
    (dat1 (F := Ideal) V c).arrAt 4 cfg1.N (ix2 i j)
      = bnRelu1 (V c main_v40) (V c main_v47) (V c main_v48) (V c main_v49) (ix2 i j) :=
  congrFun (final1 V c) (ix2 i j)

end Cert.KernelIdeal.HandV

end
-- ==== Proof.KvR3.lean ====
/- The value half of region 3 of @main (the elementwise bias + batch-norm + ReLU kernel), at the ideal values.

   The region's output array after its ten grid points is ONE function of the four arrays the region reads: at row
   `i` and lane `j` it is  max ((h[i,j] + bias[0,j]) * scale[0,j] + shift[0,j], 0).

   First the body's payload is read at an index of a block. Then every grid point is shown to write back its own
   row block of that whole-array function: the input row block and the output row block sit at the same rows of
   their arrays (block index = the point), and the three resident rows are the whole of their one-row arrays.
   Last, the ten row blocks of 5000 rows tile the 50000 rows, so the array ends holding the function everywhere. -/
import proofs.«411740_j10170482556987_1_alg».proof.Proof.KiR3
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payload at an index -/

/-- The bias + batch-norm + ReLU payload read at a row `p` and a lane `q` of the block: the block's entry plus the
    bias lane, times the scale lane, plus the shift lane, clipped below at zero. The two same-shape casts are the
    identity, each row broadcast reads its one row, and the splat of the zero word is the extended real zero. -/
theorem k3_pay1_apply (x0 : Vec Ideal S5000x128 .f32) (x1 x2 x3 : Vec Ideal S1x128 .f32) (p : Fin 5000) (q : Fin 128) :
    k3_pay1 (F := Ideal) x0 x1 x2 x3 (ix2 p q)
      = max ((x0 (ix2 p q) + x1 (ix2 (0 : Fin 1) q)) * x2 (ix2 (0 : Fin 1) q) + x3 (ix2 (0 : Fin 1) q)) 0 := by
  unfold k3_pay1
  rw [maximumf_apply, addf_apply, mulf_apply, addf_apply, broadcast_apply]
  rw [shapeCast_self, shapeCast_self, shapeCast_self, shapeCast_self]
  rw [broadcastTo_1b_ab_apply, broadcastTo_1b_ab_apply, broadcastTo_1b_ab_apply]
  show max _ (Ideal.ofBits .f32 0x00000000#32) = _
  rw [Ideal.ofBits_zero_f32]

/-! ## The whole-array function -/

/-- What the region's output array ends holding, from the activations `a0` [50000,128] and the bias, scale and shift
    rows `a1 a2 a3` [1,128]: index by index, the activation plus the bias lane, times the scale lane, plus the shift
    lane, clipped below at zero. -/
abbrev bnRelu3 (a0 : S50000x128.Idx → EReal) (a1 a2 a3 : S1x128.Idx → EReal) : S50000x128.Idx → EReal := fun i =>
  max ((a0 i + a1 (ix2 (0 : Fin 1) (⟨(i 1).val, idx2_lt1 i⟩ : Fin 128))) * a2 (ix2 (0 : Fin 1) (⟨(i 1).val, idx2_lt1 i⟩ : Fin 128))
    + a3 (ix2 (0 : Fin 1) (⟨(i 1).val, idx2_lt1 i⟩ : Fin 128))) 0

/-- `bnRelu3` read at row `i` and lane `j`. -/
theorem bnRelu3_ix2 (a0 : S50000x128.Idx → EReal) (a1 a2 a3 : S1x128.Idx → EReal) (i : Fin 50000) (j : Fin 128) :
    bnRelu3 a0 a1 a2 a3 (ix2 i j)
      = max ((a0 (ix2 i j) + a1 (ix2 (0 : Fin 1) j)) * a2 (ix2 (0 : Fin 1) j) + a3 (ix2 (0 : Fin 1) j)) 0 := rfl

/-- `bnRelu3` at an index from its four reads there. -/
theorem bnRelu3_at (a0 : S50000x128.Idx → EReal) (a1 a2 a3 : S1x128.Idx → EReal) (i : S50000x128.Idx) (x0 x1 x2 x3 : EReal)
    (h0 : x0 = a0 i) (h1 : x1 = a1 (ix2 (0 : Fin 1) (⟨(i 1).val, idx2_lt1 i⟩ : Fin 128)))
    (h2 : x2 = a2 (ix2 (0 : Fin 1) (⟨(i 1).val, idx2_lt1 i⟩ : Fin 128)))
    (h3 : x3 = a3 (ix2 (0 : Fin 1) (⟨(i 1).val, idx2_lt1 i⟩ : Fin 128))) :
    max ((x0 + x1) * x2 + x3) 0 = bnRelu3 a0 a1 a2 a3 i := by
  subst h0 h1 h2 h3; rfl

-- the TensorCore's buffer contents when the region is entered
variable (V : (c : Dev nD) → (b : Ref sig .tc) → Buf (Elt Ideal) ((c : Thread nD τ).loc b))

/-! ## Every point writes back its row block of the function -/

theorem zero_off3 : (![0, 0] : Fin 2 → Nat) = fun _ => 0 := funext fun a => by fin_cases a <;> rfl

/-- The printed index maps over the ten grid points: the input and the output row block are at block row `t`, lane
    block 0; the three resident rows are at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is row block `t` of `bnRelu3` of the arrays as the region finds them. -/
theorem flushed3_eq (c : Dev nD) (t : Fin cfg3.N) :
    (dat3 (F := Ideal) V c).flushed 4 t
      = ((cfg3.win 4).blk t).view.read (Elt Ideal) (bnRelu3 (V c main_v63) (V c main_v70) (V c main_v71) (V c main_v72)) := by
  show (cfg3.win 4).cut (grid3.coords t) ((dat3 V c).after 4 t) = _
  rw [after3_4]
  unfold out3_4
  rw [View.canon_unit_zero zero_off3]
  simp only [View.ld_unit_zero (S := S5000x128) zero_off3, View.ld_unit_zero (S := S1x128) zero_off3]
  obtain ⟨e00, e01, e10, e11, e20, e21, e30, e31, e40, e41⟩ := idx_facts3 t
  funext y
  obtain ⟨p, q, rfl⟩ : ∃ (p : Fin 5000) (q : Fin 128), y = ix2 p q := ⟨y 0, y 1, eq_ix2 y⟩
  show k3_pay1 (F := Ideal) (iblk3 V c 0 t) (iblk3 V c 1 t) (iblk3 V c 2 t) (iblk3 V c 3 t) (ix2 p q)
    = bnRelu3 (V c main_v63) (V c main_v70) (V c main_v71) (V c main_v72) (((cfg3.win 4).blk t).view.emb (ix2 p q))
  refine (k3_pay1_apply _ _ _ _ p q).trans ?_
  refine bnRelu3_at _ _ _ _ _ _ _ _ _ ?_ ?_ ?_ ?_
  · show V c main_v63 (((cfg3.win 0).blk t).view.emb (ix2 p q)) = _
    refine congrArg _ (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  · show V c main_v70 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = win3_4.index t (1 : Fin 2) * 128 + 1 * q.val; omega
  · show V c main_v71 (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = win3_4.index t (1 : Fin 2) * 128 + 1 * q.val; omega
  · show V c main_v72 (((cfg3.win 3).blk t).view.emb (ix2 (0 : Fin 1) q)) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega

/-! ## The ten row blocks tile the array -/

/-- An index of the output array is in point `t`'s block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v73).slice (win3_4.rect t)).set ↔ _
  rw [View.set_slice_whole, Rect.mem_set_unit]
  exact Iff.rfl

/-- Row `r` of the output array is in the block of the point `r / 5000`, and every point writes its block back. -/
theorem cover3 (i : S50000x128.Idx) : ∃ t : Fin cfg3.N, (cfg3.win 4).flush t = true ∧ i ∈ ((cfg3.win 4).blk t).view.set := by
  have hi0 : (i 0).val < 50000 := idx2_lt0 i
  have hi1 : (i 1).val < 128 := idx2_lt1 i
  have hN : cfg3.N = 10 := N_3
  have hN' : grid3.N = 10 := N_3
  refine ⟨⟨(i 0).val / 5000, by omega⟩, flush3_4 _, ?_⟩
  rw [mem_blk3]
  obtain ⟨-, -, -, -, -, -, -, -, e40, e41⟩ := idx_facts3 ⟨(i 0).val / 5000, by omega⟩
  have e40' : win3_4.index ⟨(i 0).val / 5000, by omega⟩ (0 : Fin 2) = (i 0).val / 5000 := e40
  intro a
  match a with
  | ⟨0, _⟩ =>
    show win3_4.index ⟨(i 0).val / 5000, _⟩ (0 : Fin 2) * 5000 ≤ (i 0).val ∧ (i 0).val < win3_4.index ⟨(i 0).val / 5000, _⟩ (0 : Fin 2) * 5000 + 5000
    omega
  | ⟨1, _⟩ =>
    show win3_4.index ⟨(i 0).val / 5000, _⟩ (1 : Fin 2) * 128 ≤ (i 1).val ∧ (i 1).val < win3_4.index ⟨(i 0).val / 5000, _⟩ (1 : Fin 2) * 128 + 128
    omega

/-! ## The output array after the region -/

/-- The region's output array after its last point is `bnRelu3` of the arrays the region reads. -/
theorem final3 (c : Dev nD) :
    (dat3 (F := Ideal) V c).arrAt 4 cfg3.N = bnRelu3 (V c main_v63) (V c main_v70) (V c main_v71) (V c main_v72) :=
  (dat3 (F := Ideal) V c).arrAt_eq_of_cover 4 _ (fun t _ => flushed3_eq V c t) cover3

/-- Read at row `i` and lane `j`: the activation plus the bias lane, times the scale lane, plus the shift lane,
    clipped below at zero. -/
theorem arrAt3_apply (c : Dev nD) (i : Fin 50000) (j : Fin 128) :
    (dat3 (F := Ideal) V c).arrAt 4 cfg3.N (ix2 i j)
      = bnRelu3 (V c main_v63) (V c main_v70) (V c main_v71) (V c main_v72) (ix2 i j) :=
  congrFun (final3 V c) (ix2 i j)

end Cert.KernelIdeal.HandV

end
-- ==== Proof.KTermsB.lean ====
/- What each pipelined call finds in its input arrays, read off the chain of buffer contents between the items of
   @main. The contents after item J are a fold from the launch memory `m`: a stretch of host operations applies its
   operations to what was there before; a pipelined call replaces its one output array by an unknown `outs J r c`.
   A buffer no item writes is still what it was at launch; a buffer a host stretch writes is that stretch's term over
   the buffers before it. Here: the four arguments the first call may read; the three [1, 128] rows (bias, scale,
   shift) that each normalisation call reads, which the host computes from the layer's five parameter vectors; the
   second product's operands; the pooling call's operands, one of them the one-hot matrix of the graph ids; and the
   output array of each call right after it. -/
import proofs.«411740_j10170482556987_1_alg».proof.Proof.Gen.KernelIdeal.Regions
import proofs.«411740_j10170482556987_1_alg».proof.Proof.Gen.ReferenceIdeal.Read
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandT

open Idealize.ShloMosaic Idealize.ShloMosaic.TcCoe Idealize.SL.Sem Idealize.ShloMosaic.StableHlo Idealize.ShloMosaic.ValueIdx
open Cert.KernelIdeal Cert.KernelIdeal.Gen

/-! ## At any float model -/

section Args
variable {F : FTy → Type} [FloatOps F]
variable (m : (ℓ : Loc nD τ sig) → Buf (Elt F) ℓ) (c : Dev nD)

/-! ### The arguments of @main as launched on core `c`, each at its printed array type -/

abbrev X0 : (⟨S50000x512, .f32⟩ : BufTy).Contents (Elt F) := m ((c : Thread nD τ).loc main_arg0)
abbrev X1 : (⟨S2x800000, .i32⟩ : BufTy).Contents (Elt F) := m ((c : Thread nD τ).loc main_arg1)
abbrev X2 : (⟨S50000, .i32⟩ : BufTy).Contents (Elt F) := m ((c : Thread nD τ).loc main_arg2)
abbrev X3 : (⟨S512x128, .f32⟩ : BufTy).Contents (Elt F) := m ((c : Thread nD τ).loc main_arg3)
abbrev X4 : (⟨S128, .f32⟩ : BufTy).Contents (Elt F) := m ((c : Thread nD τ).loc main_arg4)
abbrev X5 : (⟨S128, .f32⟩ : BufTy).Contents (Elt F) := m ((c : Thread nD τ).loc main_arg5)
abbrev X6 : (⟨S128, .f32⟩ : BufTy).Contents (Elt F) := m ((c : Thread nD τ).loc main_arg6)
abbrev X7 : (⟨S128, .f32⟩ : BufTy).Contents (Elt F) := m ((c : Thread nD τ).loc main_arg7)
abbrev X8 : (⟨S128, .f32⟩ : BufTy).Contents (Elt F) := m ((c : Thread nD τ).loc main_arg8)
abbrev X9 : (⟨S128x128, .f32⟩ : BufTy).Contents (Elt F) := m ((c : Thread nD τ).loc main_arg9)
abbrev X10 : (⟨S128, .f32⟩ : BufTy).Contents (Elt F) := m ((c : Thread nD τ).loc main_arg10)
abbrev X11 : (⟨S128, .f32⟩ : BufTy).Contents (Elt F) := m ((c : Thread nD τ).loc main_arg11)
abbrev X12 : (⟨S128, .f32⟩ : BufTy).Contents (Elt F) := m ((c : Thread nD τ).loc main_arg12)
abbrev X13 : (⟨S128, .f32⟩ : BufTy).Contents (Elt F) := m ((c : Thread nD τ).loc main_arg13)
abbrev X14 : (⟨S128, .f32⟩ : BufTy).Contents (Elt F) := m ((c : Thread nD τ).loc main_arg14)
abbrev X15 : (⟨S128x2, .f32⟩ : BufTy).Contents (Elt F) := m ((c : Thread nD τ).loc main_arg15)
abbrev X16 : (⟨S2, .f32⟩ : BufTy).Contents (Elt F) := m ((c : Thread nD τ).loc main_arg16)

end Args

section Generic
variable {F : FTy → Type} [FloatOps F]
variable (m : (ℓ : Loc nD τ sig) → Buf (Elt F) ℓ) (outs : Outs (F := F)) (c : Dev nD)

/-! ### A buffer nothing has written yet is as launched -/

/-- After the first host stretch. -/
theorem V1_launch (r : Ref sig .tc) (h0 : r ∉ hostOps0_W) : Gen.V1 m c r = m ((c : Thread nD τ).loc r) :=
  (V1_of m c r h0).trans rfl

/-- After the first call. -/
theorem V2_launch (r : Ref sig .tc) (h0 : r ∉ hostOps0_W) (h1 : r ∉ ([main_v28] : List (Ref sig .tc))) :
    Gen.V2 m outs c r = m ((c : Thread nD τ).loc r) :=
  (V2_of m outs c r h1).trans (V1_launch m c r h0)

/-- After the second host stretch. -/
theorem V3_launch (r : Ref sig .tc) (h0 : r ∉ hostOps0_W) (h1 : r ∉ ([main_v28] : List (Ref sig .tc))) (h2 : r ∉ hostOps1_W) :
    Gen.V3 m outs c r = m ((c : Thread nD τ).loc r) :=
  (V3_of m outs c r h2).trans (V2_launch m outs c r h0 h1)

/-- After the second and third calls. -/
theorem V5_launch (r : Ref sig .tc) (h0 : r ∉ hostOps0_W) (h1 : r ∉ ([main_v28] : List (Ref sig .tc))) (h2 : r ∉ hostOps1_W)
    (h3 : r ∉ ([main_v50] : List (Ref sig .tc))) (h4 : r ∉ ([main_v51] : List (Ref sig .tc))) :
    Gen.V5 m outs c r = m ((c : Thread nD τ).loc r) :=
  (V5_of m outs c r h4).trans ((V4_of m outs c r h3).trans (V3_launch m outs c r h0 h1 h2))

/-- After the third host stretch and the fourth call. -/
theorem V7_launch (r : Ref sig .tc) (h0 : r ∉ hostOps0_W) (h1 : r ∉ ([main_v28] : List (Ref sig .tc))) (h2 : r ∉ hostOps1_W)
    (h3 : r ∉ ([main_v50] : List (Ref sig .tc))) (h4 : r ∉ ([main_v51] : List (Ref sig .tc))) (h5 : r ∉ hostOps3_W)
    (h6 : r ∉ ([main_v73] : List (Ref sig .tc))) :
    Gen.V7 m outs c r = m ((c : Thread nD τ).loc r) :=
  (V7_of m outs c r h6).trans ((V6_of m outs c r h5).trans (V5_launch m outs c r h0 h1 h2 h3 h4))

/-! ### The first product's operands: arguments, as launched -/

theorem V1_main_arg0 : Gen.V1 m c main_arg0 = m ((c : Thread nD τ).loc main_arg0) := V1_launch m c main_arg0 (by decide)
theorem V1_main_arg1 : Gen.V1 m c main_arg1 = m ((c : Thread nD τ).loc main_arg1) := V1_launch m c main_arg1 (by decide)
theorem V1_main_arg2 : Gen.V1 m c main_arg2 = m ((c : Thread nD τ).loc main_arg2) := V1_launch m c main_arg2 (by decide)
theorem V1_main_arg3 : Gen.V1 m c main_arg3 = m ((c : Thread nD τ).loc main_arg3) := V1_launch m c main_arg3 (by decide)

/-! ### Each call's output array right after the call: the unknown that stands for it -/

theorem V2_main_v28 : Gen.V2 m outs c main_v28 = outs 2 main_v28 c := by simp only [V2, Function.update_self]
theorem V4_main_v50 : Gen.V4 m outs c main_v50 = outs 4 main_v50 c := by simp only [V4, Function.update_self]
theorem V5_main_v51 : Gen.V5 m outs c main_v51 = outs 5 main_v51 c := by simp only [V5, Function.update_self]
theorem V7_main_v73 : Gen.V7 m outs c main_v73 = outs 7 main_v73 c := by simp only [V7, Function.update_self]
theorem V9_main_v81 : Gen.V9 m outs c main_v81 = outs 9 main_v81 c := by simp only [V9, Function.update_self]

/-! ### The second product's right factor, and the pooling call's second operand -/

/-- The second weight matrix is an argument: as launched when the second product starts. -/
theorem V4_main_arg9 : Gen.V4 m outs c main_arg9 = m ((c : Thread nD τ).loc main_arg9) :=
  (V4_of m outs c main_arg9 (by decide)).trans (V3_launch m outs c main_arg9 (by decide) (by decide) (by decide))

/-- The fourth call's output is not touched by the host stretch between it and the pooling call. -/
theorem V8_main_v73 : Gen.V8 m outs c main_v73 = outs 7 main_v73 c :=
  (V8_of m outs c main_v73 (by decide)).trans (V7_main_v73 m outs c)

/-! ### The rows of the two normalisation calls, as whole arrays -/

set_option maxHeartbeats 1000000 in
/-- The bias row: the bias vector with a unit axis put in front. -/
theorem V3_main_v47 : Gen.V3 m outs c main_v47 = shapeCast S1x128 (m ((c : Thread nD τ).loc main_arg4)) shapeCasts_S128_S1x128 := by
  show StableHlo.after (hostOps1 (F := F)) (Gen.V2 m outs c) (Proc.devRef .tc main_v47) = _
  after_results
  rw [V2_launch m outs c main_arg4 (by decide) (by decide)]
  rfl

set_option maxHeartbeats 1000000 in
/-- The scale row: gamma times the reciprocal square root of (variance + eps), with a unit axis put in front. -/
theorem V3_main_v48 : Gen.V3 m outs c main_v48
    = shapeCast S1x128 (mulf (m ((c : Thread nD τ).loc main_arg5)) (Host.rsqrt (addf (m ((c : Thread nD τ).loc main_arg8)) (broadcastInDim S128 ![] bcast_S_S128 (constant S_ .f32 0x3727C5AC#32))))) shapeCasts_S128_S1x128 := by
  show StableHlo.after (hostOps1 (F := F)) (Gen.V2 m outs c) (Proc.devRef .tc main_v48) = _
  after_results
  rw [V2_launch m outs c main_arg5 (by decide) (by decide), V2_launch m outs c main_arg8 (by decide) (by decide)]
  rfl

set_option maxHeartbeats 1000000 in
/-- The shift row: beta minus mean times the scale, with a unit axis put in front. -/
theorem V3_main_v49 : Gen.V3 m outs c main_v49
    = shapeCast S1x128 (subf (m ((c : Thread nD τ).loc main_arg6)) (mulf (m ((c : Thread nD τ).loc main_arg7)) (mulf (m ((c : Thread nD τ).loc main_arg5)) (Host.rsqrt (addf (m ((c : Thread nD τ).loc main_arg8)) (broadcastInDim S128 ![] bcast_S_S128 (constant S_ .f32 0x3727C5AC#32))))))) shapeCasts_S128_S1x128 := by
  show StableHlo.after (hostOps1 (F := F)) (Gen.V2 m outs c) (Proc.devRef .tc main_v49) = _
  after_results
  rw [V2_launch m outs c main_arg6 (by decide) (by decide), V2_launch m outs c main_arg7 (by decide) (by decide),
    V2_launch m outs c main_arg5 (by decide) (by decide), V2_launch m outs c main_arg8 (by decide) (by decide)]
  rfl

set_option maxHeartbeats 1000000 in
/-- The bias row: the bias vector with a unit axis put in front. -/
theorem V6_main_v70 : Gen.V6 m outs c main_v70 = shapeCast S1x128 (m ((c : Thread nD τ).loc main_arg10)) shapeCasts_S128_S1x128 := by
  show StableHlo.after (hostOps3 (F := F)) (Gen.V5 m outs c) (Proc.devRef .tc main_v70) = _
  after_results
  rw [V5_launch m outs c main_arg10 (by decide) (by decide) (by decide) (by decide) (by decide)]
  rfl

set_option maxHeartbeats 1000000 in
/-- The scale row: gamma times the reciprocal square root of (variance + eps), with a unit axis put in front. -/
theorem V6_main_v71 : Gen.V6 m outs c main_v71
    = shapeCast S1x128 (mulf (m ((c : Thread nD τ).loc main_arg11)) (Host.rsqrt (addf (m ((c : Thread nD τ).loc main_arg14)) (broadcastInDim S128 ![] bcast_S_S128 (constant S_ .f32 0x3727C5AC#32))))) shapeCasts_S128_S1x128 := by
  show StableHlo.after (hostOps3 (F := F)) (Gen.V5 m outs c) (Proc.devRef .tc main_v71) = _
  after_results
  rw [V5_launch m outs c main_arg11 (by decide) (by decide) (by decide) (by decide) (by decide), V5_launch m outs c main_arg14 (by decide) (by decide) (by decide) (by decide) (by decide)]
  rfl

set_option maxHeartbeats 1000000 in
/-- The shift row: beta minus mean times the scale, with a unit axis put in front. -/
theorem V6_main_v72 : Gen.V6 m outs c main_v72
    = shapeCast S1x128 (subf (m ((c : Thread nD τ).loc main_arg12)) (mulf (m ((c : Thread nD τ).loc main_arg13)) (mulf (m ((c : Thread nD τ).loc main_arg11)) (Host.rsqrt (addf (m ((c : Thread nD τ).loc main_arg14)) (broadcastInDim S128 ![] bcast_S_S128 (constant S_ .f32 0x3727C5AC#32))))))) shapeCasts_S128_S1x128 := by
  show StableHlo.after (hostOps3 (F := F)) (Gen.V5 m outs c) (Proc.devRef .tc main_v72) = _
  after_results
  rw [V5_launch m outs c main_arg12 (by decide) (by decide) (by decide) (by decide) (by decide), V5_launch m outs c main_arg13 (by decide) (by decide) (by decide) (by decide) (by decide),
    V5_launch m outs c main_arg11 (by decide) (by decide) (by decide) (by decide) (by decide), V5_launch m outs c main_arg14 (by decide) (by decide) (by decide) (by decide) (by decide)]
  rfl

/-! ### The one-hot matrix of the graph ids -/

set_option maxHeartbeats 1000000 in
/-- Entry (i, g) compares node i's graph id with g, as a bf16 zero or one: the host stretch's term over the id vector. -/
theorem V8_main_v80 : Gen.V8 m outs c main_v80
    = uitofp .bf16 (cmpi .eq
        (broadcastInDim S50000x64 ![0, 1] bcast_S50000x1_S50000x64_0_1 (broadcastInDim S50000x1 ![0] bcast_S50000_S50000x1_0 (m ((c : Thread nD τ).loc main_arg2))))
        (broadcastInDim S50000x64 ![0, 1] bcast_S1x64_S50000x64_0_1 (broadcastInDim S1x64 ![1] bcast_S64_S1x64_1 (iotaInDim S64 32 0)))) := by
  show StableHlo.after (hostOps4 (F := F)) (Gen.V7 m outs c) (Proc.devRef .tc main_v80) = _
  after_results
  rw [V7_launch m outs c main_arg2 (by decide) (by decide) (by decide) (by decide) (by decide) (by decide) (by decide)]

end Generic

/-! ## The rows read at a column, over the extended reals -/

section AtIdeal
variable (m : (ℓ : Loc nD τ sig) → Buf (Elt Ideal) ℓ) (outs : Outs (F := Ideal)) (c : Dev nD)

/-- The bias row at column `j`. -/
theorem V3_main_v47_at (j : Fin 128) : Gen.V3 m outs c main_v47 (ix2 (0 : Fin 1) j) = X4 m c (ix1 j) := by
  rw [V3_main_v47]
  exact shapeCast_a_1a_apply _ _ 0 j

/-- The scale row at column `j`: gamma_j / sqrt(variance_j + eps). -/
theorem V3_main_v48_at (j : Fin 128) : Gen.V3 m outs c main_v48 (ix2 (0 : Fin 1) j)
    = X5 m c (ix1 j) * Ideal.rsqrt (X8 m c (ix1 j) + Ideal.ofBits .f32 0x3727C5AC#32) := by
  rw [V3_main_v48]
  refine (shapeCast_a_1a_apply _ _ 0 j).trans ?_
  rfl

/-- The shift row at column `j`: beta_j - mean_j * scale_j. -/
theorem V3_main_v49_at (j : Fin 128) : Gen.V3 m outs c main_v49 (ix2 (0 : Fin 1) j)
    = X6 m c (ix1 j) - X7 m c (ix1 j) * (X5 m c (ix1 j) * Ideal.rsqrt (X8 m c (ix1 j) + Ideal.ofBits .f32 0x3727C5AC#32)) := by
  rw [V3_main_v49]
  refine (shapeCast_a_1a_apply _ _ 0 j).trans ?_
  rfl

/-- The bias row at column `j`. -/
theorem V6_main_v70_at (j : Fin 128) : Gen.V6 m outs c main_v70 (ix2 (0 : Fin 1) j) = X10 m c (ix1 j) := by
  rw [V6_main_v70]
  exact shapeCast_a_1a_apply _ _ 0 j

/-- The scale row at column `j`: gamma_j / sqrt(variance_j + eps). -/
theorem V6_main_v71_at (j : Fin 128) : Gen.V6 m outs c main_v71 (ix2 (0 : Fin 1) j)
    = X11 m c (ix1 j) * Ideal.rsqrt (X14 m c (ix1 j) + Ideal.ofBits .f32 0x3727C5AC#32) := by
  rw [V6_main_v71]
  refine (shapeCast_a_1a_apply _ _ 0 j).trans ?_
  rfl

/-- The shift row at column `j`: beta_j - mean_j * scale_j. -/
theorem V6_main_v72_at (j : Fin 128) : Gen.V6 m outs c main_v72 (ix2 (0 : Fin 1) j)
    = X12 m c (ix1 j) - X13 m c (ix1 j) * (X11 m c (ix1 j) * Ideal.rsqrt (X14 m c (ix1 j) + Ideal.ofBits .f32 0x3727C5AC#32)) := by
  rw [V6_main_v72]
  refine (shapeCast_a_1a_apply _ _ 0 j).trans ?_
  rfl

end AtIdeal

end Cert.KernelIdeal.HandT

end
-- ==== Proof.IdealLemmas.lean ====
import Mathlib.Data.EReal.Operations
import Mathlib.Data.EReal.Inv
import Mathlib.Algebra.BigOperators.Fin
import Mathlib.Logic.Equiv.Fin.Basic
import Mathlib.Analysis.SpecialFunctions.Pow.Real
import Idealize.ShloMosaic.PureOps.Ideal
import Idealize.ShloMosaic.PureOps.Ideal.Laws

/-!
Extended-real algebra used by the value half.

* `affine_fold`, `bn_fold`, `bn_fold_relu`: the batch-norm identity. The reference subtracts the
  running mean, multiplies by the inverse deviation and by gamma, and adds beta; the kernel multiplies by
  the folded scale `gamma * inv` and adds the folded shift `beta - mean * (gamma * inv)`. All four
  parameters are real; the normalised value `z` may be infinite, and then both sides are the same
  infinity (or the same real when the scale is zero), decided by the sign of the scale.
* `rsqrt_coe_add`: the inverse square root of `x + e` with `0 ≤ x`, `0 < e` is the real `(√(x+e))⁻¹`.
* `eps_f32`: the single-precision pattern `0x3727C5AC` (the rounding of `1e-5`) is the positive real
  `10995116 · 2⁻⁴⁰`.
* `sum_blocks`: a sum over ten blocks of five thousand is the sum over fifty thousand.
-/

namespace Cert.Hand.IdealLemmas

open Idealize.ShloMosaic
open scoped BigOperators

/-- `(z - m) · c + b = z · c + (b - m · c)` for real `m c b` and any extended real `z`. For real `z`
this is distributivity; for `z = ±∞` both sides are `±∞ · c + (a real)`, which is the infinity of
the sign of `±c`, or the real `b` when `c = 0`. -/
theorem affine_fold (z : EReal) (m c b : ℝ) :
    (z - (m : EReal)) * (c : EReal) + (b : EReal)
      = z * (c : EReal) + ((b : EReal) - (m : EReal) * (c : EReal)) := by
  have hreal : (b : EReal) - (m : EReal) * (c : EReal) = ((b - m * c : ℝ) : EReal) := by
    rw [EReal.coe_sub, EReal.coe_mul]
  rw [hreal]
  induction z using EReal.rec with
  | bot =>
    rw [EReal.bot_sub]
    rcases lt_trichotomy c 0 with hc | hc | hc
    · rw [EReal.bot_mul_coe_of_neg hc, EReal.top_add_coe, EReal.top_add_coe]
    · subst hc; simp
    · rw [EReal.bot_mul_coe_of_pos hc, EReal.bot_add, EReal.bot_add]
  | top =>
    rw [EReal.top_sub_coe]
    rcases lt_trichotomy c 0 with hc | hc | hc
    · rw [EReal.top_mul_coe_of_neg hc, EReal.bot_add, EReal.bot_add]
    · subst hc; simp
    · rw [EReal.top_mul_coe_of_pos hc, EReal.top_add_coe, EReal.top_add_coe]
  | coe x =>
    rw [← EReal.coe_sub, ← EReal.coe_mul, ← EReal.coe_add, ← EReal.coe_mul, ← EReal.coe_add]
    congr 1
    ring

/-- The batch-norm identity in the association the two programs print. -/
theorem bn_fold (z : EReal) (rm r g b : ℝ) :
    ((z - (rm : EReal)) * (r : EReal)) * (g : EReal) + (b : EReal)
      = z * ((g : EReal) * (r : EReal)) + ((b : EReal) - (rm : EReal) * ((g : EReal) * (r : EReal))) := by
  rw [mul_assoc, mul_comm (r : EReal) (g : EReal), ← EReal.coe_mul g r]
  exact affine_fold z rm (g * r) b

/-- The same after the rectifier. -/
theorem bn_fold_relu (z : EReal) (rm r g b : ℝ) :
    max (((z - (rm : EReal)) * (r : EReal)) * (g : EReal) + (b : EReal)) 0
      = max (z * ((g : EReal) * (r : EReal))
          + ((b : EReal) - (rm : EReal) * ((g : EReal) * (r : EReal)))) 0 := by
  rw [bn_fold]

/-! ### The inverse square root at a positive real -/

/-- At `x + e` with `0 ≤ x` and `0 < e` the argument is a positive real, so the inverse square
root takes neither of its corner values and is the real `(√(x+e))⁻¹`. -/
theorem rsqrt_coe_add (x e : ℝ) (hx : 0 ≤ x) (he : 0 < e) :
    Ideal.rsqrt ((x : EReal) + (e : EReal)) = (((Real.sqrt (x + e))⁻¹ : ℝ) : EReal) := by
  have h : 0 < x + e := by linarith
  rw [← EReal.coe_add, Ideal.rsqrt_coe, if_neg (not_lt.2 h.le), if_neg h.ne']

theorem rsqrt_coe_add_real (x e : ℝ) (hx : 0 ≤ x) (he : 0 < e) :
    ∃ r : ℝ, Ideal.rsqrt ((x : EReal) + (e : EReal)) = (r : EReal) :=
  ⟨_, rsqrt_coe_add x e hx he⟩

/-- That real is positive. -/
theorem rsqrt_coe_add_pos (x e : ℝ) (hx : 0 ≤ x) (he : 0 < e) :
    ∃ r : ℝ, 0 < r ∧ Ideal.rsqrt ((x : EReal) + (e : EReal)) = (r : EReal) :=
  ⟨_, inv_pos.2 (Real.sqrt_pos.2 (by linarith)), rsqrt_coe_add x e hx he⟩

/-! ### The epsilon literal -/

/-- The pattern `0x3727C5AC`: sign 0, exponent field 110, fraction field 2606508, that is
`(2²³ + 2606508) · 2^(110 - 127 - 23) = 10995116 · 2⁻⁴⁰`. -/
theorem eps_f32 :
    Ideal.ofBits .f32 0x3727C5AC#32 = ((10995116 * (2 : ℝ) ^ (-40 : ℤ) : ℝ) : EReal) := by
  simp [Ideal.ofBits, Ideal.ieee, -EReal.coe_mul]

theorem eps_f32_pos : ∃ e : ℝ, 0 < e ∧ Ideal.ofBits .f32 0x3727C5AC#32 = (e : EReal) :=
  ⟨_, by positivity, eps_f32⟩

/-! ### The batch-norm bridge in the two printed forms -/

/-- Left: the folded form (scale `g · rsqrt(v+ε)`, shift `be - mu · scale`). Right: subtract the mean,
times the inverse deviation, times gamma, plus beta. With `mu g be v` real and `0 ≤ v` the inverse
deviation is a real, and the identity is `bn_fold_relu` at `z = y + b`; `y` and `b` are arbitrary. -/
theorem bn_bridge (y b mu g be v : EReal)
    (hmu : ∃ r : ℝ, mu = (r : EReal)) (hg : ∃ r : ℝ, g = (r : EReal))
    (hbe : ∃ r : ℝ, be = (r : EReal)) (hv : ∃ r : ℝ, v = (r : EReal)) (hv0 : 0 ≤ v) :
    max ((y + b) * (g * Ideal.rsqrt (v + Ideal.ofBits .f32 0x3727C5AC#32))
          + (be - mu * (g * Ideal.rsqrt (v + Ideal.ofBits .f32 0x3727C5AC#32)))) 0
      = max ((((y + b) - mu) * Ideal.rsqrt (v + Ideal.ofBits .f32 0x3727C5AC#32)) * g + be) 0 := by
  obtain ⟨mu', rfl⟩ := hmu
  obtain ⟨g', rfl⟩ := hg
  obtain ⟨be', rfl⟩ := hbe
  obtain ⟨v', rfl⟩ := hv
  obtain ⟨e, he, hE⟩ := eps_f32_pos
  rw [hE]
  obtain ⟨r, hr⟩ := rsqrt_coe_add_real v' e (EReal.coe_nonneg.1 hv0) he
  rw [hr]
  exact (bn_fold_relu (y + b) mu' r g' be').symm

/-! ### Ten blocks of five thousand -/

/-- A sum over `a` blocks of `b` consecutive indices is the sum over all `a * b` indices: the pair
`(t, r)` is the index `b * t + r`, a bijection. -/
theorem sum_blocks_gen {M : Type*} [AddCommMonoid M] (a b : ℕ) (f : Fin (a * b) → M) :
    ∑ t : Fin a, ∑ r : Fin b, f (finProdFinEquiv (t, r)) = ∑ n : Fin (a * b), f n := by
  rw [← Fintype.sum_prod_type']
  exact Fintype.sum_equiv finProdFinEquiv _ _ (fun _ => rfl)

theorem sum_blocks {M : Type*} [AddCommMonoid M] (f : Fin 50000 → M) :
    ∑ t : Fin 10, ∑ r : Fin 5000, f ⟨5000 * t.val + r.val, by omega⟩ = ∑ n : Fin 50000, f n := by
  rw [← sum_blocks_gen 10 5000 f]
  refine Finset.sum_congr rfl (fun t _ => Finset.sum_congr rfl (fun r _ => ?_))
  congr 1
  apply Fin.ext
  simp [finProdFinEquiv]
  omega

end Cert.Hand.IdealLemmas
-- ==== Proof.BridgeBN.lean ====
/- The two batch-normalisation steps of the bridge between the kernel program and the reference, at the ideal values.

   Each of the two bias + batch-norm + ReLU regions finds in its input arrays the activations and three rows the host
   computed from the layer's five parameter vectors: the bias; the folded scale `γ · rsqrt(σ² + ε)`; the folded shift
   `β - μ · (γ · rsqrt(σ² + ε))`. Its output array is, entry by entry, `max ((h + bias) · scale + shift) 0`. The
   reference computes `max ((((h + bias) - μ) · rsqrt(σ² + ε)) · γ + β) 0`. Under the precondition the four parameter
   vectors `μ γ β σ²` are real and `σ² ≥ 0`, so `rsqrt(σ² + ε)` is a real, and the two forms agree at every
   extended-real activation. Given that the activations a region finds are the reference's, the region's output
   array is therefore the reference's layer. -/
import proofs.«411740_j10170482556987_1_alg».proof.Proof.KiSegs
import proofs.«411740_j10170482556987_1_alg».proof.Proof.KvR1
import proofs.«411740_j10170482556987_1_alg».proof.Proof.KvR3
import proofs.«411740_j10170482556987_1_alg».proof.Proof.KTermsB
import proofs.«411740_j10170482556987_1_alg».proof.Proof.RefRead
import proofs.«411740_j10170482556987_1_alg».proof.Proof.IdealLemmas
import proofs.«411740_j10170482556987_1_alg».proof.Proof.PreFacts

noncomputable section

namespace Cert.Proof.Bridge

open Cert.KernelIdeal
open Idealize.ShloMosaic Idealize.ShloMosaic.TcCoe Idealize.ShloMosaic.ValueIdx Idealize.SL.Sem

/-- One normalisation layer at one entry. The kernel's side adds the bias lane to the activation, multiplies by the
    folded scale `γ · rsqrt(σ² + ε)` and adds the folded shift `β - μ · (γ · rsqrt(σ² + ε))`; the reference's side
    subtracts the mean, multiplies by the inverse deviation and by `γ`, and adds `β`. With `μ γ β σ²` real and
    `σ² ≥ 0` the inverse deviation is real, and the two agree at every extended-real activation. -/
theorem bn_layer_at (h : S50000x128.Idx → EReal) (rb rs rt : S1x128.Idx → EReal) (b g be mu v : S128.Idx → EReal)
    (hb : ∀ j : Fin 128, rb (ix2 (0 : Fin 1) j) = b (ix1 j))
    (hs : ∀ j : Fin 128, rs (ix2 (0 : Fin 1) j) = g (ix1 j) * Ideal.rsqrt (v (ix1 j) + Ideal.ofBits .f32 0x3727C5AC#32))
    (ht : ∀ j : Fin 128, rt (ix2 (0 : Fin 1) j)
      = be (ix1 j) - mu (ix1 j) * (g (ix1 j) * Ideal.rsqrt (v (ix1 j) + Ideal.ofBits .f32 0x3727C5AC#32)))
    (hmu : ∀ i, ∃ r : ℝ, mu i = (r : EReal)) (hg : ∀ i, ∃ r : ℝ, g i = (r : EReal)) (hbe : ∀ i, ∃ r : ℝ, be i = (r : EReal))
    (hv : ∀ i, ∃ r : ℝ, v i = (r : EReal)) (hv0 : ∀ i, 0 ≤ v i) (i : Fin 50000) (j : Fin 128) :
    max ((h (ix2 i j) + rb (ix2 (0 : Fin 1) j)) * rs (ix2 (0 : Fin 1) j) + rt (ix2 (0 : Fin 1) j)) 0
      = max ((((h (ix2 i j) + b (ix1 j)) - mu (ix1 j)) * Ideal.rsqrt (v (ix1 j) + Ideal.ofBits .f32 0x3727C5AC#32)) * g (ix1 j)
          + be (ix1 j)) 0 := by
  rw [hb, hs, ht]
  exact Cert.Hand.IdealLemmas.bn_bridge _ _ _ _ _ _ (hmu _) (hg _) (hbe _) (hv _) (hv0 _)

/-- Region 1's output array is the reference's normalised, rectified layer, given what the region finds in its four
    input arrays: the activations `h`; the bias row `b`; the scale row `γ · rsqrt(σ² + ε)`; the shift row
    `β - μ · (γ · rsqrt(σ² + ε))`; and given that the reference's layer `ref` is, entry by entry,
    `max ((((h + b) - μ) · rsqrt(σ² + ε)) · γ + β) 0`. -/
theorem bn_region1 (V : (c : Dev nD) → (b : Ref sig .tc) → Buf (Elt Ideal) ((c : Thread nD τ).loc b)) (c : Dev nD)
    (h ref : S50000x128.Idx → EReal) (b g be mu v : S128.Idx → EReal)
    (eh : V c main_v40 = h)
    (hb : ∀ j : Fin 128, V c main_v47 (ix2 (0 : Fin 1) j) = b (ix1 j))
    (hs : ∀ j : Fin 128, V c main_v48 (ix2 (0 : Fin 1) j) = g (ix1 j) * Ideal.rsqrt (v (ix1 j) + Ideal.ofBits .f32 0x3727C5AC#32))
    (ht : ∀ j : Fin 128, V c main_v49 (ix2 (0 : Fin 1) j)
      = be (ix1 j) - mu (ix1 j) * (g (ix1 j) * Ideal.rsqrt (v (ix1 j) + Ideal.ofBits .f32 0x3727C5AC#32)))
    (hmu : ∀ i, ∃ r : ℝ, mu i = (r : EReal)) (hg : ∀ i, ∃ r : ℝ, g i = (r : EReal)) (hbe : ∀ i, ∃ r : ℝ, be i = (r : EReal))
    (hv : ∀ i, ∃ r : ℝ, v i = (r : EReal)) (hv0 : ∀ i, 0 ≤ v i)
    (href : ∀ (i : Fin 50000) (j : Fin 128), ref (ix2 i j)
      = max ((((h (ix2 i j) + b (ix1 j)) - mu (ix1 j)) * Ideal.rsqrt (v (ix1 j) + Ideal.ofBits .f32 0x3727C5AC#32)) * g (ix1 j) + be (ix1 j)) 0) :
    (Hand.dat1 (F := Ideal) V c).arrAt 4 cfg1.N = ref := by
  funext i
  obtain ⟨p, q, rfl⟩ : ∃ (p : Fin 50000) (q : Fin 128), i = ix2 p q := ⟨i 0, i 1, eq_ix2 i⟩
  rw [HandV.arrAt1_apply, HandV.bnRelu1_ix2, href, eh]
  exact bn_layer_at h _ _ _ b g be mu v hb hs ht hmu hg hbe hv hv0 p q

/-- Region 3's output array is the reference's normalised, rectified layer, given what the region finds in its four
    input arrays: the activations `h`; the bias row `b`; the scale row `γ · rsqrt(σ² + ε)`; the shift row
    `β - μ · (γ · rsqrt(σ² + ε))`; and given that the reference's layer `ref` is, entry by entry,
    `max ((((h + b) - μ) · rsqrt(σ² + ε)) · γ + β) 0`. -/
theorem bn_region3 (V : (c : Dev nD) → (b : Ref sig .tc) → Buf (Elt Ideal) ((c : Thread nD τ).loc b)) (c : Dev nD)
    (h ref : S50000x128.Idx → EReal) (b g be mu v : S128.Idx → EReal)
    (eh : V c main_v63 = h)
    (hb : ∀ j : Fin 128, V c main_v70 (ix2 (0 : Fin 1) j) = b (ix1 j))
    (hs : ∀ j : Fin 128, V c main_v71 (ix2 (0 : Fin 1) j) = g (ix1 j) * Ideal.rsqrt (v (ix1 j) + Ideal.ofBits .f32 0x3727C5AC#32))
    (ht : ∀ j : Fin 128, V c main_v72 (ix2 (0 : Fin 1) j)
      = be (ix1 j) - mu (ix1 j) * (g (ix1 j) * Ideal.rsqrt (v (ix1 j) + Ideal.ofBits .f32 0x3727C5AC#32)))
    (hmu : ∀ i, ∃ r : ℝ, mu i = (r : EReal)) (hg : ∀ i, ∃ r : ℝ, g i = (r : EReal)) (hbe : ∀ i, ∃ r : ℝ, be i = (r : EReal))
    (hv : ∀ i, ∃ r : ℝ, v i = (r : EReal)) (hv0 : ∀ i, 0 ≤ v i)
    (href : ∀ (i : Fin 50000) (j : Fin 128), ref (ix2 i j)
      = max ((((h (ix2 i j) + b (ix1 j)) - mu (ix1 j)) * Ideal.rsqrt (v (ix1 j) + Ideal.ofBits .f32 0x3727C5AC#32)) * g (ix1 j) + be (ix1 j)) 0) :
    (Hand.dat3 (F := Ideal) V c).arrAt 4 cfg3.N = ref := by
  funext i
  obtain ⟨p, q, rfl⟩ : ∃ (p : Fin 50000) (q : Fin 128), i = ix2 p q := ⟨i 0, i 1, eq_ix2 i⟩
  rw [HandV.arrAt3_apply, HandV.bnRelu3_ix2, href, eh]
  exact bn_layer_at h _ _ _ b g be mu v hb hs ht hmu hg hbe hv hv0 p q

/-! ## The two steps, on the chain of buffer contents of @main -/

variable (m : (ℓ : Loc nD τ sig) → Buf (Elt Ideal) ℓ) (c : Dev nD)

/-- The first normalisation: if the activations region 1 finds are the reference's first neighbourhood sum, the array
    region 1 leaves is the reference's first layer. -/
theorem b3 (hp : Cert.Hand.PreFacts.Holds (HandT.X0 m c) (HandT.X3 m c) (HandT.X4 m c) (HandT.X5 m c) (HandT.X6 m c) (HandT.X7 m c) (HandT.X8 m c) (HandT.X9 m c) (HandT.X10 m c) (HandT.X11 m c) (HandT.X12 m c) (HandT.X13 m c) (HandT.X14 m c) (HandT.X15 m c) (HandT.X16 m c))
    (h2 : Gen.V3 m (Hand.outs m) c main_v40 = Cert.ReferenceIdeal.Read.val_main_v40 (F := Ideal) (HandT.X0 m c) (HandT.X1 m c) (HandT.X3 m c)) :
    Hand.o4 m c = Cert.ReferenceIdeal.Read.val_main_v59 (F := Ideal) (HandT.X0 m c) (HandT.X1 m c) (HandT.X3 m c) (HandT.X4 m c) (HandT.X5 m c) (HandT.X6 m c) (HandT.X7 m c) (HandT.X8 m c) :=
  bn_region1 (Hand.atTc (Hand.U3 m)) c _ _ (HandT.X4 m c) (HandT.X5 m c) (HandT.X6 m c) (HandT.X7 m c) (HandT.X8 m c)
    ((congrFun (Hand.V3_eq m c) main_v40).symm.trans h2)
    (fun j => by have e := HandT.V3_main_v47_at m (Hand.outs m) c j; rw [Hand.V3_eq m c] at e; exact e)
    (fun j => by have e := HandT.V3_main_v48_at m (Hand.outs m) c j; rw [Hand.V3_eq m c] at e; exact e)
    (fun j => by have e := HandT.V3_main_v49_at m (Hand.outs m) c j; rw [Hand.V3_eq m c] at e; exact e)
    hp.fin7 hp.fin5 hp.fin6 hp.fin8 hp.nonneg8
    (fun i j => Cert.ReferenceIdeal.RefRead.v59_at _ _ _ _ _ _ _ _ i j)

/-- The second normalisation: if the activations region 3 finds are the reference's second neighbourhood sum, the array
    region 3 leaves is the reference's second layer. -/
theorem b6 (hp : Cert.Hand.PreFacts.Holds (HandT.X0 m c) (HandT.X3 m c) (HandT.X4 m c) (HandT.X5 m c) (HandT.X6 m c) (HandT.X7 m c) (HandT.X8 m c) (HandT.X9 m c) (HandT.X10 m c) (HandT.X11 m c) (HandT.X12 m c) (HandT.X13 m c) (HandT.X14 m c) (HandT.X15 m c) (HandT.X16 m c))
    (h5 : Gen.V6 m (Hand.outs m) c main_v63 = Cert.ReferenceIdeal.Read.val_main_v96 (F := Ideal) (HandT.X0 m c) (HandT.X1 m c) (HandT.X3 m c) (HandT.X4 m c) (HandT.X5 m c) (HandT.X6 m c) (HandT.X7 m c) (HandT.X8 m c) (HandT.X9 m c)) :
    Hand.o7 m c = Cert.ReferenceIdeal.Read.val_main_v115 (F := Ideal) (HandT.X0 m c) (HandT.X1 m c) (HandT.X3 m c) (HandT.X4 m c) (HandT.X5 m c) (HandT.X6 m c) (HandT.X7 m c) (HandT.X8 m c) (HandT.X9 m c) (HandT.X10 m c) (HandT.X11 m c) (HandT.X12 m c) (HandT.X13 m c) (HandT.X14 m c) :=
  bn_region3 (Hand.atTc (Hand.U6 m)) c _ _ (HandT.X10 m c) (HandT.X11 m c) (HandT.X12 m c) (HandT.X13 m c) (HandT.X14 m c)
    ((congrFun (Hand.V6_eq m c) main_v63).symm.trans h5)
    (fun j => by have e := HandT.V6_main_v70_at m (Hand.outs m) c j; rw [Hand.V6_eq m c] at e; exact e)
    (fun j => by have e := HandT.V6_main_v71_at m (Hand.outs m) c j; rw [Hand.V6_eq m c] at e; exact e)
    (fun j => by have e := HandT.V6_main_v72_at m (Hand.outs m) c j; rw [Hand.V6_eq m c] at e; exact e)
    hp.fin13 hp.fin11 hp.fin12 hp.fin14 hp.nonneg14
    (fun i j => Cert.ReferenceIdeal.RefRead.v115_at _ _ _ _ _ _ _ _ _ _ _ _ _ _ i j)

end Cert.Proof.Bridge

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.PoolBridge.lean ====
/-
  The pooled sum two ways.

  Each of the 50000 rows carries a graph id, a 32-bit word. The one-hot matrix of the ids is the [50000 × 64] array whose
  entry (n, g) is 1 where row n's id word equals the word of the column number g, and 0 elsewhere: an `iota` along the
  columns compared for equality with the ids laid along the rows, the bit then read as a number. Multiplying its
  transpose with an array `h` of rows gives, at (g, k), the sum over all rows n of entry (n, g) times `h (n, k)`. At the
  extended reals 0 * x = 0 and 1 * x = x for every x, the infinite ones too, so that sum is the sum of `h (n, k)` over
  the rows whose id is g.

  A row scatter-add of `h` into a zero [64 × 128] array by the same ids gives the same thing: element (g, k) ends at
  0 plus the sum of `h (n, k)` over the rows n whose id word reads g as a signed integer. For g below 64 a word reads g
  signed exactly when it is the word of g, so the two sums run over the same rows.
-/
import Idealize.ShloMosaic.PureOps.Ideal
import Idealize.ShloMosaic.PureOps.Ideal.Laws
import Idealize.ShloMosaic.Lib.ValueIdx
import Idealize.ShloMosaic.Lib.StableHlo.Predicate
import proofs.«411740_j10170482556987_1_alg».proof.Proof.LibRowGatherScatter

noncomputable section

namespace Cert.PoolBridge

open Idealize.ShloMosaic Idealize.ShloMosaic.ValueIdx Idealize.ShloMosaic.StableHlo.Predicate

local notation "S_" => (⟨0, ![]⟩ : Shape)
local notation "S50000" => (⟨1, ![50000]⟩ : Shape)
local notation "S64" => (⟨1, ![64]⟩ : Shape)
local notation "S1x64" => (⟨2, ![1, 64]⟩ : Shape)
local notation "S50000x1" => (⟨2, ![50000, 1]⟩ : Shape)
local notation "S50000x64" => (⟨2, ![50000, 64]⟩ : Shape)
local notation "S64x128" => (⟨2, ![64, 128]⟩ : Shape)
local notation "S50000x128" => (⟨2, ![50000, 128]⟩ : Shape)

/-- A 32-bit word reads, signed, as a small natural number exactly when it is that number's word. -/
theorem toInt_eq_iff_eq_ofNat (w : BitVec 32) (g : ℕ) (hg : g < 2 ^ 31) :
    w.toInt = (g : ℤ) ↔ w = BitVec.ofNat 32 g := by
  constructor
  · intro h
    apply BitVec.eq_of_toInt_eq
    rw [h, toInt_ofNat_small g hg]
  · rintro rfl
    exact toInt_ofNat_small g hg

/-- Entry (n, g) of the one-hot matrix: 1 where row n's id word is the word of column g, else 0. -/
theorem oneHot_apply (hb : Shape.BroadcastsInDim S50000 S50000x1 ![0])
    (hbb : Shape.BroadcastsInDim S50000x1 S50000x64 ![0, 1])
    (hr : Shape.BroadcastsInDim S64 S1x64 ![1])
    (hrr : Shape.BroadcastsInDim S1x64 S50000x64 ![0, 1])
    (batch : IVec S50000 32) (n : Fin 50000) (g : Fin 64) :
    (uitofp (F := Ideal) .bf16 (cmpi .eq
        (broadcastInDim S50000x64 ![0, 1] hbb (broadcastInDim S50000x1 ![0] hb batch))
        (broadcastInDim S50000x64 ![0, 1] hrr (broadcastInDim S1x64 ![1] hr (iotaInDim S64 32 0))))
      : FVec Ideal S50000x64 .bf16) (ix2 n g)
      = if batch (Shape.Idx.ofFin n) = BitVec.ofNat 32 g.val then (1 : EReal) else 0 := by
  have hij : (ix2 n g : Shape.Idx S50000x64) = ij n g := by
    funext a; match a with | ⟨0, _⟩ => rfl | ⟨1, _⟩ => rfl
  have hA := bcast_rows hb hbb batch n g
  have hB := bcast_cols hr hrr (iotaInDim S64 32 0) n g
  rw [iota_apply] at hB
  rw [hij]
  show (((IntOp.cmpi .eq _ _).toNat : ℝ) : EReal) = _
  rw [hA, hB]
  by_cases he : batch (Shape.Idx.ofFin n) = BitVec.ofNat 32 g.val
  · rw [if_pos he, cmpi_eq_iff.2 he]
    simp
  · have hz : IntOp.cmpi .eq (batch (Shape.Idx.ofFin n)) (BitVec.ofNat 32 g.val) = 0#1 :=
      eq_zero_of_ne_one fun h1 => he (cmpi_eq_iff.1 h1)
    rw [if_neg he, hz]
    simp

/-- The product of the one-hot matrix (transposed) with the rows of `h`, at (g, k), is the row scatter-add of `h` into a
    zero [64 × 128] array by the graph ids, at (g, k): both are the sum of `h (n, k)` over the rows `n` whose id is `g`. -/
theorem onehot_sum_eq_scatterAdd (hb : Shape.BroadcastsInDim S50000 S50000x1 ![0])
    (hbb : Shape.BroadcastsInDim S50000x1 S50000x64 ![0, 1])
    (hr : Shape.BroadcastsInDim S64 S1x64 ![1])
    (hrr : Shape.BroadcastsInDim S1x64 S50000x64 ![0, 1])
    (hz : Shape.BroadcastsInDim S_ S64x128 ![])
    (d : ScatterDims S64x128 S50000x1 S50000x128)
    (huw : d.updateWindowDims = [1]) (hiw : d.insertedWindowDims = [0]) (hsd : d.scatterDimsToOperandDims = [0])
    (hivd : d.indexVectorDim = 1)
    (batch : IVec S50000 32) (h : Shape.Idx S50000x128 → EReal) (g : Fin 64) (k : Fin 128) :
    ∑ n : Fin 50000,
        (uitofp (F := Ideal) .bf16 (cmpi .eq
            (broadcastInDim S50000x64 ![0, 1] hbb (broadcastInDim S50000x1 ![0] hb batch))
            (broadcastInDim S50000x64 ![0, 1] hrr (broadcastInDim S1x64 ![1] hr (iotaInDim S64 32 0))))
          : FVec Ideal S50000x64 .bf16) (ix2 n g) * h (ix2 n k)
      = (Host.scatterAdd (F := Ideal) (φ := .f32) d
            (broadcastInDim S64x128 ![] hz (constant (F := Ideal) S_ .f32 0x00000000#32))
            (broadcastInDim S50000x1 ![0] hb batch) h : Shape.Idx S64x128 → EReal) (ix2 g k) := by
  rw [Cert.Gcn.scatterAdd_rows d huw hiw hsd hivd]
  -- the zero operand reads 0
  have hx : broadcastInDim S64x128 ![] hz (constant (F := Ideal) S_ .f32 0x00000000#32) (ix2 g k) = (0 : EReal) := by
    rw [bcast_scalar hz (by decide)]
    exact Ideal.ofBits_zero_f32
  rw [hx, zero_add, Finset.sum_filter]
  refine Finset.sum_congr rfl fun n _ => ?_
  -- the index column read at row n is row n's id word
  have hidx : broadcastInDim S50000x1 ![0] hb batch (ix2 n (0 : Fin 1)) = batch (Shape.Idx.ofFin n) := by
    have hixP : (ix2 n (0 : Fin 1) : Shape.Idx S50000x1) = ixP n := by
      funext a; match a with | ⟨0, _⟩ => rfl | ⟨1, _⟩ => rfl
    rw [hixP]
    exact bcast_col1 hb batch n
  rw [oneHot_apply hb hbb hr hrr batch n g, hidx]
  have hg : g.val < 2 ^ 31 := lt_trans g.isLt (by norm_num)
  by_cases he : batch (Shape.Idx.ofFin n) = BitVec.ofNat 32 g.val
  · rw [if_pos he, if_pos ((toInt_eq_iff_eq_ofNat _ _ hg).2 he), one_mul]
  · rw [if_neg he, if_neg fun h' => he ((toInt_eq_iff_eq_ofNat _ _ hg).1 h'), zero_mul]

end Cert.PoolBridge

end
-- ==== Proof.KvR4.lean ====
/- REGION 4 (the pooling call), value half, at the ideal values. The accumulator the kernel carries across its ten
   grid points starts from zeros and gains, at point t, the product of the transposed one-hot block t with the
   feature block t; the output array is the accumulator after the last point. Read at an index (g, j) this is the
   sum over all 50000 rows n of onehot[n, g] * h[n, j]: each point contributes the 5000 rows of its block, and the
   ten blocks of 5000 rows are all the rows. -/
import proofs.«411740_j10170482556987_1_alg».proof.Proof.KiR4
import proofs.«411740_j10170482556987_1_alg».proof.Proof.IdealLemmas
import Idealize.ShloMosaic.Lib.Pipeline.Value
import Idealize.ShloMosaic.Lib.ValueIdx
import Idealize.ShloMosaic.Lib.ValueIdxCoords
import Idealize.ShloMosaic.PureOps.Ideal.Laws
import Mathlib.Algebra.BigOperators.Fin

set_option maxRecDepth 16384

noncomputable section

open Idealize.ShloMosaic Idealize.ShloMosaic.TcCoe Idealize.SL.Sem
open Idealize.ShloMosaic.ValueIdx
open Idealize.ShloMosaic.Pipeline (Dat)
open scoped BigOperators

namespace Cert.KernelIdeal.HandV

open Cert.KernelIdeal Cert.KernelIdeal.Gen Cert.KernelIdeal.Hand

/-! ## The contraction's operand indices, axis by axis -/

theorem lhs_pool_0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide), dif_pos (show (0 : Fin S64x5000.rank) ∈ dot_S64x5000_S5000x128_S64x128_1_0_0_1_n_n.lhsNonContracting by decide)]
  rfl
theorem lhs_pool_1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
theorem rhs_pool_0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
theorem rhs_pool_1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide), dif_pos (show (1 : Fin S5000x128.rank) ∈ dot_S64x5000_S5000x128_S64x128_1_0_0_1_n_n.rhsNonContracting by decide)]
  rfl

/-! ## The two payloads read at an index -/

/-- The zero fill: every entry is the extended real 0. -/
theorem k4_pay1_apply (i : S64x128.Idx) : k4_pay1 (F := Ideal) i = 0 := by
  unfold k4_pay1
  simp only [shapeCast_self]
  show Ideal.ofBits .f32 0x00000000#32 = 0
  exact Ideal.ofBits_zero_f32

/-- One accumulation at entry (g, j): the accumulator's entry plus the sum over the block's 5000 rows r of
    onehot[r, g] * h[r, j]. The transpose swaps the one-hot block's coordinates, the narrowing to bf16 is the
    identity at the ideal values, and the product accumulates onto zero. -/
theorem k4_pay2_apply (v3 : Vec Ideal S5000x64 .bf16) (v5 : Vec Ideal S5000x128 .f32) (v9 : Vec Ideal S64x128 .f32)
    (g : Fin 64) (j : Fin 128) :
    k4_pay2 (F := Ideal) v3 v5 v9 (ix2 g j) = v9 (ix2 g j) + ∑ r : Fin 5000, v3 (ix2 r g) * v5 (ix2 r j) := by
  unfold k4_pay2
  simp only [shapeCast_self]
  rw [addf_apply]
  refine congrArg (v9 (ix2 g j) + ·) ?_
  refine (Ideal.matmul_constant_zero_apply dot_S64x5000_S5000x128_S64x128_1_0_0_1_n_n none _ _ _).trans ?_
  rw [← Equiv.sum_comp (ValueIdx.contrEquiv1 dot_S64x5000_S5000x128_S64x128_1_0_0_1_n_n 5000 rfl rfl).symm]
  refine Finset.sum_congr rfl fun k _ => ?_
  have hk := ValueIdx.contrEquiv1_symm_val dot_S64x5000_S5000x128_S64x128_1_0_0_1_n_n 5000 rfl rfl k
  rw [truncf_apply]
  refine congrArg₂ (· * ·) ?_ ?_
  · refine transpose_apply _ v3 _ _ _ ?_
    intro b
    match b with
    | ⟨0, _⟩ => exact (show g.val = _ from (lhs_pool_0 (ix2 g j) _).symm)
    | ⟨1, _⟩ => exact (show k.val = _ from ((lhs_pool_1 (ix2 g j) _).trans hk).symm)
  · refine congrArg v5 (funext fun a => Fin.ext ?_)
    match a with
    | ⟨0, _⟩ => exact (rhs_pool_0 _ _).trans hk
    | ⟨1, _⟩ => exact rhs_pool_1 _ _

/-! ## What a point leaves, read at an index -/

theorem hz4 : (![0, 0] : Fin 2 → Nat) = fun _ => 0 := funext fun a => by fin_cases a <;> rfl

/-- The zero fill leaves zeros. -/
theorem zero4_apply (i : S64x128.Idx) : zero4 (F := Ideal) i = 0 := by
  unfold zero4
  rw [View.canon_unit_zero hz4]
  exact k4_pay1_apply i

/-- One accumulation over the accumulator `s` with the blocks `x0`, `x1`. -/
theorem step4_apply (x0 : Vec Ideal S5000x64 .bf16) (x1 : Vec Ideal S5000x128 .f32) (s : Vec Ideal S64x128 .f32)
    (g : Fin 64) (j : Fin 128) :
    step4 (F := Ideal) x0 x1 s (ix2 g j) = s (ix2 g j) + ∑ r : Fin 5000, x0 (ix2 r g) * x1 (ix2 r j) := by
  unfold step4
  rw [View.canon_unit_zero hz4]
  simp only [View.ld_unit_zero (S := S5000x64) hz4, View.ld_unit_zero (S := S5000x128) hz4,
    View.ld_unit_zero (S := S64x128) hz4]
  exact k4_pay2_apply x0 x1 s g j

/-- The copy to the output window is the accumulator. -/
theorem out4_2_eq (s : Vec Ideal S64x128 .f32) : out4_2 (F := Ideal) s = s := by
  unfold out4_2
  rw [View.canon_unit_zero hz4, View.ld_unit_zero (S := S64x128) hz4]

variable (V : (c : Dev nD) → (b : Ref sig .tc) → Buf (Elt Ideal) ((c : Thread nD τ).loc b))

/-! ## The input blocks are the arrays' rows 5000 t … 5000 t + 4999 -/

/-- Both input windows step their row block with the point and keep the column block at zero. -/
theorem idx4_0 : ∀ t : Fin cfg4.N, win4_0.index t 0 = t.val ∧ win4_0.index t 1 = 0 :=
  (by decide +kernel : ∀ t : Fin grid4.N, win4_0.index t 0 = t.val ∧ win4_0.index t 1 = 0)
theorem idx4_1 : ∀ t : Fin cfg4.N, win4_1.index t 0 = t.val ∧ win4_1.index t 1 = 0 :=
  (by decide +kernel : ∀ t : Fin grid4.N, win4_1.index t 0 = t.val ∧ win4_1.index t 1 = 0)

theorem iblk4_0_apply (c : Dev nD) (n : ℕ) (hn : n < cfg4.N) (h10 : n < 10) (r : Fin 5000) (g : Fin 64) :
    iblk4 V c 0 ⟨n, hn⟩ (ix2 r g) = V c main_v80 (ix2 (⟨5000 * n + r.val, by omega⟩ : Fin 50000) g) := by
  unfold iblk4
  rw [View.read_apply]
  show V c main_v80 _ = V c main_v80 _
  refine congrArg (V c main_v80) (funext fun a => Fin.ext ?_)
  match a with
  | ⟨0, _⟩ =>
    show win4_0.index ⟨n, hn⟩ 0 * 5000 + 1 * r.val = 5000 * n + r.val
    rw [(idx4_0 ⟨n, hn⟩).1]
    show n * 5000 + 1 * r.val = 5000 * n + r.val
    omega
  | ⟨1, _⟩ =>
    show win4_0.index ⟨n, hn⟩ 1 * 64 + 1 * g.val = g.val
    rw [(idx4_0 ⟨n, hn⟩).2]; omega

theorem iblk4_1_apply (c : Dev nD) (n : ℕ) (hn : n < cfg4.N) (h10 : n < 10) (r : Fin 5000) (j : Fin 128) :
    iblk4 V c 1 ⟨n, hn⟩ (ix2 r j) = V c main_v73 (ix2 (⟨5000 * n + r.val, by omega⟩ : Fin 50000) j) := by
  unfold iblk4
  rw [View.read_apply]
  show V c main_v73 _ = V c main_v73 _
  refine congrArg (V c main_v73) (funext fun a => Fin.ext ?_)
  match a with
  | ⟨0, _⟩ =>
    show win4_1.index ⟨n, hn⟩ 0 * 5000 + 1 * r.val = 5000 * n + r.val
    rw [(idx4_1 ⟨n, hn⟩).1]
    show n * 5000 + 1 * r.val = 5000 * n + r.val
    omega
  | ⟨1, _⟩ =>
    show win4_1.index ⟨n, hn⟩ 1 * 128 + 1 * j.val = j.val
    rw [(idx4_1 ⟨n, hn⟩).2]; omega

/-! ## The accumulation over the points -/

/-- The one-hot array and the feature array as the region finds them, read as extended reals. -/
abbrev onehot4 (c : Dev nD) : S50000x64.Idx → EReal := V c main_v80
abbrev feat4 (c : Dev nD) : S50000x128.Idx → EReal := V c main_v73

/-- The two input blocks of point `n`, read as extended reals. -/
abbrev blk4_0 (c : Dev nD) (n : ℕ) (hn : n < cfg4.N) : S5000x64.Idx → EReal := iblk4 V c 0 ⟨n, hn⟩
abbrev blk4_1 (c : Dev nD) (n : ℕ) (hn : n < cfg4.N) : S5000x128.Idx → EReal := iblk4 V c 1 ⟨n, hn⟩

/-- What point `t` adds at entry (g, j): the rows of block `t`. -/
def blockSum (c : Dev nD) (g : Fin 64) (j : Fin 128) (t : ℕ) (ht : t < 10) : EReal :=
  ∑ r : Fin 5000, onehot4 V c (ix2 (⟨5000 * t + r.val, by omega⟩ : Fin 50000) g)
    * feat4 V c (ix2 (⟨5000 * t + r.val, by omega⟩ : Fin 50000) j)

/-- A point's addend is its block's sum. -/
theorem addend_eq (c : Dev nD) (g : Fin 64) (j : Fin 128) (n : ℕ) (hn : n < cfg4.N) (h10 : n < 10) :
    ∑ r : Fin 5000, blk4_0 V c n hn (ix2 r g) * blk4_1 V c n hn (ix2 r j) = blockSum V c g j n h10 := by
  unfold blockSum
  refine Finset.sum_congr rfl fun r _ => ?_
  exact congrArg₂ (· * ·) (iblk4_0_apply V c n hn h10 r g) (iblk4_1_apply V c n hn h10 r j)

/-- The accumulator after point `n`, at entry (g, j), is the sum of the blocks 0 … n: by induction on the point. -/
theorem acc_eq (c : Dev nD) (g : Fin 64) (j : Fin 128) : ∀ (n : ℕ) (hn : n < cfg4.N) (h10 : n < 10),
    (outsAt4 V c n hn).2 (ix2 g j) = ∑ t : Fin (n + 1), blockSum V c g j t.val (by have := t.isLt; omega)
  | 0, hn, h10 => by
    show step4 (iblk4 V c 0 ⟨0, hn⟩) (iblk4 V c 1 ⟨0, hn⟩) zero4 (ix2 g j) = _
    refine (step4_apply _ _ _ g j).trans ?_
    rw [zero4_apply, zero_add, Fin.sum_univ_one]
    exact addend_eq V c g j 0 hn h10
  | n + 1, hn, h10 => by
    show step4 (iblk4 V c 0 ⟨n + 1, hn⟩) (iblk4 V c 1 ⟨n + 1, hn⟩) (outsAt4 V c n (Nat.lt_of_succ_lt hn)).2 (ix2 g j) = _
    refine (step4_apply _ _ _ g j).trans ?_
    refine Eq.trans ?_ (Fin.sum_univ_castSucc _).symm
    exact congrArg₂ (· + ·) (acc_eq c g j n (Nat.lt_of_succ_lt hn) (by omega)) (addend_eq V c g j (n + 1) hn h10)

/-! ## The output array -/

/-- The last point. -/
abbrev t4_last : Fin cfg4.N := ⟨9, by rw [show cfg4.N = 10 from N_4]; decide⟩

/-- The accumulator after the last point, as contents of the output array (its one block is the array). -/
abbrev result4 (c : Dev nD) : Buf (Elt Ideal) ((c : Thread nD τ).loc main_v81) := (outsAt4 V c 9 t4_last.isLt).2

/-- The one write-back, at the last point, writes it. -/
theorem flushed4_eq (c : Dev nD) (t : Fin cfg4.N) (hf : (cfg4.win 2).flush t = true) :
    (dat4 V c).flushed 2 t = ((cfg4.win 2).blk t).view.read (Elt Ideal) (result4 V c) := by
  have hN : cfg4.N = 10 := N_4
  have h9 : t.val = 9 := by have := (flush4_2 t).mp hf; have := t.isLt; omega
  obtain rfl : t = t4_last := Fin.ext h9
  show (cfg4.win 2).cut (grid4.coords t4_last) ((dat4 V c).after 2 t4_last) = _
  rw [after4_2, outsAt4_fst, out4_2_eq]
  have hz' : (fun a => win4_2.index t4_last a * main_v81.ty.shape.size a) = fun _ => 0 :=
    funext fun a => by fin_cases a <;> decide +kernel
  exact (Memref.read_access_unit_zero (Elt Ideal) main_v81 hz' (fun a => by rw [congrFun hz' a]; simp) (result4 V c)).symm

/-- So the output array ends holding the accumulator after the last point. -/
theorem final4 (c : Dev nD) : (dat4 V c).arrAt 2 cfg4.N = result4 V c :=
  (dat4 V c).arrAt_eq_of_cover 2 (result4 V c) (flushed4_eq V c) fun i =>
    ⟨t4_last, (flush4_2 t4_last).mpr rfl, by
      show i ∈ ((View.whole main_v81).slice (win4_2.rect t4_last)).set
      rw [View.set_slice_whole, Rect.mem_set_unit]
      intro a
      have h0 : (i 0 : Nat) < 64 := (i 0).isLt
      have h1 : (i 1 : Nat) < 128 := (i 1).isLt
      match a with
      | ⟨0, _⟩ =>
        show win4_2.index t4_last 0 * win4_2.size 0 ≤ (i 0 : Nat) ∧ (i 0 : Nat) < win4_2.index t4_last 0 * win4_2.size 0 + win4_2.xsize (grid4.coords t4_last) 0
        rw [show win4_2.index t4_last 0 * win4_2.size 0 = 0 from by decide +kernel, show win4_2.xsize (grid4.coords t4_last) 0 = 64 from by decide +kernel]; omega
      | ⟨1, _⟩ =>
        show win4_2.index t4_last 1 * win4_2.size 1 ≤ (i 1 : Nat) ∧ (i 1 : Nat) < win4_2.index t4_last 1 * win4_2.size 1 + win4_2.xsize (grid4.coords t4_last) 1
        rw [show win4_2.index t4_last 1 * win4_2.size 1 = 0 from by decide +kernel, show win4_2.xsize (grid4.coords t4_last) 1 = 128 from by decide +kernel]; omega⟩

/-- The output array after the region, read as extended reals. -/
abbrev pooled4 (c : Dev nD) : S64x128.Idx → EReal := (dat4 (F := Ideal) V c).arrAt 2 cfg4.N

/-- THE POOLING CALL'S VALUE: entry (g, j) of the output array is the sum over all rows n of onehot[n, g] * h[n, j]. -/
theorem value4 (c : Dev nD) (g : Fin 64) (j : Fin 128) :
    pooled4 V c (ix2 g j) = ∑ n : Fin 50000, onehot4 V c (ix2 n g) * feat4 V c (ix2 n j) := by
  show (dat4 (F := Ideal) V c).arrAt 2 cfg4.N (ix2 g j) = _
  rw [final4 V c]
  show (outsAt4 V c 9 t4_last.isLt).2 (ix2 g j) = _
  rw [acc_eq V c g j 9 t4_last.isLt (by decide)]
  exact Cert.Hand.IdealLemmas.sum_blocks (fun n => onehot4 V c (ix2 n g) * feat4 V c (ix2 n j))

end Cert.KernelIdeal.HandV

end
-- ==== Proof.BridgePool.lean ====
/-
  The pooling step of the bridge between the two programs.

  The kernel's pooling call leaves, at (g, j), the sum over all 50000 rows n of the one-hot entry (n, g) times the
  feature (n, j); the one-hot matrix is the host's comparison of the graph ids with the column numbers. The reference
  scatter-adds the feature rows into a zero [64 × 128] array by the same ids. Once the features agree, the two arrays
  agree: both hold, at (g, j), the sum of the features (n, j) over the rows n whose id is g.
-/
import proofs.«411740_j10170482556987_1_alg».proof.Proof.Gen.ReferenceIdeal.Read
import proofs.«411740_j10170482556987_1_alg».proof.Proof.PoolBridge
import proofs.«411740_j10170482556987_1_alg».proof.Proof.KiSegs
import proofs.«411740_j10170482556987_1_alg».proof.Proof.KTermsB
import proofs.«411740_j10170482556987_1_alg».proof.Proof.KvR4

noncomputable section

namespace Cert.Proof.Bridge

open Idealize.ShloMosaic Idealize.ShloMosaic.TcCoe Idealize.SL.Sem Idealize.ShloMosaic.StableHlo Idealize.ShloMosaic.ValueIdx
open Cert.KernelIdeal Cert.KernelIdeal.Gen

/-- The pooled array as a function of the one-hot matrix and the features, over plain extended-real arrays: if `P` is the
    transposed one-hot product of `A` and `B`, `A` is the one-hot matrix of the ids `batch`, and `B` is the reference's
    features, then `P` is the reference's scatter-add. -/
theorem pool_core (batch : IVec S50000 32)
    (x0 : (⟨Cert.ReferenceIdeal.S50000x512, .f32⟩ : BufTy).Contents (Elt Ideal))
    (x1 : (⟨Cert.ReferenceIdeal.S2x800000, .i32⟩ : BufTy).Contents (Elt Ideal))
    (x3 : (⟨Cert.ReferenceIdeal.S512x128, .f32⟩ : BufTy).Contents (Elt Ideal))
    (x4 x5 x6 x7 x8 : (⟨Cert.ReferenceIdeal.S128, .f32⟩ : BufTy).Contents (Elt Ideal))
    (x9 : (⟨Cert.ReferenceIdeal.S128x128, .f32⟩ : BufTy).Contents (Elt Ideal))
    (x10 x11 x12 x13 x14 : (⟨Cert.ReferenceIdeal.S128, .f32⟩ : BufTy).Contents (Elt Ideal))
    (A : S50000x64.Idx → EReal) (B : S50000x128.Idx → EReal) (P : S64x128.Idx → EReal)
    (hA : A = (uitofp (F := Ideal) .bf16 (cmpi .eq
        (broadcastInDim S50000x64 ![0, 1] Facts₀.bcast_S50000x1_S50000x64_0_1 (broadcastInDim S50000x1 ![0] Facts₀.bcast_S50000_S50000x1_0 batch))
        (broadcastInDim S50000x64 ![0, 1] Facts₀.bcast_S1x64_S50000x64_0_1 (broadcastInDim S1x64 ![1] Facts₀.bcast_S64_S1x64_1 (iotaInDim S64 32 0))))
          : FVec Ideal S50000x64 .bf16))
    (hB : B = Cert.ReferenceIdeal.Read.val_main_v115 (F := Ideal) x0 x1 x3 x4 x5 x6 x7 x8 x9 x10 x11 x12 x13 x14)
    (hP : ∀ (g : Fin 64) (j : Fin 128), P (ix2 g j) = ∑ n : Fin 50000, A (ix2 n g) * B (ix2 n j)) :
    P = Cert.ReferenceIdeal.Read.val_main_v118 (F := Ideal) x0 x1 batch x3 x4 x5 x6 x7 x8 x9 x10 x11 x12 x13 x14 := by
  subst hA hB
  refine funext fun (i : S64x128.Idx) => ?_
  obtain ⟨g, j, rfl⟩ : ∃ (g : Fin 64) (j : Fin 128), i = ix2 g j := ⟨i 0, i 1, eq_ix2 i⟩
  refine (hP g j).trans ?_
  exact Cert.PoolBridge.onehot_sum_eq_scatterAdd _ _ _ _ Cert.ReferenceIdeal.Facts₀.bcast_S_S64x128
    Cert.ReferenceIdeal.scatter_S64x128_S50000x1_S50000x128_1_0_0_1 rfl rfl rfl rfl batch _ g j

open Cert.KernelIdeal.Hand

variable (m : (ℓ : Loc nD τ sig) → Buf (Elt Ideal) ℓ) (c : Dev nD)

/-- (B7) If the fourth call's output is the reference's second-layer features, then the pooling call's output is the
    reference's scatter-add of those features by the graph ids. -/
theorem b7
    (h6 : o7 m c = Cert.ReferenceIdeal.Read.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :
    o9 m c = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine pool_core (m ((c : Thread nD τ).loc main_arg2)) _ _ _ _ _ _ _ _ _ _ _ _ _ _
    (Cert.KernelIdeal.HandV.onehot4 (atTc (U8 m)) c) (Cert.KernelIdeal.HandV.feat4 (atTc (U8 m)) c) (o9 m c) ?_ ?_
    (Cert.KernelIdeal.HandV.value4 (atTc (U8 m)) c)
  · -- the one-hot matrix: the pooling call's first operand is the host's term over the ids
    exact (congrArg (fun W => W main_v80) (V8_eq m c)).symm.trans (Cert.KernelIdeal.HandT.V8_main_v80 m (outs m) c)
  · -- the features: the pooling call's second operand is the fourth call's output
    exact ((congrArg (fun W => W main_v73) (V8_eq m c)).symm.trans
      ((Cert.KernelIdeal.HandT.V8_main_v73 m (outs m) c).trans (outs_7 m c))).trans h6
end Cert.Proof.Bridge

end
-- ==== Proof.KTermsA.lean ====
import proofs.«411740_j10170482556987_1_alg».proof.Proof.Gen.KernelIdeal.Regions
import proofs.«411740_j10170482556987_1_alg».proof.Proof.Gen.ReferenceIdeal.Read
import Idealize.ShloMosaic.Lib.StableHlo.Run

/-!
# The program's host stretches, read as the reference's stages

Between its dense kernels the program computes on the host exactly what the reference computes there: the edge lists
with self loops, the symmetric degree normalisation as one weight per edge, the neighbourhood sums, and the readout.
Here each buffer those stretches leave is identified with the reference's stage function, the kernels' outputs
standing where the reference has its own dense products. The operations are the same on both sides, so once the
stretch is unfolded to its operations the identifications hold by computation.
-/

noncomputable section

namespace Cert.KernelIdeal.HandT

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (outs : Gen.Outs (F := F)) (c : Dev nD)

/-! ## The edge lists and the edge weights -/

set_option maxHeartbeats 1000000 in
/-- The source list with self loops appended. -/
theorem T0_v5 : Gen.V1 m c (Proc.devRef .tc main_v5) = Cert.ReferenceIdeal.Read.val_main_v6 (F := F) (m ((c : Thread nD τ).loc main_arg1)) := by
  show StableHlo.after (hostOps0 (F := F)) (Gen.V0 m c) (Proc.devRef .tc main_v5) = _
  after_results
  rfl

set_option maxHeartbeats 1000000 in
/-- The target list with self loops appended. -/
theorem T0_v6 : Gen.V1 m c (Proc.devRef .tc main_v6) = Cert.ReferenceIdeal.Read.val_main_v7 (F := F) (m ((c : Thread nD τ).loc main_arg1)) := by
  show StableHlo.after (hostOps0 (F := F)) (Gen.V0 m c) (Proc.devRef .tc main_v6) = _
  after_results
  rfl

set_option maxHeartbeats 4000000 in
set_option maxRecDepth 8192 in
/-- The edge weights `deg^{-1/2}[source] * deg^{-1/2}[target]`, as a column. -/
theorem T0_v27 : Gen.V1 m c (Proc.devRef .tc main_v27) = Cert.ReferenceIdeal.Read.val_main_v35 (F := F) (m ((c : Thread nD τ).loc main_arg1)) := by
  show StableHlo.after (hostOps0 (F := F)) (Gen.V0 m c) (Proc.devRef .tc main_v27) = _
  after_results_simp
  rfl

/-! ## The neighbourhood sum of either layer, as a function of the dense product before it -/

/-- The first layer's neighbourhood sum, with the dense product `h` left as a parameter: rows of `h` gathered at the
    edges' sources, each scaled by its edge weight, and added into the rows of the edges' targets. -/
def refConv1 (h : (⟨Cert.ReferenceIdeal.S50000x128, .f32⟩ : BufTy).Contents (Elt F)) (x1 : (⟨Cert.ReferenceIdeal.S2x800000, .i32⟩ : BufTy).Contents (Elt F)) : (⟨Cert.ReferenceIdeal.S50000x128, .f32⟩ : BufTy).Contents (Elt F) :=
  Host.scatterAdd Cert.ReferenceIdeal.scatter_S50000x128_S850000x1_S850000x128_1_0_0_1 (Cert.ReferenceIdeal.Read.val_main_v38 (F := F)) (Cert.ReferenceIdeal.Read.val_main_v39 (F := F) x1)
    (mulf (Host.gather Cert.ReferenceIdeal.gather_S50000x128_S850000x1_S850000x128_1_0_n_n_0_1_1128 h (Cert.ReferenceIdeal.Read.val_main_v33 (F := F) x1)) (Cert.ReferenceIdeal.Read.val_main_v36 (F := F) x1))

/-- The reference's first neighbourhood sum is that function of its first dense product. -/
theorem mirror1 (x0 : (⟨Cert.ReferenceIdeal.S50000x512, .f32⟩ : BufTy).Contents (Elt F)) (x1 : (⟨Cert.ReferenceIdeal.S2x800000, .i32⟩ : BufTy).Contents (Elt F)) (x3 : (⟨Cert.ReferenceIdeal.S512x128, .f32⟩ : BufTy).Contents (Elt F)) :
    Cert.ReferenceIdeal.Read.val_main_v40 (F := F) x0 x1 x3 = refConv1 (Cert.ReferenceIdeal.Read.val_main_v4 (F := F) x0 x3) x1 := rfl

/-- The second layer's neighbourhood sum, with the dense product `h` left as a parameter (the reference recomputes the
    edge lists and weights for it; they are the same operations on the same input). -/
def refConv2 (h : (⟨Cert.ReferenceIdeal.S50000x128, .f32⟩ : BufTy).Contents (Elt F)) (x1 : (⟨Cert.ReferenceIdeal.S2x800000, .i32⟩ : BufTy).Contents (Elt F)) : (⟨Cert.ReferenceIdeal.S50000x128, .f32⟩ : BufTy).Contents (Elt F) :=
  Host.scatterAdd Cert.ReferenceIdeal.scatter_S50000x128_S850000x1_S850000x128_1_0_0_1 (Cert.ReferenceIdeal.Read.val_main_v94 (F := F)) (Cert.ReferenceIdeal.Read.val_main_v95 (F := F) x1)
    (mulf (Host.gather Cert.ReferenceIdeal.gather_S50000x128_S850000x1_S850000x128_1_0_n_n_0_1_1128 h (Cert.ReferenceIdeal.Read.val_main_v89 (F := F) x1)) (Cert.ReferenceIdeal.Read.val_main_v92 (F := F) x1))

/-- The reference's second neighbourhood sum is that function of its second dense product. -/
theorem mirror2 (x0 : (⟨Cert.ReferenceIdeal.S50000x512, .f32⟩ : BufTy).Contents (Elt F)) (x1 : (⟨Cert.ReferenceIdeal.S2x800000, .i32⟩ : BufTy).Contents (Elt F)) (x3 : (⟨Cert.ReferenceIdeal.S512x128, .f32⟩ : BufTy).Contents (Elt F)) (x4 x5 x6 x7 x8 : (⟨Cert.ReferenceIdeal.S128, .f32⟩ : BufTy).Contents (Elt F)) (x9 : (⟨Cert.ReferenceIdeal.S128x128, .f32⟩ : BufTy).Contents (Elt F)) :
    Cert.ReferenceIdeal.Read.val_main_v96 (F := F) x0 x1 x3 x4 x5 x6 x7 x8 x9 = refConv2 (Cert.ReferenceIdeal.Read.val_main_v60 (F := F) x0 x1 x3 x4 x5 x6 x7 x8 x9) x1 := rfl

/-- The readout, with the per-graph sums `s` left as a parameter: each row divided by its graph's node count (at least
    one), times the last weights, plus the last bias. -/
def refTail (s : (⟨Cert.ReferenceIdeal.S64x128, .f32⟩ : BufTy).Contents (Elt F)) (x2 : (⟨Cert.ReferenceIdeal.S50000, .i32⟩ : BufTy).Contents (Elt F)) (x15 : (⟨Cert.ReferenceIdeal.S128x2, .f32⟩ : BufTy).Contents (Elt F)) (x16 : (⟨Cert.ReferenceIdeal.S2, .f32⟩ : BufTy).Contents (Elt F)) : (⟨Cert.ReferenceIdeal.S64x2, .f32⟩ : BufTy).Contents (Elt F) :=
  addf (Host.dotGeneral Cert.ReferenceIdeal.dot_S64x128_S128x2_S64x2_1_0_0_1_n_n none (Host.divf s (Cert.ReferenceIdeal.Read.val_main_v126 (F := F) x2)) x15) (Cert.ReferenceIdeal.Read.val_main_v130 (F := F) x16)

/-- The reference's result is that function of its per-graph sums. -/
theorem mirror3 (x0 : (⟨Cert.ReferenceIdeal.S50000x512, .f32⟩ : BufTy).Contents (Elt F)) (x1 : (⟨Cert.ReferenceIdeal.S2x800000, .i32⟩ : BufTy).Contents (Elt F)) (x2 : (⟨Cert.ReferenceIdeal.S50000, .i32⟩ : BufTy).Contents (Elt F)) (x3 : (⟨Cert.ReferenceIdeal.S512x128, .f32⟩ : BufTy).Contents (Elt F)) (x4 x5 x6 x7 x8 : (⟨Cert.ReferenceIdeal.S128, .f32⟩ : BufTy).Contents (Elt F)) (x9 : (⟨Cert.ReferenceIdeal.S128x128, .f32⟩ : BufTy).Contents (Elt F)) (x10 x11 x12 x13 x14 : (⟨Cert.ReferenceIdeal.S128, .f32⟩ : BufTy).Contents (Elt F)) (x15 : (⟨Cert.ReferenceIdeal.S128x2, .f32⟩ : BufTy).Contents (Elt F)) (x16 : (⟨Cert.ReferenceIdeal.S2, .f32⟩ : BufTy).Contents (Elt F)) :
    Cert.ReferenceIdeal.Read.val_main_v131 (F := F) x0 x1 x2 x3 x4 x5 x6 x7 x8 x9 x10 x11 x12 x13 x14 x15 x16
      = refTail (Cert.ReferenceIdeal.Read.val_main_v118 (F := F) x0 x1 x2 x3 x4 x5 x6 x7 x8 x9 x10 x11 x12 x13 x14) x2 x15 x16 := rfl

/-! ## The program's host stretches -/

/-- What the first dense kernel leaves is what the valuation after it holds at its output. -/
theorem V2_v28 : Gen.V2 m outs c (Proc.devRef .tc main_v28) = outs 2 main_v28 c := by
  simp only [Gen.V2, Function.update_self]

set_option maxHeartbeats 2000000 in
set_option maxRecDepth 8192 in
/-- The host stretch after the first dense kernel computes the first neighbourhood sum of that kernel's output. -/
theorem T1 : Gen.V3 m outs c (Proc.devRef .tc main_v40) = refConv1 (outs 2 main_v28 c) (m ((c : Thread nD τ).loc main_arg1)) := by
  show StableHlo.after (hostOps1 (F := F)) (Gen.V2 m outs c) (Proc.devRef .tc main_v40) = _
  after_results
  rw [V2_of m outs c main_v5 (by decide), V2_of m outs c main_v6 (by decide), V2_of m outs c main_v27 (by decide),
    V2_v28, T0_v5, T0_v6, T0_v27]
  rfl

/-! ## The second layer's stretch and the readout -/

/-- What the second dense kernel leaves is what the valuation after it holds at its output. -/
theorem V5_v51 : Gen.V5 m outs c (Proc.devRef .tc main_v51) = outs 5 main_v51 c := by
  simp only [Gen.V5, Function.update_self]
/-- No item between the first stretch and the second layer's writes the source list. -/
theorem V5_v5 : Gen.V5 m outs c (Proc.devRef .tc main_v5) = Cert.ReferenceIdeal.Read.val_main_v6 (F := F) (m ((c : Thread nD τ).loc main_arg1)) :=
  (V5_of m outs c main_v5 (by decide)).trans <| (V4_of m outs c main_v5 (by decide)).trans <| (V3_of m outs c main_v5 (by decide)).trans <| (V2_of m outs c main_v5 (by decide)).trans <| T0_v5 m c
/-- No item between the first stretch and the second layer's writes the target list. -/
theorem V5_v6 : Gen.V5 m outs c (Proc.devRef .tc main_v6) = Cert.ReferenceIdeal.Read.val_main_v7 (F := F) (m ((c : Thread nD τ).loc main_arg1)) :=
  (V5_of m outs c main_v6 (by decide)).trans <| (V4_of m outs c main_v6 (by decide)).trans <| (V3_of m outs c main_v6 (by decide)).trans <| (V2_of m outs c main_v6 (by decide)).trans <| T0_v6 m c
/-- No item between the first stretch and the second layer's writes the edge weights. -/
theorem V5_v27 : Gen.V5 m outs c (Proc.devRef .tc main_v27) = Cert.ReferenceIdeal.Read.val_main_v35 (F := F) (m ((c : Thread nD τ).loc main_arg1)) :=
  (V5_of m outs c main_v27 (by decide)).trans <| (V4_of m outs c main_v27 (by decide)).trans <| (V3_of m outs c main_v27 (by decide)).trans <| (V2_of m outs c main_v27 (by decide)).trans <| T0_v27 m c

set_option maxHeartbeats 2000000 in
set_option maxRecDepth 8192 in
/-- The host stretch after the second dense kernel computes the second neighbourhood sum of that kernel's output. -/
theorem T3 : Gen.V6 m outs c (Proc.devRef .tc main_v63) = refConv2 (outs 5 main_v51 c) (m ((c : Thread nD τ).loc main_arg1)) := by
  show StableHlo.after (hostOps3 (F := F)) (Gen.V5 m outs c) (Proc.devRef .tc main_v63) = _
  after_results
  rw [V5_v5, V5_v6, V5_v27, V5_v51]
  rfl

/-- What the pooling kernel leaves is what the valuation after it holds at its output. -/
theorem V9_v81 : Gen.V9 m outs c (Proc.devRef .tc main_v81) = outs 9 main_v81 c := by
  simp only [Gen.V9, Function.update_self]
/-- The graph assignment reaches the last stretch as launched. -/
theorem V9_arg2 : Gen.V9 m outs c (Proc.devRef .tc main_arg2) = (m ((c : Thread nD τ).loc main_arg2)) :=
  (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide)).trans rfl
/-- The last weights reach the last stretch as launched. -/
theorem V9_arg15 : Gen.V9 m outs c (Proc.devRef .tc main_arg15) = (m ((c : Thread nD τ).loc main_arg15)) :=
  (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m outs c main_arg15 (by decide)).trans <| (V2_of m outs c main_arg15 (by decide)).trans <| (V1_of m c main_arg15 (by decide)).trans rfl
/-- The last bias reaches the last stretch as launched. -/
theorem V9_arg16 : Gen.V9 m outs c (Proc.devRef .tc main_arg16) = (m ((c : Thread nD τ).loc main_arg16)) :=
  (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m outs c main_arg16 (by decide)).trans <| (V2_of m outs c main_arg16 (by decide)).trans <| (V1_of m c main_arg16 (by decide)).trans rfl

set_option maxHeartbeats 2000000 in
set_option maxRecDepth 8192 in
/-- The last host stretch computes the readout of the pooling kernel's output. -/
theorem T5 : Gen.V10 m outs c (Proc.devRef .tc main_v94) = refTail (outs 9 main_v81 c) (m ((c : Thread nD τ).loc main_arg2)) (m ((c : Thread nD τ).loc main_arg15)) (m ((c : Thread nD τ).loc main_arg16)) := by
  show StableHlo.after (hostOps5 (F := F)) (Gen.V9 m outs c) (Proc.devRef .tc main_v94) = _
  after_results
  rw [V9_v81, V9_arg2, V9_arg15, V9_arg16]
  rfl

end Cert.KernelIdeal.HandT

end
-- ==== Proof.BridgeT.lean ====
/-
  The three places where the kernel program and the reference run the SAME host operations on a value: the
  normalised aggregation of a layer (gather the source rows, weight them by the edge norm, scatter-add into the
  destination rows) after each dense projection, and the closing stretch (divide the pooled sums by the clipped
  graph sizes, apply the linear layer, add its bias). Each is one function of the value it is applied to, so an
  equation between the two programs' values going in is an equation between the values coming out.
-/
import proofs.«411740_j10170482556987_1_alg».proof.Proof.KiSegs
import proofs.«411740_j10170482556987_1_alg».proof.Proof.KTermsA

noncomputable section

namespace Cert.Proof.Bridge

open Idealize.ShloMosaic Idealize.ShloMosaic.TcCoe Idealize.SL.Sem
open Cert.KernelIdeal Cert.KernelIdeal.Gen Cert.KernelIdeal.Hand Cert.KernelIdeal.HandT

variable (m : (ℓ : Loc nD τ sig) → Buf (Elt Ideal) ℓ) (c : Dev nD)

/-- Layer 1's aggregation: equal projections give equal aggregated features. -/
theorem b2 (h1 : o2 m c = Cert.ReferenceIdeal.Read.val_main_v4 (F := Ideal) (m ((c : Thread nD τ).loc main_arg0)) (m ((c : Thread nD τ).loc main_arg3))) :
    Gen.V3 m (outs m) c (Proc.devRef .tc main_v40)
      = Cert.ReferenceIdeal.Read.val_main_v40 (F := Ideal) (m ((c : Thread nD τ).loc main_arg0)) (m ((c : Thread nD τ).loc main_arg1)) (m ((c : Thread nD τ).loc main_arg3)) := by
  rw [T1 m (outs m) c, outs_2 m c, h1]
  exact (mirror1 _ _ _).symm

/-- Layer 2's aggregation. -/
theorem b5 (h4 : o5 m c = Cert.ReferenceIdeal.Read.val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    Gen.V6 m (outs m) c (Proc.devRef .tc main_v63)
      = Cert.ReferenceIdeal.Read.val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [T3 m (outs m) c, outs_5 m c, h4]
  exact (mirror2 _ _ _ _ _ _ _ _ _).symm

/-- The closing stretch: equal pooled sums give equal results. -/
theorem b8 (h7 : o9 m c = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :
    Gen.V10 m (outs m) c (Proc.devRef .tc main_v94)
      = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [T5 m (outs m) c, outs_9 m c, h7]
  exact (mirror3 _ _ _ _ _ _ _ _ _ _ _ _ _ _ _ _ _).symm

end Cert.Proof.Bridge

end
-- ==== Proof.lean ====
/-
  The certificate of a two-layer graph convolution network with batch normalisation (inference form), rectifier,
  mean pooling over graphs and a linear layer, against its plain reference.

  The kernel program runs five tiled regions among stretches of host operations: the two dense projections (a
  row block of the activations times the whole weight matrix), the two pointwise stages (bias, folded scale and
  shift, rectifier), and the pooling as a product of the transposed one-hot graph matrix with the features,
  accumulated over the row blocks. The reference computes the same network with whole-array operations, and
  writes the normalisation as (h - mean) * rsqrt(var + eps) * gamma + beta.

  Frames: each region's body is run on its windows' blocks (the proof data of the regions), and the program's
  frame follows from the conditional frame over the regions' records; the reference's frame is its run.
  Values, over the extended reals: stage by stage the kernel's array is the reference's — a projection is the
  same sum over the contracted axis; the aggregation and the closing stretch are the same operations on both
  sides; the pointwise stage folds the scale and shift, equal to the reference's form because the mean, gamma,
  beta are real and the variance is a non-negative real (the precondition), so the inverse deviation is real and
  multiplication distributes; the pooled sum over the one-hot rows is the scatter-add of the rows by graph id.
-/
import proofs.«411740_j10170482556987_1_alg».proof.Defs
import proofs.«411740_j10170482556987_1_alg».proof.Proof.Gen.Kernel
import proofs.«411740_j10170482556987_1_alg».proof.Proof.Gen.KernelIdeal
import proofs.«411740_j10170482556987_1_alg».proof.Proof.Gen.ReferenceIdeal
import proofs.«411740_j10170482556987_1_alg».proof.Proof.Gen.Pre_finite_inputs
import proofs.«411740_j10170482556987_1_alg».proof.Proof.Gen.ReferenceIdeal.Run
import proofs.«411740_j10170482556987_1_alg».proof.Proof.Gen.ReferenceIdeal.Read
import proofs.«411740_j10170482556987_1_alg».proof.Proof.KbSegs
import proofs.«411740_j10170482556987_1_alg».proof.Proof.KiSegs
import proofs.«411740_j10170482556987_1_alg».proof.Proof.KiRun
import proofs.«411740_j10170482556987_1_alg».proof.Proof.PreFacts
import proofs.«411740_j10170482556987_1_alg».proof.Proof.BridgeMM
import proofs.«411740_j10170482556987_1_alg».proof.Proof.BridgeBN
import proofs.«411740_j10170482556987_1_alg».proof.Proof.BridgePool
import proofs.«411740_j10170482556987_1_alg».proof.Proof.BridgeT
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel (hKernel := Cert.Kernel.Gen.facts) (hPre_finite_inputs := Cert.Pre_finite_inputs.Gen.facts) :=
  fun m ρ _ => Cert.Kernel.Hand.frameKI m ρ

theorem frame_ki : Cert.frame_KernelIdeal (hKernelIdeal := Cert.KernelIdeal.Gen.facts) (hPre_finite_inputs := Cert.Pre_finite_inputs.Gen.facts) :=
  fun m ρ _ => Cert.KernelIdeal.Hand.frameKI m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The kernel's result is the reference's function of the arguments -/

section Result

open Cert.KernelIdeal Cert.KernelIdeal.Gen Cert.KernelIdeal.Hand

variable (m : (ℓ : Loc nD τ sig) → Buf (Elt Ideal) ℓ) (c : Dev nD)

/-- Stage by stage: projection, aggregation, pointwise stage, twice; then the pooled sums and the closing stretch. -/
theorem result_eq
    (hp : Cert.Hand.PreFacts.Holds (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) :
    U10 m c (Proc.devRef .tc main_v94)
      = Cert.ReferenceIdeal.Read.val_main_v131 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have h1 := Bridge.b1 m c
  have h2 := Bridge.b2 m c h1
  have h3 := Bridge.b3 m c hp h2
  have h4 := Bridge.b4 m c h3
  have h5 := Bridge.b5 m c h4
  have h6 := Bridge.b6 m c hp h5
  have h7 := Bridge.b7 m c h6
  rw [← V10_eq m c]
  exact Bridge.b8 m c h7

end Result

/-! ## The value claim -/

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun _ h c => ⟨(h c).1.trans ?_, (h c).2⟩) (Cert.KernelIdeal.Hand.runKI m ρ)
    exact result_eq m c (Cert.Hand.PreFacts.of_pre _ _ _ _ _ _ _ _ _ _ _ _ _ _ _ _ _ (hpre c))
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v131_eq, e0, e1, e2, e3, e4, e5, e6, e7, e8, e9, e10, e11, e12, e13, e14, e15, e16]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
